-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S100x4096 : Shape := ⟨2, ![100, 4096]⟩
abbrev S100 : Shape := ⟨1, ![100]⟩
abbrev S1000x100 : Shape := ⟨2, ![1000, 100]⟩
abbrev S1000 : Shape := ⟨1, ![1000]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S100x4096 : S_.BroadcastsInDim S100x4096 (![] : Fin 0 → Fin S100x4096.rank)
  reducesTo_S100x4096_S_d0_1 : S100x4096.ReducesTo [0, 1] S_
  bcast_S_S100 : S_.BroadcastsInDim S100 (![] : Fin 0 → Fin S100.rank)
  reducesTo_S100_S_d0 : S100.ReducesTo [0] S_
  bcast_S_S1000x100 : S_.BroadcastsInDim S1000x100 (![] : Fin 0 → Fin S1000x100.rank)
  reducesTo_S1000x100_S_d0_1 : S1000x100.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S100 .f32) (main_arg5 : FVec F S1000x100 .f32) (main_arg6 : FVec F S1000 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S1000x100 .f32 := Host.absf main_arg5
  let main_cst_8 : FVec F S_ .f32 := constant S_ .f32 0x7F800000#32
  let main_v25 : FVec F S1000x100 .f32 := broadcastInDim S1000x100 ![] bcast_S_S1000x100 main_cst_8
  let main_v26 : IVec S1000x100 1 := cmpf .olt main_v24 main_v25
  let main_c_9 : IVec S_ 1 := constantI S_ 1 1#1
  let main_v27 : IVec S_ 1 := (fun x v => Host.reduce IntOp.andi x v reducesTo_S1000x100_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S32768x4096 .f32) (main_arg1 : FVec F S100x4096 .f32) (main_arg2 : FVec F S100 .f32) (main_arg3 : FVec F S100 .f32) (main_arg4 : FVec F S100 .f32) (main_arg5 : FVec F S1000x100 .f32) (main_arg6 : FVec F S1000 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S100x4096 .f32 := Host.absf main_arg1
  let main_cst_0 : FVec F S_ .f32 := constant S_ .f32 0x7F800000#32
  let main_v5 : FVec F S100x4096 .f32 := broadcastInDim S100x4096 ![] bcast_S_S100x4096 main_cst_0
  let main_v6 : IVec S100x4096 1 := cmpf .olt main_v4 main_v5
  let main_c_1 : IVec S_ 1 := constantI S_ 1 1#1
  let main_v7 : IVec S_ 1 := (fun x v => Host.reduce IntOp.andi x v reducesTo_S100x4096_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_v13 main_v16
-- ==== Kernel.lean ====
abbrev S32768x4096 : Shape := ⟨2, ![32768, 4096]⟩
abbrev S100x4096 : Shape := ⟨2, ![100, 4096]⟩
abbrev S100 : Shape := ⟨1, ![100]⟩
abbrev S1000x100 : Shape := ⟨2, ![1000, 100]⟩
abbrev S1000 : Shape := ⟨1, ![1000]⟩
abbrev S1x100 : Shape := ⟨2, ![1, 100]⟩
abbrev S32768x100 : Shape := ⟨2, ![32768, 100]⟩
abbrev S512x4096 : Shape := ⟨2, ![512, 4096]⟩
abbrev S512x100 : Shape := ⟨2, ![512, 100]⟩
abbrev S_ : Shape := ⟨0, ![]⟩
abbrev S1x1000 : Shape := ⟨2, ![1, 1000]⟩
abbrev S32768x1000 : Shape := ⟨2, ![32768, 1000]⟩
abbrev S1024x100 : Shape := ⟨2, ![1024, 100]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 30
  | .vmem => 18
  | .smem => 0
  | _ => 0

abbrev bufTy : (tb : Table) → Fin (tcTables nBuf tb) → BufTy
  | .hbm, ⟨0, _⟩ => ⟨S32768x4096, .f32⟩
  | .hbm, ⟨1, _⟩ => ⟨S100x4096, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S1000x100, .f32⟩
  | .hbm, ⟨6, _⟩ => ⟨S1000, .f32⟩
  | .hbm, ⟨7, _⟩ => ⟨S1x100, .f32⟩
  | .hbm, ⟨8, _⟩ => ⟨S32768x100, .f32⟩
  | .hbm, ⟨9, _⟩ => ⟨S1x100, .f32⟩
  | .hbm, ⟨10, _⟩ => ⟨S1x100, .f32⟩
  | .hbm, ⟨11, _⟩ => ⟨S_, .f32⟩
  | .hbm, ⟨12, _⟩ => ⟨S1x100, .f32⟩
  | .hbm, ⟨13, _⟩ => ⟨S1x100, .f32⟩
  | .hbm, ⟨14, _⟩ => ⟨S_, .f32⟩
  | .hbm, ⟨15, _⟩ => ⟨S1x100, .f32⟩
  | .hbm, ⟨16, _⟩ => ⟨S1x100, .f32⟩
  | .hbm, ⟨17, _⟩ => ⟨S1x100, .f32⟩
  | .hbm, ⟨18, _⟩ => ⟨S1x100, .f32⟩
  | .hbm, ⟨19, _⟩ => ⟨S1x100, .f32⟩
  | .hbm, ⟨20, _⟩ => ⟨S_, .f32⟩
  | .hbm, ⟨21, _⟩ => ⟨S1x100, .f32⟩
  | .hbm, ⟨22, _⟩ => ⟨S1x100, .f32⟩
  | .hbm, ⟨23, _⟩ => ⟨S1x100, .f32⟩
  | .hbm, ⟨24, _⟩ => ⟨S1x100, .f32⟩
  | .hbm, ⟨25, _⟩ => ⟨S1x100, .f32⟩
  | .hbm, ⟨26, _⟩ => ⟨S1x100, .f32⟩
  | .hbm, ⟨27, _⟩ => ⟨S1x100, .f32⟩
  | .hbm, ⟨28, _⟩ => ⟨S1x1000, .f32⟩
  | .hbm, ⟨29, _⟩ => ⟨S32768x1000, .f32⟩
  | .local _ .vmem, ⟨0, _⟩ => ⟨S512x4096, .f32⟩
  | .local _ .vmem, ⟨1, _⟩ => ⟨S512x4096, .f32⟩
  | .local _ .vmem, ⟨2, _⟩ => ⟨S100x4096, .f32⟩
  | .local _ .vmem, ⟨3, _⟩ => ⟨S1x100, .f32⟩
  | .local _ .vmem, ⟨4, _⟩ => ⟨S512x100, .f32⟩
  | .local _ .vmem, ⟨5, _⟩ => ⟨S512x100, .f32⟩
  | .local _ .vmem, ⟨6, _⟩ => ⟨S1x100, .f32⟩
  | .local _ .vmem, ⟨7, _⟩ => ⟨S1x100, .f32⟩
  | .local _ .vmem, ⟨8, _⟩ => ⟨S1x100, .f32⟩
  | .local _ .vmem, ⟨9, _⟩ => ⟨S1x100, .f32⟩
  | .local _ .vmem, ⟨10, _⟩ => ⟨S1024x100, .f32⟩
  | .local _ .vmem, ⟨11, _⟩ => ⟨S1024x100, .f32⟩
  | .local _ .vmem, ⟨12, _⟩ => ⟨S1000x100, .f32⟩
  | .local _ .vmem, ⟨13, _⟩ => ⟨S1x1000, .f32⟩
  | .local _ .vmem, ⟨14, _⟩ => ⟨S1x100, .f32⟩
  | .local _ .vmem, ⟨15, _⟩ => ⟨S1x100, .f32⟩
  | .local _ .vmem, ⟨16, _⟩ => ⟨S1024x1000, .f32⟩
  | .local _ .vmem, ⟨17, _⟩ => ⟨S1024x1000, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S100_S1x100 : S100.ShapeCasts S1x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S100x4096_S100x4096_0_0 : ∀ a, (![0, 0] : Fin 2 → Nat) a + S100x4096.size a ≤ S100x4096.size a
  h_S100x4096 : 0 < S100x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  broadcasts_S1x100_S512x100 : S1x100.Broadcasts S512x100
  inb_S512x100_S512x100_0_0 : ∀ a, (![0, 0] : Fin 2 → Nat) a + S512x100.size a ≤ S512x100.size a
  h_S512x100 : 0 < S512x100.numel
  reduces_S512x100_S100 : S512x100.Reduces [0] S100
  bcast_S_S1x100 : S_.BroadcastsInDim S1x100 (![] : Fin 0 → Fin S1x100.rank)
  shapeCasts_S1000_S1x1000 : S1000.ShapeCasts S1x1000
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  broadcasts_S1x100_S1024x100 : S1x100.Broadcasts S1024x100
  inb_S1000x100_S1000x100_0_0 : ∀ a, (![0, 0] : Fin 2 → Nat) a + S1000x100.size a ≤ S1000x100.size a
  h_S1000x100 : 0 < S1000x100.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  reduces_S1024x1000_S1024 : S1024x1000.Reduces [1] S1024
  shapeCasts_S1024_S1024x1 : S1024.ShapeCasts S1024x1
  broadcasts_S1024x1_S1024x1000 : S1024x1.Broadcasts S1024x1000
  inb_S1024x1000_S1024x1000_0_0 : ∀ a, (![0, 0] : Fin 2 → Nat) a + S1024x1000.size a ≤ S1024x1000.size a
  h_S1024x1000 : 0 < S1024x1000.numel
  dot_S512x4096_S100x4096_S512x100_1_1_0_0_n_n_wf : DotDims.WF S512x4096 S100x4096 S512x100 [1] [1] [0] [0] [] []
  dot_S1024x100_S1000x100_S1024x1000_1_1_0_0_n_n_wf : DotDims.WF S1024x100 S1000x100 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x4096.size a ≤ S100x4096.size a
  hwx0_1 : ∀ i : grid0.Coords, EltTy.bits .f32 = 32 ∨ (Rect.block (s := S100x4096) S100x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x100.size a ≤ S32768x100.size a
  hwx0_3 : ∀ i : grid0.Coords, EltTy.bits .f32 = 32 ∨ (Rect.block (s := S32768x100) S512x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x100.size a ≤ S32768x100.size a
  hwx1_0 : ∀ i : grid1.Coords, EltTy.bits .f32 = 32 ∨ (Rect.block (s := S32768x100) S1024x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1000x100.size a ≤ S1000x100.size a
  hwx1_1 : ∀ i : grid1.Coords, EltTy.bits .f32 = 32 ∨ (Rect.block (s := S1000x100) S1000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1000.size a ≤ S32768x1000.size a
  hwx1_5 : ∀ i : grid1.Coords, EltTy.bits .f32 = 32 ∨ (Rect.block (s := S32768x1000) S1024x1000.size (cc1_transform_5 i) (hinb1_5 i)).WholeWords (EltTy.packing .f32)

variable [Facts₀]

def dot_S512x4096_S100x4096_S512x100_1_1_0_0_n_n : DotDims S512x4096 S100x4096 S512x100 where
  lhsContracting := [1]
  rhsContracting := [1]
  lhsNonContracting := [0]
  rhsNonContracting := [0]
  lhsBatch := []
  rhsBatch := []
  wf := dot_S512x4096_S100x4096_S512x100_1_1_0_0_n_n_wf
def dot_S1024x100_S1000x100_S1024x1000_1_1_0_0_n_n : DotDims S1024x100 S1000x100 S1024x1000 where
  lhsContracting := [1]
  rhsContracting := [1]
  lhsNonContracting := [0]
  rhsNonContracting := [0]
  lhsBatch := []
  rhsBatch := []
  wf := dot_S1024x100_S1000x100_S1024x1000_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x100.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x100.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x100.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1_0) S1024x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1000x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1024x1000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x4096 : Shape := ⟨2, ![32768, 4096]⟩
abbrev S100x4096 : Shape := ⟨2, ![100, 4096]⟩
abbrev S100 : Shape := ⟨1, ![100]⟩
abbrev S1000x100 : Shape := ⟨2, ![1000, 100]⟩
abbrev S1000 : Shape := ⟨1, ![1000]⟩
abbrev S_ : Shape := ⟨0, ![]⟩
abbrev S4096x100 : Shape := ⟨2, ![4096, 100]⟩
abbrev S32768x100 : Shape := ⟨2, ![32768, 100]⟩
abbrev S1x100 : Shape := ⟨2, ![1, 100]⟩
abbrev S100x1000 : Shape := ⟨2, ![100, 1000]⟩
abbrev S32768x1000 : Shape := ⟨2, ![32768, 1000]⟩
abbrev S1x1000 : Shape := ⟨2, ![1, 1000]⟩
abbrev S32768 : Shape := ⟨1, ![32768]⟩
abbrev S32768x1 : Shape := ⟨2, ![32768, 1]⟩

abbrev nBuf : Space → Nat
  | .hbm => 89
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S100x4096, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S1000x100, .f32⟩
  | .hbm, ⟨6, _⟩ => ⟨S1000, .f32⟩
  | .hbm, ⟨7, _⟩ => ⟨S_, .f32⟩
  | .hbm, ⟨8, _⟩ => ⟨S100x4096, .f32⟩
  | .hbm, ⟨9, _⟩ => ⟨S100x4096, .i1⟩
  | .hbm, ⟨10, _⟩ => ⟨S_, .f32⟩
  | .hbm, ⟨11, _⟩ => ⟨S_, .f32⟩
  | .hbm, ⟨12, _⟩ => ⟨S100x4096, .f32⟩
  | .hbm, ⟨13, _⟩ => ⟨S100x4096, .f32⟩
  | .hbm, ⟨14, _⟩ => ⟨S100x4096, .f32⟩
  | .hbm, ⟨15, _⟩ => ⟨S100x4096, .f32⟩
  | .hbm, ⟨16, _⟩ => ⟨S4096x100, .f32⟩
  | .hbm, ⟨17, _⟩ => ⟨S32768x100, .f32⟩
  | .hbm, ⟨18, _⟩ => ⟨S1x100, .f32⟩
  | .hbm, ⟨19, _⟩ => ⟨S32768x100, .f32⟩
  | .hbm, ⟨20, _⟩ => ⟨S32768x100, .f32⟩
  | .hbm, ⟨21, _⟩ => ⟨S_, .f32⟩
  | .hbm, ⟨22, _⟩ => ⟨S100, .f32⟩
  | .hbm, ⟨23, _⟩ => ⟨S_, .f32⟩
  | .hbm, ⟨24, _⟩ => ⟨S100, .f32⟩
  | .hbm, ⟨25, _⟩ => ⟨S100, .f32⟩
  | .hbm, ⟨26, _⟩ => ⟨S1x100, .f32⟩
  | .hbm, ⟨27, _⟩ => ⟨S32768x100, .f32⟩
  | .hbm, ⟨28, _⟩ => ⟨S32768x100, .f32⟩
  | .hbm, ⟨29, _⟩ => ⟨S32768x100, .f32⟩
  | .hbm, ⟨30, _⟩ => ⟨S_, .f32⟩
  | .hbm, ⟨31, _⟩ => ⟨S100, .f32⟩
  | .hbm, ⟨32, _⟩ => ⟨S_, .f32⟩
  | .hbm, ⟨33, _⟩ => ⟨S100, .f32⟩
  | .hbm, ⟨34, _⟩ => ⟨S100, .f32⟩
  | .hbm, ⟨35, _⟩ => ⟨S1x100, .f32⟩
  | .hbm, ⟨36, _⟩ => ⟨S32768x100, .f32⟩
  | .hbm, ⟨37, _⟩ => ⟨S32768x100, .f32⟩
  | .hbm, ⟨38, _⟩ => ⟨S_, .f32⟩
  | .hbm, ⟨39, _⟩ => ⟨S100, .f32⟩
  | .hbm, ⟨40, _⟩ => ⟨S100, .f32⟩
  | .hbm, ⟨41, _⟩ => ⟨S100, .f32⟩
  | .hbm, ⟨42, _⟩ => ⟨S1x100, .f32⟩
  | .hbm, ⟨43, _⟩ => ⟨S32768x100, .f32⟩
  | .hbm, ⟨44, _⟩ => ⟨S32768x100, .f32⟩
  | .hbm, ⟨45, _⟩ => ⟨S1x100, .f32⟩
  | .hbm, ⟨46, _⟩ => ⟨S32768x100, .f32⟩
  | .hbm, ⟨47, _⟩ => ⟨S32768x100, .f32⟩
  | .hbm, ⟨48, _⟩ => ⟨S1x100, .f32⟩
  | .hbm, ⟨49, _⟩ => ⟨S32768x100, .f32⟩
  | .hbm, ⟨50, _⟩ => ⟨S32768x100, .f32⟩
  | .hbm, ⟨51, _⟩ => ⟨S_, .f32⟩
  | .hbm, ⟨52, _⟩ => ⟨S32768x100, .f32⟩
  | .hbm, ⟨53, _⟩ => ⟨S32768x100, .i1⟩
  | .hbm, ⟨54, _⟩ => ⟨S_, .f32⟩
  | .hbm, ⟨55, _⟩ => ⟨S_, .f32⟩
  | .hbm, ⟨56, _⟩ => ⟨S32768x100, .f32⟩
  | .hbm, ⟨57, _⟩ => ⟨S32768x100, .f32⟩
  | .hbm, ⟨58, _⟩ => ⟨S32768x100, .f32⟩
  | .hbm, ⟨59, _⟩ => ⟨S32768x100, .f32⟩
  | .hbm, ⟨60, _⟩ => ⟨S_, .f32⟩
  | .hbm, ⟨61, _⟩ => ⟨S1000x100, .f32⟩
  | .hbm, ⟨62, _⟩ => ⟨S1000x100, .i1⟩
  | .hbm, ⟨63, _⟩ => ⟨S_, .f32⟩
  | .hbm, ⟨64, _⟩ => ⟨S_, .f32⟩
  | .hbm, ⟨65, _⟩ => ⟨S1000x100, .f32⟩
  | .hbm, ⟨66, _⟩ => ⟨S1000x100, .f32⟩
  | .hbm, ⟨67, _⟩ => ⟨S1000x100, .f32⟩
  | .hbm, ⟨68, _⟩ => ⟨S1000x100, .f32⟩
  | .hbm, ⟨69, _⟩ => ⟨S100x1000, .f32⟩
  | .hbm, ⟨70, _⟩ => ⟨S32768x1000, .f32⟩
  | .hbm, ⟨71, _⟩ => ⟨S1x1000, .f32⟩
  | .hbm, ⟨72, _⟩ => ⟨S32768x1000, .f32⟩
  | .hbm, ⟨73, _⟩ => ⟨S32768x1000, .f32⟩
  | .hbm, ⟨74, _⟩ => ⟨S_, .f32⟩
  | .hbm, ⟨75, _⟩ => ⟨S32768, .f32⟩
  | .hbm, ⟨76, _⟩ => ⟨S_, .f32⟩
  | .hbm, ⟨77, _⟩ => ⟨S32768, .f32⟩
  | .hbm, ⟨78, _⟩ => ⟨S32768, .f32⟩
  | .hbm, ⟨79, _⟩ => ⟨S32768x1, .f32⟩
  | .hbm, ⟨80, _⟩ => ⟨S32768x1000, .f32⟩
  | .hbm, ⟨81, _⟩ => ⟨S32768x1000, .f32⟩
  | .hbm, ⟨82, _⟩ => ⟨S32768x1000, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S32768x1, .f32⟩
  | .hbm, ⟨87, _⟩ => ⟨S32768x1000, .f32⟩
  | .hbm, ⟨88, _⟩ => ⟨S32768x1000, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_cst_9 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_cst_11 : Ref sig .tc := ⟨.hbm, 63, rfl⟩
abbrev main_cst_12 : Ref sig .tc := ⟨.hbm, 64, rfl⟩
abbrev main_call2_v0 : Ref sig .tc := ⟨.hbm, 65, rfl⟩
abbrev main_call2_v1 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_call3_cst_0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_cst_1 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_v47 : Ref sig .tc := ⟨.hbm, 88, rfl⟩

abbrev nD : Nat := 1
abbrev τ : Topo := Topo.v7x

variable {F : FTy → Type} [FloatOps F]

class Facts₀ : Prop where
  bcast_S_S100x4096 : S_.BroadcastsInDim S100x4096 (![] : Fin 0 → Fin S100x4096.rank)
  transposes_S100x4096_S4096x100_1_0 : S100x4096.Transposes [1, 0] S4096x100
  bcast_S100_S1x100_1 : S100.BroadcastsInDim S1x100 (![1] : Fin 1 → Fin S1x100.rank)
  bcast_S1x100_S32768x100_0_1 : S1x100.BroadcastsInDim S32768x100 (![0, 1] : Fin 2 → Fin S32768x100.rank)
  reducesTo_S32768x100_S100_d0 : S32768x100.ReducesTo [0] S100
  h_S_ : 0 < S_.numel
  bcast_S_S100 : S_.BroadcastsInDim S100 (![] : Fin 0 → Fin S100.rank)
  bcast_S_S32768x100 : S_.BroadcastsInDim S32768x100 (![] : Fin 0 → Fin S32768x100.rank)
  bcast_S_S1000x100 : S_.BroadcastsInDim S1000x100 (![] : Fin 0 → Fin S1000x100.rank)
  transposes_S1000x100_S100x1000_1_0 : S1000x100.Transposes [1, 0] S100x1000
  bcast_S1000_S1x1000_1 : S1000.BroadcastsInDim S1x1000 (![1] : Fin 1 → Fin S1x1000.rank)
  bcast_S1x1000_S32768x1000_0_1 : S1x1000.BroadcastsInDim S32768x1000 (![0, 1] : Fin 2 → Fin S32768x1000.rank)
  reducesTo_S32768x1000_S32768_d1 : S32768x1000.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  dot_S32768x4096_S4096x100_S32768x100_1_0_0_1_n_n_wf : DotDims.WF S32768x4096 S4096x100 S32768x100 [1] [0] [0] [1] [] []
  dot_S32768x100_S100x1000_S32768x1000_1_0_0_1_n_n_wf : DotDims.WF S32768x100 S100x1000 S32768x1000 [1] [0] [0] [1] [] []

variable [Facts₀]

def dot_S32768x4096_S4096x100_S32768x100_1_0_0_1_n_n : DotDims S32768x4096 S4096x100 S32768x100 where
  lhsContracting := [1]
  rhsContracting := [0]
  lhsNonContracting := [0]
  rhsNonContracting := [1]
  lhsBatch := []
  rhsBatch := []
  wf := dot_S32768x4096_S4096x100_S32768x100_1_0_0_1_n_n_wf
def dot_S32768x100_S100x1000_S32768x1000_1_0_0_1_n_n : DotDims S32768x100 S100x1000 S32768x1000 where
  lhsContracting := [1]
  rhsContracting := [0]
  lhsNonContracting := [0]
  rhsNonContracting := [1]
  lhsBatch := []
  rhsBatch := []
  wf := dot_S32768x100_S100x1000_S32768x1000_1_0_0_1_n_n_wf

class Facts : Prop extends Facts₀ where

variable [Facts]
-- ==== Proof.K.Data.lean ====
/-
  The two kernel regions' proof data, stated at a parameter `V`: the TensorCore's buffer contents when a region is
  entered.

  Region 0 (the statistics pass, 64 grid points of 512 rows each) writes the block `h = x · sign(W1)ᵀ + b1` of its rows
  at every point and carries two scratch rows between points: the running column sums of `h` and of `h²`, zeroed at the
  first point, added to at every point, and copied into the two one-row results at the last point only. `accS` and
  `accQ` are those running sums after each point, by recursion on the point. The region's invariant before a point
  (`PhiS`) holds the two scratch rows at the sums the point before left (at anything before the first point), the
  other scoped buffers at anything and the generator register at some state.

  Region 1 (the output pass, 32 grid points of 1024 rows each) writes one block of the result per point, a pure
  function of its five input blocks; its invariant is the scoped rest untouched.
-/
import proofs.«178065_j47201690583460_1_alg».proof.Proof.Gen.Kernel.Launch
import proofs.«178065_j47201690583460_1_alg».proof.Proof.Gen.Kernel.Skeleton
import proofs.«178065_j47201690583460_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows the statistics kernel carries between points, as memrefs. -/
abbrev scM0_0 : Memref sig .tc .vmem S1x100 .f32 := Memref.whole cc0_scratch0
abbrev scM0_1 : Memref sig .tc .vmem S1x100 .f32 := Memref.whole cc0_scratch1

/-- The block of `h` the body stores at point `t`: a function of the weight block, the point's rows and the bias row. -/
def hblk0 (c : Dev nD) (t : Fin cfg0.N) : Vec F S512x100 .f32 :=
  k0_pay4 (iblk0 V c 1 t) (iblk0 V c 0 t) (iblk0 V c 2 t)

/-- The running column sums of `h` after point `n`: zero plus the first block's sums, then each block's sums added. -/
def accS (c : Dev nD) : (n : ℕ) → n < cfg0.N → Vec F S1x100 .f32
  | 0, h => k0_pay5 (iblk0 V c 1 ⟨0, h⟩) (iblk0 V c 0 ⟨0, h⟩) (iblk0 V c 2 ⟨0, h⟩) (k0_pay2 (F := F))
  | n + 1, h => k0_pay5 (iblk0 V c 1 ⟨n + 1, h⟩) (iblk0 V c 0 ⟨n + 1, h⟩) (iblk0 V c 2 ⟨n + 1, h⟩) (accS c n (Nat.lt_of_succ_lt h))

/-- The running column sums of `h²` after point `n`. -/
def accQ (c : Dev nD) : (n : ℕ) → n < cfg0.N → Vec F S1x100 .f32
  | 0, h => k0_pay1 (k0_pay6 (iblk0 V c 1 ⟨0, h⟩) (iblk0 V c 0 ⟨0, h⟩) (iblk0 V c 2 ⟨0, h⟩) (k0_pay3 (F := F)))
  | n + 1, h => k0_pay1 (k0_pay6 (iblk0 V c 1 ⟨n + 1, h⟩) (iblk0 V c 0 ⟨n + 1, h⟩) (iblk0 V c 2 ⟨n + 1, h⟩) (accQ c n (Nat.lt_of_succ_lt h)))

/-- The core's scoped buffers that region 0 neither stages nor names: the output pass's staging buffers, at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- Region 0's invariant before point `n`: before the first point every scratch at anything; afterwards the two
    carried rows at the sums the point before left, the other scoped buffers at anything, the generator at some state. -/
def PhiS (c : Dev nD) : (n : ℕ) → n ≤ cfg0.N → sProp 𝕄
  | 0, _ => Pipeline.ΦA spec0 c
  | n + 1, hn => iprop(owns (c : Thread nD τ) scM0_0 fullShare (accS V c n hn) ∗ owns (c : Thread nD τ) scM0_1 fullShare (accQ V c n hn)
      ∗ rest0 (F := F) c ∗ (∃ r, prngReg c r))

/-- Region 0's proof data on core `c`: the arrays as the region finds them; after the body at point `t` each input's
    buffer at its block, the `h` window's at the point's block of `h`, the two one-row results' at the running sums
    (they are idle, and not written back, except at the last point); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hblk0 V c t
    | ⟨4, _⟩ => accS V c t.val t.isLt
    | ⟨5, _⟩ => accQ V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the result the output kernel stores at point `t`: the log-softmax rows of the binarized, normalized
    block of `h` against the binarized second weights. -/
def oblk1 (c : Dev nD) (t : Fin cfg1.N) : Vec F S1024x1000 .f32 :=
  k1_pay1 (iblk1 V c 0 t) (iblk1 V c 3 t) (iblk1 V c 4 t) (iblk1 V c 1 t) (iblk1 V c 2 t)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

end Cert.Kernel.Hand

end
-- ==== Proof.K.R0Runs.lean ====
/-
  What the three control cases of the statistics kernel's body share: the two branch conditions as
  propositions over the grid coordinate and their closed forms (the first point; the last point), where the
  two one-row result windows are idle and not written back, each window's current staging memref at a point,
  the class's invariant with the two carried rows as owned memrefs, and what the body finds in its three
  input windows' buffers: the window's block at the point, fetched there or not.
-/
import proofs.«178065_j47201690583460_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions -/

/-- The first conditional's condition (`i == 0`), the part's scalar chain substituted. -/
abbrev cond0_0 (i : grid0.Coords) : Prop :=
  (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The last conditional's condition (`i == 63`). -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Idle and live points of the windows -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last point the two one-row results are idle and are not written back; at it they are live. -/
theorem idleAt0_4 : ∀ t : Fin cfg0.N, t.val ≠ 63 → cfg0.idle 4 (grid0.coords t) = true := by decide +kernel
theorem noFlush0_4 : ∀ t : Fin cfg0.N, t.val ≠ 63 → (cfg0.win 4).flush t = false := by decide +kernel
theorem liveAt0_4 : ∀ t : Fin cfg0.N, t.val = 63 → cfg0.idle 4 (grid0.coords t) = false := by decide +kernel
theorem idleAt0_5 : ∀ t : Fin cfg0.N, t.val ≠ 63 → cfg0.idle 5 (grid0.coords t) = true := by decide +kernel
theorem noFlush0_5 : ∀ t : Fin cfg0.N, t.val ≠ 63 → (cfg0.win 5).flush t = false := by decide +kernel
theorem liveAt0_5 : ∀ t : Fin cfg0.N, t.val = 63 → cfg0.idle 5 (grid0.coords t) = false := by decide +kernel

/-! ## The staging memrefs at a point -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S100x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x100 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x100 .f32 := win0_5.stage (cfg0.slots t 5)
abbrev hs0_5 (t : Fin cfg0.N) : (ms0_5 t).IsWhole := hstage0_5 ((cfg0.slots t 5).cast nbuf0_5)

/-- Every load and store of the body is through the whole-buffer rectangle at offset zero. -/
theorem hz : (![0, 0] : Fin 2 → Nat) = fun _ => 0 := by
  funext a; fin_cases a <;> rfl

/-! ## The class's invariant, the carried rows as memrefs -/

/-- Before the first point: the two carried rows at anything, the other scoped buffers at anything, the generator
    register at some state. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 (F := F) c)
          ∗ (∃ r, prngReg c r)) := by
  unfold Pipeline.ΦA rest0; rw [scopedRest0_eq]; simp only [scM0_0, scM0_1, owns_whole]; try rfl

/-! ## What the body leaves and finds, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = hblk0 V c t := by dsimp only [dat0]
theorem after0_4 (c : Dev nD) (t : Fin cfg0.N) : (dat0 V c).after 4 t = accS V c t.val t.isLt := by dsimp only [dat0]
theorem after0_5 (c : Dev nD) (t : Fin cfg0.N) : (dat0 V c).after 5 t = accQ V c t.val t.isLt := by dsimp only [dat0]

/-- Each input's current staging buffer holds its block at every point, fetched there or not: an input not fetched
    at a point has the block index of the point before, and the body leaves an input's buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The part's skeleton's congruence lemma, named once here so that the three cases' runs share it. -/
theorem part_congr_realized : True := by
  have := @k0_part1_skel.congr_simp; have := @cc0__stats_kernel_skel.congr_simp
  trivial

end Cert.Kernel.Hand

end
-- ==== Proof.K.R0RunA.lean ====
/-
  The statistics kernel's whole body at the first grid point: the first conditional is taken and zeroes the two
  carried rows, the last is not. From the three input blocks, the `h` window's buffer and the two carried rows at
  anything, the body runs to: the inputs as they were, the `h` window's buffer at the block of `h`, the first
  carried row at the zero row plus the block's column sums, the second at the zero row plus the column sums of the
  block's squares. The two one-row result windows' buffers are not touched and stay outside the triple.
-/
import proofs.«178065_j47201690583460_1_alg».proof.Proof.K.R0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A of the body (`i = 0`). Each carried row is stored twice: the zero row, which the later load reads back,
    then the sum; the later store covers the row, so it is what the row ends with. -/
theorem kernelRun0_A (c : Dev nD) (i : grid0.Coords) (arg1 : Memref sig .tc .vmem S512x4096 .f32) (harg1 : arg1.IsWhole) (arg2 : Memref sig .tc .vmem S100x4096 .f32) (harg2 : arg2.IsWhole) (arg3 : Memref sig .tc .vmem S1x100 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S1x100 .f32) (harg6 : arg6.IsWhole) (arg7 : Memref sig .tc .vmem S1x100 .f32) (harg7 : arg7.IsWhole) (arg8 : Memref sig .tc .vmem S1x100 .f32) (harg8 : arg8.IsWhole)
    (hc0 : cond0_0 i) (hc1 : ¬cond0_1 i)
    (x0 : Vec F S512x4096 .f32) (x1 : Vec F S100x4096 .f32) (x2 : Vec F S1x100 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x1 x0 x2) ∗ owns (c : Thread nD τ) arg7 fullShare (k0_pay5 x1 x0 x2 (k0_pay2 (F := F)))
            ∗ owns (c : Thread nD τ) arg8 fullShare (k0_pay1 (k0_pay6 x1 x0 x2 (k0_pay3 (F := F))))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d7, %f7, -, H7⟩, ⟨%d8, %f8, -, H8⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz inb_S512x100_S512x100_0_0 y⟩), View.canon_unit_zero hz]
    simp only [View.readAt_eq_ld, harg1.read_unread, harg2.read_unread, harg3.read_unread,
      View.ld_unit_zero (S := S512x4096) hz, View.ld_unit_zero (S := S100x4096) hz, View.ld_unit_zero (S := S1x100) hz,
      View.readCov_unit_zero (S := S1x100) _ hz]
  isplitl [H7]
  · iexists _; isplitr
    swap; · iexact H7
    ipureintro
    rw [View.read_writes_eq_canon _ _ _ (fun y => ⟨_, List.mem_cons.mpr (Or.inl rfl), View.mem_set_unit_zero hz inb_S1x100_S1x100_0_0 y⟩), View.canon_cons_unit_zero hz]
    sl_unfold_words
    simp only [View.readAt_eq_ld, harg1.read_unread, harg2.read_unread, harg3.read_unread,
      View.ld_unit_zero (S := S512x4096) hz, View.ld_unit_zero (S := S100x4096) hz, View.ld_unit_zero (S := S1x100) hz,
      View.readCov_unit_zero (S := S1x100) _ hz]
  iexists _; isplitr
  swap; · iexact H8
  ipureintro
  rw [View.read_writes_eq_canon _ _ _ (fun y => ⟨_, List.mem_cons.mpr (Or.inl rfl), View.mem_set_unit_zero hz inb_S1x100_S1x100_0_0 y⟩), View.canon_cons_unit_zero hz]
  sl_unfold_words
  simp only [View.readAt_eq_ld, harg1.read_unread, harg2.read_unread, harg3.read_unread,
      View.ld_unit_zero (S := S512x4096) hz, View.ld_unit_zero (S := S100x4096) hz, View.ld_unit_zero (S := S1x100) hz,
      View.readCov_unit_zero (S := S1x100) _ hz]

end Cert.Kernel.Hand

end
-- ==== Proof.K.R0RunB.lean ====
/-
  The statistics kernel's whole body at a point that is neither the first nor the last: neither conditional is
  taken. From the three input blocks, the `h` window's buffer at anything and the two carried rows at what the point
  before left, the body runs to: the inputs as they were, the `h` window's buffer at the block of `h`, the first
  carried row at its contents plus the block's column sums, the second at its contents plus the column sums of the
  block's squares. The two one-row result windows' buffers are not touched and stay outside the triple.
-/
import proofs.«178065_j47201690583460_1_alg».proof.Proof.K.R0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B of the body (`0 < i < 63`). Every load and store is through the whole-buffer rectangle, so what a store
    leaves is its payload and what a load reads is the buffer's contents. -/
theorem kernelRun0_B (c : Dev nD) (i : grid0.Coords) (arg1 : Memref sig .tc .vmem S512x4096 .f32) (harg1 : arg1.IsWhole) (arg2 : Memref sig .tc .vmem S100x4096 .f32) (harg2 : arg2.IsWhole) (arg3 : Memref sig .tc .vmem S1x100 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S1x100 .f32) (harg6 : arg6.IsWhole) (arg7 : Memref sig .tc .vmem S1x100 .f32) (harg7 : arg7.IsWhole) (arg8 : Memref sig .tc .vmem S1x100 .f32) (harg8 : arg8.IsWhole)
    (hc0 : ¬cond0_0 i) (hc1 : ¬cond0_1 i)
    (x0 : Vec F S512x4096 .f32) (x1 : Vec F S100x4096 .f32) (x2 : Vec F S1x100 .f32) (s0 s1 : Vec F S1x100 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x1 x0 x2) ∗ owns (c : Thread nD τ) arg7 fullShare (k0_pay5 x1 x0 x2 s0)
            ∗ owns (c : Thread nD τ) arg8 fullShare (k0_pay1 (k0_pay6 x1 x0 x2 s1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz inb_S512x100_S512x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz]
  isplitl [H7]
  · iexists _; isplitr
    swap; · iexact H7
    ipureintro
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz]
  iexists _; isplitr
  swap; · iexact H8
  ipureintro
  rw [View.read_writes_eq_canon _ _ _ (fun y => ⟨_, List.mem_singleton_self _, View.mem_set_unit_zero hz inb_S1x100_S1x100_0_0 y⟩), View.canon_unit_zero hz]
  sl_unfold_words
  simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz]

end Cert.Kernel.Hand

end
-- ==== Proof.K.R0RunC.lean ====
/-
  The statistics kernel's whole body at the last grid point: the first conditional is not taken, the last is. From
  the three input blocks, the `h` window's and the two one-row results' buffers at anything and the two carried rows
  at what the point before left, the body runs to: the inputs as they were, the `h` window's buffer at the block of
  `h`, each carried row at its contents plus the block's column sums (of `h`, of its squares), and each one-row
  result's buffer at the carried row it copies: the row is loaded after the sum has been stored into it.
-/
import proofs.«178065_j47201690583460_1_alg».proof.Proof.K.R0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C of the body (`i = 63`). -/
theorem kernelRun0_C (c : Dev nD) (i : grid0.Coords) (arg1 : Memref sig .tc .vmem S512x4096 .f32) (harg1 : arg1.IsWhole) (arg2 : Memref sig .tc .vmem S100x4096 .f32) (harg2 : arg2.IsWhole) (arg3 : Memref sig .tc .vmem S1x100 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S1x100 .f32) (harg6 : arg6.IsWhole) (arg7 : Memref sig .tc .vmem S1x100 .f32) (harg7 : arg7.IsWhole) (arg8 : Memref sig .tc .vmem S1x100 .f32) (harg8 : arg8.IsWhole)
    (hc0 : ¬cond0_0 i) (hc1 : cond0_1 i)
    (x0 : Vec F S512x4096 .f32) (x1 : Vec F S100x4096 .f32) (x2 : Vec F S1x100 .f32) (s0 s1 : Vec F S1x100 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x1 x0 x2) ∗ owns (c : Thread nD τ) arg5 fullShare (k0_pay5 x1 x0 x2 s0) ∗ owns (c : Thread nD τ) arg6 fullShare (k0_pay1 (k0_pay6 x1 x0 x2 s1))
            ∗ owns (c : Thread nD τ) arg7 fullShare (k0_pay5 x1 x0 x2 s0)
            ∗ owns (c : Thread nD τ) arg8 fullShare (k0_pay1 (k0_pay6 x1 x0 x2 s1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz inb_S512x100_S512x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  isplitl [H5]
  · iexists _; isplitr
    swap; · iexact H5
    ipureintro
    sl_unfold_words
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  isplitl [H6]
  · iexists _; isplitr
    swap; · iexact H6
    ipureintro
    sl_unfold_words
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  isplitl [H7]
  · iexists _; isplitr
    swap; · iexact H7
    ipureintro
    sl_unfold_words
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  iexists _; isplitr
  swap; · iexact H8
  ipureintro
  sl_unfold_words
  rw [View.read_writes_eq_canon _ _ _ (fun y => ⟨_, List.mem_singleton_self _, View.mem_set_unit_zero hz inb_S1x100_S1x100_0_0 y⟩), View.canon_unit_zero hz]
  simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]

end Cert.Kernel.Hand

end
-- ==== Proof.K.R0Body.lean ====
/-
  Region 0's body obligation: at every grid point the statistics kernel, run on what the pipeline hands it, leaves what
  the proof data say — and the invariant's two ends against the class's scoped rest.

  The point decides the control case: the first point zeroes the two carried rows before adding to them, the last point
  also copies them into the two one-row results' buffers, every other point only adds. In each case the kernel's run
  is applied to the point's staging memrefs and input blocks; the invariant hands the run the two
  carried rows at the running sums the point before left (at anything before the first point) and takes them back at
  this point's running sums; off the last point the one-row results' buffers are idle and handed back as found.
-/
import proofs.«178065_j47201690583460_1_alg».proof.Proof.K.R0RunA
import proofs.«178065_j47201690583460_1_alg».proof.Proof.K.R0RunB
import proofs.«178065_j47201690583460_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sums, point by point -/

/-- At the first point the column sums are added to the zero row. -/
theorem accS_first (c : Dev nD) (t : Fin cfg0.N) (ht : t.val = 0) :
    accS V c t.val t.isLt = k0_pay5 (iblk0 V c 1 t) (iblk0 V c 0 t) (iblk0 V c 2 t) (k0_pay2 (F := F)) := by
  obtain ⟨n, hn⟩ := t
  cases n with
  | zero => rfl
  | succ n => exact absurd ht (Nat.succ_ne_zero n)

/-- At a later point they are added to what the point before left. -/
theorem accS_pos (c : Dev nD) (t : Fin cfg0.N) (ht : t.val ≠ 0) :
    accS V c t.val t.isLt = k0_pay5 (iblk0 V c 1 t) (iblk0 V c 0 t) (iblk0 V c 2 t) (accS V c (t.val - 1) (Nat.lt_of_le_of_lt (Nat.sub_le _ _) t.isLt)) := by
  obtain ⟨n, hn⟩ := t
  cases n with
  | zero => exact absurd rfl ht
  | succ n => rfl

theorem accQ_first (c : Dev nD) (t : Fin cfg0.N) (ht : t.val = 0) :
    accQ V c t.val t.isLt = k0_pay1 (k0_pay6 (iblk0 V c 1 t) (iblk0 V c 0 t) (iblk0 V c 2 t) (k0_pay3 (F := F))) := by
  obtain ⟨n, hn⟩ := t
  cases n with
  | zero => rfl
  | succ n => exact absurd ht (Nat.succ_ne_zero n)

theorem accQ_pos (c : Dev nD) (t : Fin cfg0.N) (ht : t.val ≠ 0) :
    accQ V c t.val t.isLt = k0_pay1 (k0_pay6 (iblk0 V c 1 t) (iblk0 V c 0 t) (iblk0 V c 2 t) (accQ V c (t.val - 1) (Nat.lt_of_le_of_lt (Nat.sub_le _ _) t.isLt))) := by
  obtain ⟨n, hn⟩ := t
  cases n with
  | zero => exact absurd rfl ht
  | succ n => rfl

/-! ## The invariant, point by point -/

theorem PhiS_zero (c : Dev nD) (n : ℕ) (h : n ≤ cfg0.N) (hz : n = 0) : PhiS V c n h = Pipeline.ΦA spec0 c := by
  subst hz; rfl

/-- After point `n`: the carried rows at that point's running sums. -/
theorem PhiS_succ (c : Dev nD) (n : ℕ) (hn : n < cfg0.N) :
    PhiS V c (n + 1) hn = iprop(owns (c : Thread nD τ) scM0_0 fullShare (accS V c n hn) ∗ owns (c : Thread nD τ) scM0_1 fullShare (accQ V c n hn)
      ∗ rest0 (F := F) c ∗ (∃ r, prngReg c r)) := rfl

/-- Before a point that is not the first: the carried rows at what the point before left. -/
theorem PhiS_pos (c : Dev nD) (n : ℕ) (h : n ≤ cfg0.N) (hz : n ≠ 0) :
    PhiS V c n h = iprop(owns (c : Thread nD τ) scM0_0 fullShare (accS V c (n - 1) (by omega)) ∗ owns (c : Thread nD τ) scM0_1 fullShare (accQ V c (n - 1) (by omega))
      ∗ rest0 (F := F) c ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The body obligation at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the point's position says which control case it is
    in, and that case's run applies; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold hblk0
  by_cases h0 : t.val = 0
  · -- the first point: both carried rows are zeroed, then added to
    have h63 : t.val ≠ 63 := by omega
    rw [Dat.leavesExact_idle (dat0 V c) 4 t (idleAt0_4 t h63) (noFlush0_4 t h63),
      Dat.leavesExact_idle (dat0 V c) 5 t (idleAt0_5 t h63) (noFlush0_5 t h63)]
    rw [accS_first V c t h0, accQ_first V c t h0]
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, H4, H5⟩
    iapply (kernelRun0_A c (grid0.coords t) _ _ _ _ _ _ _ _ _ _ _ _ _ _ _ _ ((hcond0_0 t).mpr h0) (fun h => h63 ((hcond0_1 t).mp h))
      (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h63 : t.val = 63
    · -- the last point: the rows are added to, then copied into the one-row results' buffers
      rw [show (dat0 V c).leavesExact 4 t = owns (c : Thread nD τ) (ms0_4 t) fullShare ((dat0 V c).after 4 t) from by
        unfold Dat.leavesExact; rw [liveAt0_4 t h63], after0_4]
      rw [show (dat0 V c).leavesExact 5 t = owns (c : Thread nD τ) (ms0_5 t) fullShare ((dat0 V c).after 5 t) from by
        unfold Dat.leavesExact; rw [liveAt0_5 t h63], after0_5]
      rw [accS_pos V c t h0, accQ_pos V c t h0]
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ _ _ (fun h => h0 ((hcond0_0 t).mp h)) ((hcond0_1 t).mpr h63)
        (iblk0 V c 0 t) (iblk0 V c 1 t) (iblk0 V c 2 t) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point in between: the rows are only added to
      rw [Dat.leavesExact_idle (dat0 V c) 4 t (idleAt0_4 t h63) (noFlush0_4 t h63),
        Dat.leavesExact_idle (dat0 V c) 5 t (idleAt0_5 t h63) (noFlush0_5 t h63)]
      rw [accS_pos V c t h0, accQ_pos V c t h0]
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, H4, H5⟩
      iapply (kernelRun0_B c (grid0.coords t) _ _ _ _ _ _ _ _ _ _ _ _ _ _ _ _ (fun h => h0 ((hcond0_0 t).mp h)) (fun h => h63 ((hcond0_1 t).mp h))
        (iblk0 V c 0 t) (iblk0 V c 1 t) (iblk0 V c 2 t) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the carried rows' named contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨HS0, HS1, Hr, Hg⟩
  isplitl [HS0 HS1 Hr]
  · isplitl [HS0]; · iexists _; iexact HS0
    isplitl [HS1]; · iexists _; iexact HS1
    iexact Hr
  iexact Hg

end Cert.Kernel.Hand

end
-- ==== Proof.K.R1Body.lean ====
/-
  Region 1's body obligation: at every grid point the output kernel, run on what the pipeline hands it, leaves its input
  blocks in place and the point's block of the result in the output window's buffer.
-/
import proofs.«178065_j47201690583460_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Input window 0's current staging buffer holds the window's block at every point, whether the block was fetched
    there or not (an unfetched point has the block index of the point before, whose block the body left in place):
    for any proof data whose array is the region-entry contents and whose body leaves the block as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the block was fetched
    there or not (an unfetched point has the block index of the point before, whose block the body left in place):
    for any proof data whose array is the region-entry contents and whose body leaves the block as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the block was fetched
    there or not (an unfetched point has the block index of the point before, whose block the body left in place):
    for any proof data whose array is the region-entry contents and whose body leaves the block as found. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the block was fetched
    there or not (an unfetched point has the block index of the point before, whose block the body left in place):
    for any proof data whose array is the region-entry contents and whose body leaves the block as found. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether the block was fetched
    there or not (an unfetched point has the block index of the point before, whose block the body left in place):
    for any proof data whose array is the region-entry contents and whose body leaves the block as found. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oblk1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Whole-buffer loads and stores -/

/-- The zero offsets of a whole-buffer rectangle of rank two, however they are spelt. -/
theorem off00 : (![0, 0] : Fin 2 → Nat) = fun _ => 0 := by
  funext a; fin_cases a <;> rfl

/-- A load through the whole-shape rectangle at zero offsets reads what the view reads. -/
theorem readAt_unit_zero {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- One store through it, over any prior contents, is read back as its payload. -/
theorem read_write_unit_zero {S : Shape} {e : EltTy} {κ : Kind} {sp : Space} (v : View sig κ sp S e) (f : v.ty.Contents (Elt F))
    {off : Fin S.rank → Nat} (h : off = fun _ => 0) (inb : ∀ a, off a + S.size a ≤ S.size a) (p : S.Idx → Elt F e) :
    v.read (Elt F) (v.writes (Elt F) f [(⟨Rect.unit off S.size inb, p⟩ : View.Piece (Elt F) S e)]) = p := by
  rw [View.read_writes_eq_canon _ _ _ (fun y => ⟨_, List.mem_singleton_self _, View.mem_set_unit_zero h inb y⟩),
    View.canon_unit_zero h]

/-! ## The body's triple -/

set_option maxHeartbeats 1000000 in
/-- The output kernel on whole staging memrefs, the five inputs' at read contents `x1 … x5` and the output's at
    anything, runs to the continuation holding the inputs' as they were and the output's at the payload of the
    five: every load is of a whole buffer, and the one store covers the output's. -/
theorem sound_kernel1 (c : Dev nD) (E : Set ℕ) (i : grid1.Coords)
    (arg1 : Memref sig .tc .vmem S1024x100 .f32) (harg1 : arg1.IsWhole)
    (arg2 : Memref sig .tc .vmem S1000x100 .f32) (harg2 : arg2.IsWhole)
    (arg3 : Memref sig .tc .vmem S1x1000 .f32) (harg3 : arg3.IsWhole)
    (arg4 : Memref sig .tc .vmem S1x100 .f32) (harg4 : arg4.IsWhole)
    (arg5 : Memref sig .tc .vmem S1x100 .f32) (harg5 : arg5.IsWhole)
    (arg6 : Memref sig .tc .vmem S1024x1000 .f32) (harg6 : arg6.IsWhole)
    (x1 : Vec F S1024x100 .f32) (x2 : Vec F S1000x100 .f32) (x3 : Vec F S1x1000 .f32) (x4 : Vec F S1x100 .f32) (x5 : Vec F S1x100 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay1 x1 x4 x5 x2 x3)) -∗ K ⟨⟩))
      ⊢ wp frame (wpE (defs₀ (F := F)) Variants.none c none) E (cc1__output_kernel i arg1 harg1 arg2 harg2 arg3 harg3 arg4 harg4 arg5 harg5 arg6 harg6) K := by
  simp only [cc1__output_kernel_eq_skeleton, k1_part1_eq_skeleton]; unfold cc1__output_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  refine (read_write_unit_zero (S := S1024x1000) arg6.view f6 off00 _ _).trans ?_
  rw [readAt_unit_zero (S := S1024x100) arg1.view f1 off00, readAt_unit_zero (S := S1x100) arg4.view f4 off00,
    readAt_unit_zero (S := S1x100) arg5.view f5 off00, readAt_unit_zero (S := S1000x100) arg2.view f2 off00,
    readAt_unit_zero (S := S1x1000) arg3.view f3 off00]

/-! ## The body obligation, at a generic point -/

/-- What the body is called with at point `t`: the invariant, the core's debts and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the kernel's triple applies at those blocks;
    the invariant and the core's debts pass through unread, and the output's buffer ends at the point's block of the
    result, which is the payload of the five blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold oblk1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its windows conjoined one by one are the pre and the post above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Launch.lean ====
/-
  The run of the whole program from the two regions' body obligations.

  @main is a one-operation host stretch, the statistics region, an eighteen-operation host stretch and the output
  region. The buffers' contents are followed through the four items as a fold from the launch memory: a host stretch
  leaves what its operations compute, a region leaves each of its arrays at what the write-backs of all its points
  leave and every other buffer as entered. Each region's proof data are taken at the contents the fold has when the
  region is entered. Every core carries, beside its unscoped buffers at the fold's contents, its generator register at
  some state and the fact that it owes nothing. The statistics region's invariant is not the scoped rest at every
  point, so its first point is reached, and its last point left, through the two ends proved with its body.
-/
import proofs.«178065_j47201690583460_1_alg».proof.Proof.K.R0Body
import proofs.«178065_j47201690583460_1_alg».proof.Proof.K.R1Body
import proofs.«178065_j47201690583460_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- The buffers at launch. -/
abbrev B0 : Dev nD → Valuation τ sig (Elt F) := fun c b => m (c, b)
/-- The statistics region's entry: after the first host stretch. -/
abbrev B1 : Dev nD → Valuation τ sig (Elt F) := fun c => StableHlo.after hostOps0 (B0 m c)
/-- The same, read at the TensorCore's references. -/
abbrev VB1 : (c : Dev nD) → (b : Ref sig .tc) → Buf (Elt F) ((c : Thread nD τ).loc b) := fun c b => B1 m c b
/-- The statistics region's exit: its six arrays at what the write-backs of all 64 points leave, the rest as entered. -/
def B2 (c : Dev nD) : Valuation τ sig (Elt F) :=
  Pipeline.withArrays spec0 c (B1 m c) fun w => (dat0 (VB1 m) c).arrAt w cfg0.N

theorem B2_arr (c : Dev nD) (w : Fin cfg0.W) :
    B2 m c (Proc.devRef .tc (Pipeline.arrRef spec0 w)) = (dat0 (VB1 m) c).arrAt w cfg0.N :=
  Pipeline.withArrays_arr spec0 launch0.win.arr_inj c (B1 m c) (fun w => (dat0 (VB1 m) c).arrAt w cfg0.N) w

theorem B2_of_ne (c : Dev nD) (b : Ref sig .tc) (hb : ∀ w, Pipeline.arrRef spec0 w ≠ b) :
    B2 m c (Proc.devRef .tc b) = B1 m c (Proc.devRef .tc b) :=
  Pipeline.withArrays_of_ne spec0 c (B1 m c) (fun w => (dat0 (VB1 m) c).arrAt w cfg0.N) b hb

/-- The output region's entry: after the second host stretch. -/
abbrev B3 : Dev nD → Valuation τ sig (Elt F) := fun c => StableHlo.after hostOps1 (B2 m c)
/-- The same, read at the TensorCore's references. -/
abbrev VB3 : (c : Dev nD) → (b : Ref sig .tc) → Buf (Elt F) ((c : Thread nD τ).loc b) := fun c b => B3 m c b
/-- The output region's exit: its six arrays at what the write-backs of all 32 points leave, the rest as entered. -/
def B4 (c : Dev nD) : Valuation τ sig (Elt F) :=
  Pipeline.withArrays spec1 c (B3 m c) fun w => (dat1 (VB3 m) c).arrAt w cfg1.N

theorem B4_arr (c : Dev nD) (w : Fin cfg1.W) :
    B4 m c (Proc.devRef .tc (Pipeline.arrRef spec1 w)) = (dat1 (VB3 m) c).arrAt w cfg1.N :=
  Pipeline.withArrays_arr spec1 launch1.win.arr_inj c (B3 m c) (fun w => (dat1 (VB3 m) c).arrAt w cfg1.N) w

theorem B4_of_ne (c : Dev nD) (b : Ref sig .tc) (hb : ∀ w, Pipeline.arrRef spec1 w ≠ b) :
    B4 m c (Proc.devRef .tc b) = B3 m c (Proc.devRef .tc b) :=
  Pipeline.withArrays_of_ne spec1 c (B3 m c) (fun w => (dat1 (VB3 m) c).arrAt w cfg1.N) b hb

/-! ### Walking one step back through the fold -/

/-- The first host stretch leaves a reference it does not write as launched. -/
theorem B1_keep (c : Dev nD) (r : Ref sig .tc) (h : r ∉ hostOps0_W) :
    B1 m c (Proc.devRef .tc r) = B0 m c (Proc.devRef .tc r) :=
  StableHlo.after_of_writes_sub hostOps0 (B0 m c) hostOps0_writes h

/-- The second host stretch leaves a reference it does not write as the statistics region left it. -/
theorem B3_keep (c : Dev nD) (r : Ref sig .tc) (h : r ∉ hostOps1_W) :
    B3 m c (Proc.devRef .tc r) = B2 m c (Proc.devRef .tc r) :=
  StableHlo.after_of_writes_sub hostOps1 (B2 m c) hostOps1_writes h

/-- The statistics region leaves an input window's array as entered: no write-back lands in it. -/
theorem B2_input (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (VB1 m) c).arrAt_in w hw _).trans (A_eq0 (VB1 m) c w))

/-- The output region leaves an input window's array as entered. -/
theorem B4_input (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((dat1 (VB3 m) c).arrAt_in w hw _).trans (A_eq1 (VB3 m) c w))

/-! ### The arguments end as launched

No host operation writes an argument. The statistics region reads the first two arguments through input windows and
names no other; the output region reads the sixth through an input window and names no other. -/

theorem B4_main_arg0 (c : Dev nD) : B4 m c (Proc.devRef .tc main_arg0) = m ((c : Thread nD τ).loc main_arg0) :=
  (B4_of_ne m c main_arg0 (by decide)).trans <| (B3_keep m c main_arg0 (by decide)).trans <|
    (B2_input m c 0 rfl).trans <| (B1_keep m c main_arg0 (by decide)).trans rfl

theorem B4_main_arg1 (c : Dev nD) : B4 m c (Proc.devRef .tc main_arg1) = m ((c : Thread nD τ).loc main_arg1) :=
  (B4_of_ne m c main_arg1 (by decide)).trans <| (B3_keep m c main_arg1 (by decide)).trans <|
    (B2_input m c 1 rfl).trans <| (B1_keep m c main_arg1 (by decide)).trans rfl

theorem B4_main_arg2 (c : Dev nD) : B4 m c (Proc.devRef .tc main_arg2) = m ((c : Thread nD τ).loc main_arg2) :=
  (B4_of_ne m c main_arg2 (by decide)).trans <| (B3_keep m c main_arg2 (by decide)).trans <|
    (B2_of_ne m c main_arg2 (by decide)).trans <| (B1_keep m c main_arg2 (by decide)).trans rfl

theorem B4_main_arg3 (c : Dev nD) : B4 m c (Proc.devRef .tc main_arg3) = m ((c : Thread nD τ).loc main_arg3) :=
  (B4_of_ne m c main_arg3 (by decide)).trans <| (B3_keep m c main_arg3 (by decide)).trans <|
    (B2_of_ne m c main_arg3 (by decide)).trans <| (B1_keep m c main_arg3 (by decide)).trans rfl

theorem B4_main_arg4 (c : Dev nD) : B4 m c (Proc.devRef .tc main_arg4) = m ((c : Thread nD τ).loc main_arg4) :=
  (B4_of_ne m c main_arg4 (by decide)).trans <| (B3_keep m c main_arg4 (by decide)).trans <|
    (B2_of_ne m c main_arg4 (by decide)).trans <| (B1_keep m c main_arg4 (by decide)).trans rfl

theorem B4_main_arg5 (c : Dev nD) : B4 m c (Proc.devRef .tc main_arg5) = m ((c : Thread nD τ).loc main_arg5) :=
  (B4_input m c 1 rfl).trans <| (B3_keep m c main_arg5 (by decide)).trans <|
    (B2_of_ne m c main_arg5 (by decide)).trans <| (B1_keep m c main_arg5 (by decide)).trans rfl

theorem B4_main_arg6 (c : Dev nD) : B4 m c (Proc.devRef .tc main_arg6) = m ((c : Thread nD τ).loc main_arg6) :=
  (B4_of_ne m c main_arg6 (by decide)).trans <| (B3_keep m c main_arg6 (by decide)).trans <|
    (B2_of_ne m c main_arg6 (by decide)).trans <| (B1_keep m c main_arg6 (by decide)).trans rfl

/-- The program's result: the output window's array at what the output region's write-backs leave. -/
theorem result (c : Dev nD) : B4 m c (Proc.devRef .tc main_v17) = (dat1 (VB3 m) c).arrAt 5 cfg1.N :=
  B4_arr m c 5

/-! ## The proof data, and what every core carries beside its buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VB1 m) c
  | ⟨1, _⟩ => fun c => dat1 (VB3 m) c

/-- No semaphore is shared between cores: no level is assigned. -/
abbrev noLevels : GSem nD τ sig → Finset Unit := fun _ => ∅
abbrev levelZero : GSem nD τ sig → Unit → ℕ := fun _ _ => 0

/-- The core's generator register, at some state. -/
abbrev someGen (c : Dev nD) : sProp 𝕄 := iprop(∃ r, prngReg c r)
/-- The core owes nothing. -/
abbrev owesNothing (c : Dev nD) : sProp 𝕄 := iprop(∃ W, owes (c : Thread nD τ) (0 : CellTallies nD τ sig Unit) W)
/-- What rides beside the buffers through every item. -/
abbrev beside (c : Dev nD) : sProp 𝕄 := iprop(someGen c ∗ owesNothing c)
/-- A core between two items: every unscoped buffer at the boundary's contents, and what rides beside them. -/
abbrev between (B : Dev nD → Valuation τ sig (Elt F)) (c : Dev nD) : sProp 𝕄 :=
  iprop(StableHlo.held (c : Thread nD τ) (Pipeline.ucRefs τ sig) (B c) ∗ beside c)

/-- A host stretch over the unscoped buffers, from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B beside

/-! ### The steps every region shares -/

/-- A core that owes nothing owes nothing within a bound that excludes no pair. -/
theorem owesWithin_of_nothing (c : Dev nD) (Bd : Set (SemLoc sig × Unit)) (hBd : ∀ x, x ∈ Bd) :
    owesNothing c ⊢ (Pipeline.owesWithin c (0 : CellTallies nD τ sig Unit) Bd : sProp 𝕄) := by
  iintro ⟨%W, HO⟩
  iexists W
  isplitr
  · ipureintro; exact fun x _ => hBd x
  · iexact HO

/-- And back: the bound is forgotten. -/
theorem nothing_of_owesWithin (c : Dev nD) (Bd : Set (SemLoc sig × Unit)) :
    (Pipeline.owesWithin c (0 : CellTallies nD τ sig Unit) Bd : sProp 𝕄) ⊢ owesNothing c := by
  iintro ⟨%W, -, HO⟩
  iexists W
  iexact HO

/-- The class's invariant from the generator register and the scoped buffers no window stages; the tables (there are
    none) are let go. -/
theorem classInv_intro {gr W : ℕ} (win : Fin W → Pipeline.WinSpec sig gr) (c : Dev nD) (T : sProp 𝕄) :
    iprop(someGen c ∗ T ∗ Pipeline.scopedRest win c) ⊢ (Pipeline.ΦA win c : sProp 𝕄) := by
  unfold Pipeline.ΦA
  iintro ⟨Hg, -, Hs⟩
  isplitl [Hs]
  · iexact Hs
  · iexact Hg

/-- The class's invariant gives both back. -/
theorem classInv_elim {gr W : ℕ} (win : Fin W → Pipeline.WinSpec sig gr) (c : Dev nD) :
    (Pipeline.ΦA win c : sProp 𝕄) ⊢ iprop(someGen c ∗ emp ∗ Pipeline.scopedRest win c) := by
  unfold Pipeline.ΦA
  iintro ⟨Hs, Hg⟩
  isplitl [Hg]
  · iexact Hg
  isplitr
  · iempintro
  · iexact Hs

/-! ## The regions -/

-- a library lemma stated over the pinned configuration of pipeline `p` meets the printed configuration only when
-- unification may unfold plain definitions in a metavariable's type
set_option backward.isDefEq.respectTransparency.types false in
/-- Entering the statistics region: the core's unscoped buffers at `B1` are the region's six arrays at the proof data's
    entry contents and the other unscoped buffers at `B1`. -/
theorem enter0 (c : Dev nD) :
    (StableHlo.held (c : Thread nD τ) (Pipeline.ucRefs τ sig) (B1 m c) : sProp 𝕄)
      ⊢ iprop((pdats m 0 c).arrays ((pdats m 0 c).arrAt · 0)
          ∗ Pipeline.unscopedRest (Ix := Unit) (Name := ℕ) (U := UR sig nD τ) (Lvl := ℕ) spec0 c (VB1 m c)) := by
  have h := Pipeline.arrays_of_unscopedBufs (p := 0) (pcfgs (F := F)) adm (pdats m) launch0.win launch0.arr_whole c
    ((pdats m 0 c).share_full fun _ => rfl) (VB1 m c) fun _ => rfl
  rw [Pipeline.unscopedBufs_held] at h
  exact h

set_option backward.isDefEq.respectTransparency.types false in
/-- Leaving it: the six arrays at what all the points' write-backs leave and the other unscoped buffers at `B1` are
    the core's unscoped buffers at `B2`. -/
theorem leave0 (c : Dev nD) :
    iprop((pdats m 0 c).arrays ((pdats m 0 c).arrAt · cfg0.N)
        ∗ Pipeline.unscopedRest (Ix := Unit) (Name := ℕ) (U := UR sig nD τ) (Lvl := ℕ) spec0 c (VB1 m c))
      ⊢ (StableHlo.held (c : Thread nD τ) (Pipeline.ucRefs τ sig) (B2 m c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (VB1 m c) (fun b => B2 m c b) ((pdats m 0 c).arrAt · cfg0.N) (fun w => (B2_arr m c w).symm)
    (fun b hb => B2_of_ne m c b fun w e => hb (Finset.mem_image.mpr ⟨w, Finset.mem_univ _, e⟩))
  rw [Pipeline.unscopedBufs_held] at h
  exact h

set_option backward.isDefEq.respectTransparency.types false in
/-- Entering the output region, from `B3`. -/
theorem enter1 (c : Dev nD) :
    (StableHlo.held (c : Thread nD τ) (Pipeline.ucRefs τ sig) (B3 m c) : sProp 𝕄)
      ⊢ iprop((pdats m 1 c).arrays ((pdats m 1 c).arrAt · 0)
          ∗ Pipeline.unscopedRest (Ix := Unit) (Name := ℕ) (U := UR sig nD τ) (Lvl := ℕ) spec1 c (VB3 m c)) := by
  have h := Pipeline.arrays_of_unscopedBufs (p := 1) (pcfgs (F := F)) adm (pdats m) launch1.win launch1.arr_whole c
    ((pdats m 1 c).share_full fun _ => rfl) (VB3 m c) fun _ => rfl
  rw [Pipeline.unscopedBufs_held] at h
  exact h

set_option backward.isDefEq.respectTransparency.types false in
/-- Leaving it, at `B4`. -/
theorem leave1 (c : Dev nD) :
    iprop((pdats m 1 c).arrays ((pdats m 1 c).arrAt · cfg1.N)
        ∗ Pipeline.unscopedRest (Ix := Unit) (Name := ℕ) (U := UR sig nD τ) (Lvl := ℕ) spec1 c (VB3 m c))
      ⊢ (StableHlo.held (c : Thread nD τ) (Pipeline.ucRefs τ sig) (B4 m c) : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (VB3 m c) (fun b => B4 m c b) ((pdats m 1 c).arrAt · cfg1.N) (fun w => (B4_arr m c w).symm)
    (fun b hb => B4_of_ne m c b fun w e => hb (Finset.mem_image.mpr ⟨w, Finset.mem_univ _, e⟩))
  rw [Pipeline.unscopedBufs_held] at h
  exact h

set_option backward.isDefEq.respectTransparency.types false in
/-- The statistics region, entered at `B1` and left at `B2`. The generator register enters the region's invariant
    with the scoped buffers no window stages, through the invariant's first end, and comes back through its last. -/
def reg0 : Pipeline.RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (VB1 m) c).loose
  hwaits := Pipeline.hwaits_of_owed_zero _ _ _ _ noLevels levelZero 0 fun _ _ => rfl
  pre := between (B1 m)
  post := between (B2 m)
  X := someGen
  Y := someGen
  Z c := Pipeline.unscopedRest (Ix := Unit) (Name := ℕ) (U := UR sig nD τ) (Lvl := ℕ) spec0 c (VB1 m c)
  hentry c := by
    rw [Pipeline.ownSems0_none]
    iintro ⟨⟨Hb, Hg, HO⟩, -, -⟩
    ihave H := enter0 m c $$ Hb
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · iapply owesWithin_of_nothing c _ (fun _ => Or.inl trivial); iexact HO
    isplitl [Hg]; · iexact Hg
    iexact Hz
  hin c := (classInv_intro spec0 c _).trans (hin0 (VB1 m) c)
  hout c := by
    rw [Pipeline.ownSems0_none]
    exact (hout0 (VB1 m) c).trans (classInv_elim spec0 c)
  hexit c := by
    iintro ⟨Ha, HO, Hg, Hz⟩
    imodintro
    isplitl [Ha Hz]
    · iapply leave0 m c; isplitl [Ha] <;> iassumption
    isplitl [Hg]; · iexact Hg
    iapply nothing_of_owesWithin c; iexact HO

set_option backward.isDefEq.respectTransparency.types false in
/-- The output region, entered at `B3` and left at `B4`; its invariant is the class's at every point. -/
def reg1 : Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (VB3 m) c).loose
  hwaits := Pipeline.hwaits_of_owed_zero _ _ _ _ noLevels levelZero 1 fun _ _ => rfl
  pre := between (B3 m)
  post := between (B4 m)
  X := someGen
  Y := someGen
  Z c := Pipeline.unscopedRest (Ix := Unit) (Name := ℕ) (U := UR sig nD τ) (Lvl := ℕ) spec1 c (VB3 m c)
  hentry c := by
    rw [Pipeline.ownSems0_none]
    iintro ⟨⟨Hb, Hg, HO⟩, -, -⟩
    ihave H := enter1 m c $$ Hb
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · iapply owesWithin_of_nothing c _ (fun _ => Or.inl trivial); iexact HO
    isplitl [Hg]; · iexact Hg
    iexact Hz
  hin c := classInv_intro spec1 c _
  hout c := by
    rw [Pipeline.ownSems0_none]
    exact classInv_elim spec1 c
  hexit c := by
    iintro ⟨Ha, HO, Hg, Hz⟩
    imodintro
    isplitl [Ha Hz]
    · iapply leave1 m c; isplitl [Ha] <;> iassumption
    isplitl [Hg]; · iexact Hg
    iapply nothing_of_owesWithin c; iexact HO

/-! ## @main as four items, and the launch -/

/-- An unscoped TensorCore reference is among those a core holds between items. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- @main's four items in order, each host stretch from the contents the fold has before it. -/
abbrev items : List (Pipeline.Seg (pcfgs (F := F)) adm (pdats m) () defs₀ Variants.none noLevels levelZero) :=
  [ .host (stretch hostOps0 hostOps0_sub hostOps0_fresh (B0 m)),
    .region (reg0 m),
    .host (stretch hostOps1 hostOps1_sub hostOps1_fresh (B2 m)),
    .region (reg1 m) ]

/-- @main is the run of the four items. -/
theorem main_items (c : Dev nD) : main (F := F) c = Pipeline.Seg.run (items m) :=
  (main_chain c).trans (by chain_rfl)

/-- After the last item: the buffers at `B4` and the generator register, beside the core owing nothing. -/
theorem between_last (c : Dev nD) :
    between (B4 m) c ⊢ (iprop((StableHlo.held (c : Thread nD τ) (Pipeline.ucRefs τ sig) (B4 m c) ∗ someGen c)
      ∗ ∃ W, owes (c : Thread nD τ) (0 : CellTallies nD τ sig Unit) W) : sProp 𝕄) := by
  iintro ⟨Hh, Hg, HO⟩
  isplitr [HO]
  · isplitl [Hh] <;> iassumption
  · iexact HO

-- the launch theorem's implicit arguments are found by unifying its conclusion with this one, which takes unfolding
-- plain definitions in a metavariable's type
set_option backward.isDefEq.respectTransparency.types false in
/-- THE RUN. From any memory with zero counters every weakly fair execution of @main terminates, nothing faulting, and
    in every final memory each core's unscoped buffers hold the fold's last contents `B4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = B4 m c b) :=
  Pipeline.θ_run_regions_kit (pcfgs (F := F)) adm (pdats m) () cellOf_inj emb₁ defs₀ Variants.none noLevels levelZero
    m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (B0 m))
    (Tₙ := fun c => iprop(StableHlo.held (c : Thread nD τ) (Pipeline.ucRefs τ sig) (B4 m c) ∗ someGen c))
    (hch := ⟨fun _ => .rfl, fun _ => .rfl, fun _ => .rfl, fun _ => .rfl, between_last m⟩)
    (hinit := by
      refine Pipeline.initEach noLevels levelZero fun c => ?_
      rw [show unscopedBufs c (fun b => m ((c : Thread nD τ).loc b))
          = StableHlo.held (c : Thread nD τ) (Pipeline.ucRefs τ sig) (B0 m c) from Pipeline.unscopedBufs_held c (B0 m c)]
      iintro ⟨⟨Hh, -, HO, -, Hg, -⟩, -⟩
      imodintro
      isplitl [Hh]; · iexact Hh
      isplitl [Hg]
      · iexists _; iexact Hg
      · iexists ∅; iexact HO)
    (QY := fun c s => ∀ b ∈ Pipeline.ucRefs τ sig, s.mem ((c : Thread nD τ).1, b) = B4 m c b)
    (hfin := fun c s' => by
      iintro ⟨⟨Hh, -⟩, HSI⟩
      unfold StableHlo.held
      imodintro
      iapply (pointsTo_read_all (Pipeline.ucRefs τ sig) (fun b => ((c : Thread nD τ).1, b)) (B4 m c) s')
      isplitl [Hh] <;> iassumption)
    (hQ := fun s h => h)

/-- THE FRAME: every argument array ends as launched — the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_ucRefs main_arg0 (by decide))).trans (B4_main_arg0 m c),
     (h c _ (mem_ucRefs main_arg1 (by decide))).trans (B4_main_arg1 m c),
     (h c _ (mem_ucRefs main_arg2 (by decide))).trans (B4_main_arg2 m c),
     (h c _ (mem_ucRefs main_arg3 (by decide))).trans (B4_main_arg3 m c),
     (h c _ (mem_ucRefs main_arg4 (by decide))).trans (B4_main_arg4 m c),
     (h c _ (mem_ucRefs main_arg5 (by decide))).trans (B4_main_arg5 m c),
     (h c _ (mem_ucRefs main_arg6 (by decide))).trans (B4_main_arg6 m c)⟩) (run_all m ρ)

end Cert.Kernel.Hand

end
-- ==== Proof.KI.Data.lean ====
/-
  The two kernel regions' proof data, stated at a parameter `V`: the TensorCore's buffer contents when a region is
  entered.

  Region 0 (the statistics pass, 64 grid points of 512 rows each) writes the block `h = x · sign(W1)ᵀ + b1` of its rows
  at every point and carries two scratch rows between points: the running column sums of `h` and of `h²`, zeroed at the
  first point, added to at every point, and copied into the two one-row results at the last point only. `accS` and
  `accQ` are those running sums after each point, by recursion on the point. The region's invariant before a point
  (`PhiS`) holds the two scratch rows at the sums the point before left (at anything before the first point), the
  other scoped buffers at anything and the generator register at some state.

  Region 1 (the output pass, 32 grid points of 1024 rows each) writes one block of the result per point, a pure
  function of its five input blocks; its invariant is the scoped rest untouched.
-/
import proofs.«178065_j47201690583460_1_alg».proof.Proof.Gen.KernelIdeal.Launch
import proofs.«178065_j47201690583460_1_alg».proof.Proof.Gen.KernelIdeal.Skeleton
import proofs.«178065_j47201690583460_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch rows the statistics kernel carries between points, as memrefs. -/
abbrev scM0_0 : Memref sig .tc .vmem S1x100 .f32 := Memref.whole cc0_scratch0
abbrev scM0_1 : Memref sig .tc .vmem S1x100 .f32 := Memref.whole cc0_scratch1

/-- The block of `h` the body stores at point `t`: a function of the weight block, the point's rows and the bias row. -/
def hblk0 (c : Dev nD) (t : Fin cfg0.N) : Vec F S512x100 .f32 :=
  k0_pay4 (iblk0 V c 1 t) (iblk0 V c 0 t) (iblk0 V c 2 t)

/-- The running column sums of `h` after point `n`: zero plus the first block's sums, then each block's sums added. -/
def accS (c : Dev nD) : (n : ℕ) → n < cfg0.N → Vec F S1x100 .f32
  | 0, h => k0_pay5 (iblk0 V c 1 ⟨0, h⟩) (iblk0 V c 0 ⟨0, h⟩) (iblk0 V c 2 ⟨0, h⟩) (k0_pay2 (F := F))
  | n + 1, h => k0_pay5 (iblk0 V c 1 ⟨n + 1, h⟩) (iblk0 V c 0 ⟨n + 1, h⟩) (iblk0 V c 2 ⟨n + 1, h⟩) (accS c n (Nat.lt_of_succ_lt h))

/-- The running column sums of `h²` after point `n`. -/
def accQ (c : Dev nD) : (n : ℕ) → n < cfg0.N → Vec F S1x100 .f32
  | 0, h => k0_pay1 (k0_pay6 (iblk0 V c 1 ⟨0, h⟩) (iblk0 V c 0 ⟨0, h⟩) (iblk0 V c 2 ⟨0, h⟩) (k0_pay3 (F := F)))
  | n + 1, h => k0_pay1 (k0_pay6 (iblk0 V c 1 ⟨n + 1, h⟩) (iblk0 V c 0 ⟨n + 1, h⟩) (iblk0 V c 2 ⟨n + 1, h⟩) (accQ c n (Nat.lt_of_succ_lt h)))

/-- The core's scoped buffers that region 0 neither stages nor names: the output pass's staging buffers, at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- Region 0's invariant before point `n`: before the first point every scratch at anything; afterwards the two
    carried rows at the sums the point before left, the other scoped buffers at anything, the generator at some state. -/
def PhiS (c : Dev nD) : (n : ℕ) → n ≤ cfg0.N → sProp 𝕄
  | 0, _ => Pipeline.ΦA spec0 c
  | n + 1, hn => iprop(owns (c : Thread nD τ) scM0_0 fullShare (accS V c n hn) ∗ owns (c : Thread nD τ) scM0_1 fullShare (accQ V c n hn)
      ∗ rest0 (F := F) c ∗ (∃ r, prngReg c r))

/-- Region 0's proof data on core `c`: the arrays as the region finds them; after the body at point `t` each input's
    buffer at its block, the `h` window's at the point's block of `h`, the two one-row results' at the running sums
    (they are idle, and not written back, except at the last point); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hblk0 V c t
    | ⟨4, _⟩ => accS V c t.val t.isLt
    | ⟨5, _⟩ => accQ V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the result the output kernel stores at point `t`: the log-softmax rows of the binarized, normalized
    block of `h` against the binarized second weights. -/
def oblk1 (c : Dev nD) (t : Fin cfg1.N) : Vec F S1024x1000 .f32 :=
  k1_pay1 (iblk1 V c 0 t) (iblk1 V c 3 t) (iblk1 V c 4 t) (iblk1 V c 1 t) (iblk1 V c 2 t)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

end Cert.KernelIdeal.Hand

end
-- ==== Proof.KI.R0Runs.lean ====
/-
  What the three control cases of the statistics kernel's body share: the two branch conditions as
  propositions over the grid coordinate and their closed forms (the first point; the last point), where the
  two one-row result windows are idle and not written back, each window's current staging memref at a point,
  the class's invariant with the two carried rows as owned memrefs, and what the body finds in its three
  input windows' buffers: the window's block at the point, fetched there or not.
-/
import proofs.«178065_j47201690583460_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions -/

/-- The first conditional's condition (`i == 0`), the part's scalar chain substituted. -/
abbrev cond0_0 (i : grid0.Coords) : Prop :=
  (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The last conditional's condition (`i == 63`). -/
abbrev cond0_1 (i : grid0.Coords) : Prop := k0_cond2 i = 1#1
/-- It holds at the last point only. -/
theorem hcond0_1 : ∀ t : Fin cfg0.N, cond0_1 (grid0.coords t) ↔ t.val = 63 :=
  (by decide +kernel : ∀ t : Fin grid0.N, cond0_1 (grid0.coords t) ↔ t.val = 63)

/-! ## Idle and live points of the windows -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last point the two one-row results are idle and are not written back; at it they are live. -/
theorem idleAt0_4 : ∀ t : Fin cfg0.N, t.val ≠ 63 → cfg0.idle 4 (grid0.coords t) = true := by decide +kernel
theorem noFlush0_4 : ∀ t : Fin cfg0.N, t.val ≠ 63 → (cfg0.win 4).flush t = false := by decide +kernel
theorem liveAt0_4 : ∀ t : Fin cfg0.N, t.val = 63 → cfg0.idle 4 (grid0.coords t) = false := by decide +kernel
theorem idleAt0_5 : ∀ t : Fin cfg0.N, t.val ≠ 63 → cfg0.idle 5 (grid0.coords t) = true := by decide +kernel
theorem noFlush0_5 : ∀ t : Fin cfg0.N, t.val ≠ 63 → (cfg0.win 5).flush t = false := by decide +kernel
theorem liveAt0_5 : ∀ t : Fin cfg0.N, t.val = 63 → cfg0.idle 5 (grid0.coords t) = false := by decide +kernel

/-! ## The staging memrefs at a point -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S100x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x100 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x100 .f32 := win0_5.stage (cfg0.slots t 5)
abbrev hs0_5 (t : Fin cfg0.N) : (ms0_5 t).IsWhole := hstage0_5 ((cfg0.slots t 5).cast nbuf0_5)

/-- Every load and store of the body is through the whole-buffer rectangle at offset zero. -/
theorem hz : (![0, 0] : Fin 2 → Nat) = fun _ => 0 := by
  funext a; fin_cases a <;> rfl

/-! ## The class's invariant, the carried rows as memrefs -/

/-- Before the first point: the two carried rows at anything, the other scoped buffers at anything, the generator
    register at some state. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 (F := F) c)
          ∗ (∃ r, prngReg c r)) := by
  unfold Pipeline.ΦA rest0; rw [scopedRest0_eq]; simp only [scM0_0, scM0_1, owns_whole]; try rfl

/-! ## What the body leaves and finds, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = hblk0 V c t := by dsimp only [dat0]
theorem after0_4 (c : Dev nD) (t : Fin cfg0.N) : (dat0 V c).after 4 t = accS V c t.val t.isLt := by dsimp only [dat0]
theorem after0_5 (c : Dev nD) (t : Fin cfg0.N) : (dat0 V c).after 5 t = accQ V c t.val t.isLt := by dsimp only [dat0]

/-- Each input's current staging buffer holds its block at every point, fetched there or not: an input not fetched
    at a point has the block index of the point before, and the body leaves an input's buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The part's skeleton's congruence lemma, named once here so that the three cases' runs share it. -/
theorem part_congr_realized : True := by
  have := @k0_part1_skel.congr_simp; have := @cc0__stats_kernel_skel.congr_simp
  trivial

end Cert.KernelIdeal.Hand

end
-- ==== Proof.KI.R0RunA.lean ====
/-
  The statistics kernel's whole body at the first grid point: the first conditional is taken and zeroes the two
  carried rows, the last is not. From the three input blocks, the `h` window's buffer and the two carried rows at
  anything, the body runs to: the inputs as they were, the `h` window's buffer at the block of `h`, the first
  carried row at the zero row plus the block's column sums, the second at the zero row plus the column sums of the
  block's squares. The two one-row result windows' buffers are not touched and stay outside the triple.
-/
import proofs.«178065_j47201690583460_1_alg».proof.Proof.KI.R0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A of the body (`i = 0`). Each carried row is stored twice: the zero row, which the later load reads back,
    then the sum; the later store covers the row, so it is what the row ends with. -/
theorem kernelRun0_A (c : Dev nD) (i : grid0.Coords) (arg1 : Memref sig .tc .vmem S512x4096 .f32) (harg1 : arg1.IsWhole) (arg2 : Memref sig .tc .vmem S100x4096 .f32) (harg2 : arg2.IsWhole) (arg3 : Memref sig .tc .vmem S1x100 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S1x100 .f32) (harg6 : arg6.IsWhole) (arg7 : Memref sig .tc .vmem S1x100 .f32) (harg7 : arg7.IsWhole) (arg8 : Memref sig .tc .vmem S1x100 .f32) (harg8 : arg8.IsWhole)
    (hc0 : cond0_0 i) (hc1 : ¬cond0_1 i)
    (x0 : Vec F S512x4096 .f32) (x1 : Vec F S100x4096 .f32) (x2 : Vec F S1x100 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x1 x0 x2) ∗ owns (c : Thread nD τ) arg7 fullShare (k0_pay5 x1 x0 x2 (k0_pay2 (F := F)))
            ∗ owns (c : Thread nD τ) arg8 fullShare (k0_pay1 (k0_pay6 x1 x0 x2 (k0_pay3 (F := F))))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d7, %f7, -, H7⟩, ⟨%d8, %f8, -, H8⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz inb_S512x100_S512x100_0_0 y⟩), View.canon_unit_zero hz]
    simp only [View.readAt_eq_ld, harg1.read_unread, harg2.read_unread, harg3.read_unread,
      View.ld_unit_zero (S := S512x4096) hz, View.ld_unit_zero (S := S100x4096) hz, View.ld_unit_zero (S := S1x100) hz,
      View.readCov_unit_zero (S := S1x100) _ hz]
  isplitl [H7]
  · iexists _; isplitr
    swap; · iexact H7
    ipureintro
    rw [View.read_writes_eq_canon _ _ _ (fun y => ⟨_, List.mem_cons.mpr (Or.inl rfl), View.mem_set_unit_zero hz inb_S1x100_S1x100_0_0 y⟩), View.canon_cons_unit_zero hz]
    sl_unfold_words
    simp only [View.readAt_eq_ld, harg1.read_unread, harg2.read_unread, harg3.read_unread,
      View.ld_unit_zero (S := S512x4096) hz, View.ld_unit_zero (S := S100x4096) hz, View.ld_unit_zero (S := S1x100) hz,
      View.readCov_unit_zero (S := S1x100) _ hz]
  iexists _; isplitr
  swap; · iexact H8
  ipureintro
  rw [View.read_writes_eq_canon _ _ _ (fun y => ⟨_, List.mem_cons.mpr (Or.inl rfl), View.mem_set_unit_zero hz inb_S1x100_S1x100_0_0 y⟩), View.canon_cons_unit_zero hz]
  sl_unfold_words
  simp only [View.readAt_eq_ld, harg1.read_unread, harg2.read_unread, harg3.read_unread,
      View.ld_unit_zero (S := S512x4096) hz, View.ld_unit_zero (S := S100x4096) hz, View.ld_unit_zero (S := S1x100) hz,
      View.readCov_unit_zero (S := S1x100) _ hz]

end Cert.KernelIdeal.Hand

end
-- ==== Proof.KI.R0RunB.lean ====
/-
  The statistics kernel's whole body at a point that is neither the first nor the last: neither conditional is
  taken. From the three input blocks, the `h` window's buffer at anything and the two carried rows at what the point
  before left, the body runs to: the inputs as they were, the `h` window's buffer at the block of `h`, the first
  carried row at its contents plus the block's column sums, the second at its contents plus the column sums of the
  block's squares. The two one-row result windows' buffers are not touched and stay outside the triple.
-/
import proofs.«178065_j47201690583460_1_alg».proof.Proof.KI.R0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B of the body (`0 < i < 63`). Every load and store is through the whole-buffer rectangle, so what a store
    leaves is its payload and what a load reads is the buffer's contents. -/
theorem kernelRun0_B (c : Dev nD) (i : grid0.Coords) (arg1 : Memref sig .tc .vmem S512x4096 .f32) (harg1 : arg1.IsWhole) (arg2 : Memref sig .tc .vmem S100x4096 .f32) (harg2 : arg2.IsWhole) (arg3 : Memref sig .tc .vmem S1x100 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S1x100 .f32) (harg6 : arg6.IsWhole) (arg7 : Memref sig .tc .vmem S1x100 .f32) (harg7 : arg7.IsWhole) (arg8 : Memref sig .tc .vmem S1x100 .f32) (harg8 : arg8.IsWhole)
    (hc0 : ¬cond0_0 i) (hc1 : ¬cond0_1 i)
    (x0 : Vec F S512x4096 .f32) (x1 : Vec F S100x4096 .f32) (x2 : Vec F S1x100 .f32) (s0 s1 : Vec F S1x100 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x1 x0 x2) ∗ owns (c : Thread nD τ) arg7 fullShare (k0_pay5 x1 x0 x2 s0)
            ∗ owns (c : Thread nD τ) arg8 fullShare (k0_pay1 (k0_pay6 x1 x0 x2 s1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz inb_S512x100_S512x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz]
  isplitl [H7]
  · iexists _; isplitr
    swap; · iexact H7
    ipureintro
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz]
  iexists _; isplitr
  swap; · iexact H8
  ipureintro
  rw [View.read_writes_eq_canon _ _ _ (fun y => ⟨_, List.mem_singleton_self _, View.mem_set_unit_zero hz inb_S1x100_S1x100_0_0 y⟩), View.canon_unit_zero hz]
  sl_unfold_words
  simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz]

end Cert.KernelIdeal.Hand

end
-- ==== Proof.KI.R0RunC.lean ====
/-
  The statistics kernel's whole body at the last grid point: the first conditional is not taken, the last is. From
  the three input blocks, the `h` window's and the two one-row results' buffers at anything and the two carried rows
  at what the point before left, the body runs to: the inputs as they were, the `h` window's buffer at the block of
  `h`, each carried row at its contents plus the block's column sums (of `h`, of its squares), and each one-row
  result's buffer at the carried row it copies: the row is loaded after the sum has been stored into it.
-/
import proofs.«178065_j47201690583460_1_alg».proof.Proof.KI.R0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C of the body (`i = 63`). -/
theorem kernelRun0_C (c : Dev nD) (i : grid0.Coords) (arg1 : Memref sig .tc .vmem S512x4096 .f32) (harg1 : arg1.IsWhole) (arg2 : Memref sig .tc .vmem S100x4096 .f32) (harg2 : arg2.IsWhole) (arg3 : Memref sig .tc .vmem S1x100 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S1x100 .f32) (harg6 : arg6.IsWhole) (arg7 : Memref sig .tc .vmem S1x100 .f32) (harg7 : arg7.IsWhole) (arg8 : Memref sig .tc .vmem S1x100 .f32) (harg8 : arg8.IsWhole)
    (hc0 : ¬cond0_0 i) (hc1 : cond0_1 i)
    (x0 : Vec F S512x4096 .f32) (x1 : Vec F S100x4096 .f32) (x2 : Vec F S1x100 .f32) (s0 s1 : Vec F S1x100 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x1 x0 x2) ∗ owns (c : Thread nD τ) arg5 fullShare (k0_pay5 x1 x0 x2 s0) ∗ owns (c : Thread nD τ) arg6 fullShare (k0_pay1 (k0_pay6 x1 x0 x2 s1))
            ∗ owns (c : Thread nD τ) arg7 fullShare (k0_pay5 x1 x0 x2 s0)
            ∗ owns (c : Thread nD τ) arg8 fullShare (k0_pay1 (k0_pay6 x1 x0 x2 s1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz inb_S512x100_S512x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  isplitl [H5]
  · iexists _; isplitr
    swap; · iexact H5
    ipureintro
    sl_unfold_words
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  isplitl [H6]
  · iexists _; isplitr
    swap; · iexact H6
    ipureintro
    sl_unfold_words
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  isplitl [H7]
  · iexists _; isplitr
    swap; · iexact H7
    ipureintro
    sl_unfold_words
    rw [View.read_writes_eq_canon _ _ _ (fun y => ⟨_, List.mem_singleton_self _, View.mem_set_unit_zero hz inb_S1x100_S1x100_0_0 y⟩), View.canon_unit_zero hz]
    simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]
  iexists _; isplitr
  swap; · iexact H8
  ipureintro
  sl_unfold_words
  rw [View.read_writes_eq_canon _ _ _ (fun y => ⟨_, List.mem_singleton_self _, View.mem_set_unit_zero hz inb_S1x100_S1x100_0_0 y⟩), View.canon_unit_zero hz]
  simp only [View.readAt_eq_ld, harg1.read_unread, harg2.read_unread, harg3.read_unread, harg7.read_unread, harg8.read_unread,
      View.ld_unit_zero (S := S512x4096) hz, View.ld_unit_zero (S := S100x4096) hz, View.ld_unit_zero (S := S1x100) hz,
      View.readCov_unit_zero (S := S1x100) _ hz]

end Cert.KernelIdeal.Hand

end
-- ==== Proof.KI.R0Body.lean ====
/-
  Region 0's body obligation: at every grid point the statistics kernel, run on what the pipeline hands it, leaves what
  the proof data say — and the invariant's two ends against the class's scoped rest.

  The point decides the control case: the first point zeroes the two carried rows before adding to them, the last point
  also copies them into the two one-row results' buffers, every other point only adds. In each case the kernel's run
  is applied to the point's staging memrefs and input blocks; the invariant hands the run the two
  carried rows at the running sums the point before left (at anything before the first point) and takes them back at
  this point's running sums; off the last point the one-row results' buffers are idle and handed back as found.
-/
import proofs.«178065_j47201690583460_1_alg».proof.Proof.KI.R0RunA
import proofs.«178065_j47201690583460_1_alg».proof.Proof.KI.R0RunB
import proofs.«178065_j47201690583460_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sums, point by point -/

/-- At the first point the column sums are added to the zero row. -/
theorem accS_first (c : Dev nD) (t : Fin cfg0.N) (ht : t.val = 0) :
    accS V c t.val t.isLt = k0_pay5 (iblk0 V c 1 t) (iblk0 V c 0 t) (iblk0 V c 2 t) (k0_pay2 (F := F)) := by
  obtain ⟨n, hn⟩ := t
  cases n with
  | zero => rfl
  | succ n => exact absurd ht (Nat.succ_ne_zero n)

/-- At a later point they are added to what the point before left. -/
theorem accS_pos (c : Dev nD) (t : Fin cfg0.N) (ht : t.val ≠ 0) :
    accS V c t.val t.isLt = k0_pay5 (iblk0 V c 1 t) (iblk0 V c 0 t) (iblk0 V c 2 t) (accS V c (t.val - 1) (Nat.lt_of_le_of_lt (Nat.sub_le _ _) t.isLt)) := by
  obtain ⟨n, hn⟩ := t
  cases n with
  | zero => exact absurd rfl ht
  | succ n => rfl

theorem accQ_first (c : Dev nD) (t : Fin cfg0.N) (ht : t.val = 0) :
    accQ V c t.val t.isLt = k0_pay1 (k0_pay6 (iblk0 V c 1 t) (iblk0 V c 0 t) (iblk0 V c 2 t) (k0_pay3 (F := F))) := by
  obtain ⟨n, hn⟩ := t
  cases n with
  | zero => rfl
  | succ n => exact absurd ht (Nat.succ_ne_zero n)

theorem accQ_pos (c : Dev nD) (t : Fin cfg0.N) (ht : t.val ≠ 0) :
    accQ V c t.val t.isLt = k0_pay1 (k0_pay6 (iblk0 V c 1 t) (iblk0 V c 0 t) (iblk0 V c 2 t) (accQ V c (t.val - 1) (Nat.lt_of_le_of_lt (Nat.sub_le _ _) t.isLt))) := by
  obtain ⟨n, hn⟩ := t
  cases n with
  | zero => exact absurd rfl ht
  | succ n => rfl

/-! ## The invariant, point by point -/

theorem PhiS_zero (c : Dev nD) (n : ℕ) (h : n ≤ cfg0.N) (hz : n = 0) : PhiS V c n h = Pipeline.ΦA spec0 c := by
  subst hz; rfl

/-- After point `n`: the carried rows at that point's running sums. -/
theorem PhiS_succ (c : Dev nD) (n : ℕ) (hn : n < cfg0.N) :
    PhiS V c (n + 1) hn = iprop(owns (c : Thread nD τ) scM0_0 fullShare (accS V c n hn) ∗ owns (c : Thread nD τ) scM0_1 fullShare (accQ V c n hn)
      ∗ rest0 (F := F) c ∗ (∃ r, prngReg c r)) := rfl

/-- Before a point that is not the first: the carried rows at what the point before left. -/
theorem PhiS_pos (c : Dev nD) (n : ℕ) (h : n ≤ cfg0.N) (hz : n ≠ 0) :
    PhiS V c n h = iprop(owns (c : Thread nD τ) scM0_0 fullShare (accS V c (n - 1) (by omega)) ∗ owns (c : Thread nD τ) scM0_1 fullShare (accQ V c (n - 1) (by omega))
      ∗ rest0 (F := F) c ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The body obligation at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the point's position says which control case it is
    in, and that case's run applies; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold hblk0
  by_cases h0 : t.val = 0
  · -- the first point: both carried rows are zeroed, then added to
    have h63 : t.val ≠ 63 := by omega
    rw [Dat.leavesExact_idle (dat0 V c) 4 t (idleAt0_4 t h63) (noFlush0_4 t h63),
      Dat.leavesExact_idle (dat0 V c) 5 t (idleAt0_5 t h63) (noFlush0_5 t h63)]
    rw [accS_first V c t h0, accQ_first V c t h0]
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, H4, H5⟩
    iapply (kernelRun0_A c (grid0.coords t) _ _ _ _ _ _ _ _ _ _ _ _ _ _ _ _ ((hcond0_0 t).mpr h0) (fun h => h63 ((hcond0_1 t).mp h))
      (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h63 : t.val = 63
    · -- the last point: the rows are added to, then copied into the one-row results' buffers
      rw [show (dat0 V c).leavesExact 4 t = owns (c : Thread nD τ) (ms0_4 t) fullShare ((dat0 V c).after 4 t) from by
        unfold Dat.leavesExact; rw [liveAt0_4 t h63], after0_4]
      rw [show (dat0 V c).leavesExact 5 t = owns (c : Thread nD τ) (ms0_5 t) fullShare ((dat0 V c).after 5 t) from by
        unfold Dat.leavesExact; rw [liveAt0_5 t h63], after0_5]
      rw [accS_pos V c t h0, accQ_pos V c t h0]
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ _ _ (fun h => h0 ((hcond0_0 t).mp h)) ((hcond0_1 t).mpr h63)
        (iblk0 V c 0 t) (iblk0 V c 1 t) (iblk0 V c 2 t) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point in between: the rows are only added to
      rw [Dat.leavesExact_idle (dat0 V c) 4 t (idleAt0_4 t h63) (noFlush0_4 t h63),
        Dat.leavesExact_idle (dat0 V c) 5 t (idleAt0_5 t h63) (noFlush0_5 t h63)]
      rw [accS_pos V c t h0, accQ_pos V c t h0]
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, H4, H5⟩
      iapply (kernelRun0_B c (grid0.coords t) _ _ _ _ _ _ _ _ _ _ _ _ _ _ _ _ (fun h => h0 ((hcond0_0 t).mp h)) (fun h => h63 ((hcond0_1 t).mp h))
        (iblk0 V c 0 t) (iblk0 V c 1 t) (iblk0 V c 2 t) (accS V c (t.val - 1) (Nat.lt_of_le_of_lt (Nat.sub_le _ _) t.isLt)) (accQ V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the carried rows' named contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨HS0, HS1, Hr, Hg⟩
  isplitl [HS0 HS1 Hr]
  · isplitl [HS0]; · iexists _; iexact HS0
    isplitl [HS1]; · iexists _; iexact HS1
    iexact Hr
  iexact Hg

end Cert.KernelIdeal.Hand

end
-- ==== Proof.KI.R1Body.lean ====
/-
  Region 1's body obligation: at every grid point the output kernel, run on what the pipeline hands it, leaves its input
  blocks in place and the point's block of the result in the output window's buffer.
-/
import proofs.«178065_j47201690583460_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' buffers -/

/-- Input window 0's current staging buffer holds the window's block at every point, whether the block was fetched
    there or not (an unfetched point has the block index of the point before, whose block the body left in place):
    for any proof data whose array is the region-entry contents and whose body leaves the block as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the block was fetched
    there or not (an unfetched point has the block index of the point before, whose block the body left in place):
    for any proof data whose array is the region-entry contents and whose body leaves the block as found. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the block was fetched
    there or not (an unfetched point has the block index of the point before, whose block the body left in place):
    for any proof data whose array is the region-entry contents and whose body leaves the block as found. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the block was fetched
    there or not (an unfetched point has the block index of the point before, whose block the body left in place):
    for any proof data whose array is the region-entry contents and whose body leaves the block as found. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether the block was fetched
    there or not (an unfetched point has the block index of the point before, whose block the body left in place):
    for any proof data whose array is the region-entry contents and whose body leaves the block as found. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oblk1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Whole-buffer loads and stores -/

/-- The zero offsets of a whole-buffer rectangle of rank two, however they are spelt. -/
theorem off00 : (![0, 0] : Fin 2 → Nat) = fun _ => 0 := by
  funext a; fin_cases a <;> rfl

/-- A load through the whole-shape rectangle at zero offsets reads what the view reads. -/
theorem readAt_unit_zero {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- One store through it, over any prior contents, is read back as its payload. -/
theorem read_write_unit_zero {S : Shape} {e : EltTy} {κ : Kind} {sp : Space} (v : View sig κ sp S e) (f : v.ty.Contents (Elt F))
    {off : Fin S.rank → Nat} (h : off = fun _ => 0) (inb : ∀ a, off a + S.size a ≤ S.size a) (p : S.Idx → Elt F e) :
    v.read (Elt F) (v.writes (Elt F) f [(⟨Rect.unit off S.size inb, p⟩ : View.Piece (Elt F) S e)]) = p := by
  rw [View.read_writes_eq_canon _ _ _ (fun y => ⟨_, List.mem_singleton_self _, View.mem_set_unit_zero h inb y⟩),
    View.canon_unit_zero h]

/-! ## The body's triple -/

set_option maxHeartbeats 1000000 in
/-- The output kernel on whole staging memrefs, the five inputs' at read contents `x1 … x5` and the output's at
    anything, runs to the continuation holding the inputs' as they were and the output's at the payload of the
    five: every load is of a whole buffer, and the one store covers the output's. -/
theorem sound_kernel1 (c : Dev nD) (E : Set ℕ) (i : grid1.Coords)
    (arg1 : Memref sig .tc .vmem S1024x100 .f32) (harg1 : arg1.IsWhole)
    (arg2 : Memref sig .tc .vmem S1000x100 .f32) (harg2 : arg2.IsWhole)
    (arg3 : Memref sig .tc .vmem S1x1000 .f32) (harg3 : arg3.IsWhole)
    (arg4 : Memref sig .tc .vmem S1x100 .f32) (harg4 : arg4.IsWhole)
    (arg5 : Memref sig .tc .vmem S1x100 .f32) (harg5 : arg5.IsWhole)
    (arg6 : Memref sig .tc .vmem S1024x1000 .f32) (harg6 : arg6.IsWhole)
    (x1 : Vec F S1024x100 .f32) (x2 : Vec F S1000x100 .f32) (x3 : Vec F S1x1000 .f32) (x4 : Vec F S1x100 .f32) (x5 : Vec F S1x100 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay1 x1 x4 x5 x2 x3)) -∗ K ⟨⟩))
      ⊢ wp frame (wpE (defs₀ (F := F)) Variants.none c none) E (cc1__output_kernel i arg1 harg1 arg2 harg2 arg3 harg3 arg4 harg4 arg5 harg5 arg6 harg6) K := by
  simp only [cc1__output_kernel_eq_skeleton, k1_part1_eq_skeleton]; unfold cc1__output_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  refine (read_write_unit_zero (S := S1024x1000) arg6.view f6 off00 _ _).trans ?_
  rw [readAt_unit_zero (S := S1024x100) arg1.view f1 off00, readAt_unit_zero (S := S1x100) arg4.view f4 off00,
    readAt_unit_zero (S := S1x100) arg5.view f5 off00, readAt_unit_zero (S := S1000x100) arg2.view f2 off00,
    readAt_unit_zero (S := S1x1000) arg3.view f3 off00]

/-! ## The body obligation, at a generic point -/

/-- What the body is called with at point `t`: the invariant, the core's debts and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the kernel's triple applies at those blocks;
    the invariant and the core's debts pass through unread, and the output's buffer ends at the point's block of the
    result, which is the payload of the five blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold oblk1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: its windows conjoined one by one are the pre and the post above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/-
  The run of the whole program from the two regions' body obligations.

  @main is a one-operation host stretch, the statistics region, an eighteen-operation host stretch and the output
  region. The buffers' contents are followed through the four items as a fold from the launch memory: a host stretch
  leaves what its operations compute, a region leaves each of its arrays at what the write-backs of all its points
  leave and every other buffer as entered. Each region's proof data are taken at the contents the fold has when the
  region is entered. Every core carries, beside its unscoped buffers at the fold's contents, its generator register at
  some state and the fact that it owes nothing. The statistics region's invariant is not the scoped rest at every
  point, so its first point is reached, and its last point left, through the two ends proved with its body.
-/
import proofs.«178065_j47201690583460_1_alg».proof.Proof.KI.R0Body
import proofs.«178065_j47201690583460_1_alg».proof.Proof.KI.R1Body
import proofs.«178065_j47201690583460_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- The buffers at launch. -/
abbrev B0 : Dev nD → Valuation τ sig (Elt F) := fun c b => m (c, b)
/-- The statistics region's entry: after the first host stretch. -/
abbrev B1 : Dev nD → Valuation τ sig (Elt F) := fun c => StableHlo.after hostOps0 (B0 m c)
/-- The same, read at the TensorCore's references. -/
abbrev VB1 : (c : Dev nD) → (b : Ref sig .tc) → Buf (Elt F) ((c : Thread nD τ).loc b) := fun c b => B1 m c b
/-- The statistics region's exit: its six arrays at what the write-backs of all 64 points leave, the rest as entered. -/
def B2 (c : Dev nD) : Valuation τ sig (Elt F) :=
  Pipeline.withArrays spec0 c (B1 m c) fun w => (dat0 (VB1 m) c).arrAt w cfg0.N

theorem B2_arr (c : Dev nD) (w : Fin cfg0.W) :
    B2 m c (Proc.devRef .tc (Pipeline.arrRef spec0 w)) = (dat0 (VB1 m) c).arrAt w cfg0.N :=
  Pipeline.withArrays_arr spec0 launch0.win.arr_inj c (B1 m c) (fun w => (dat0 (VB1 m) c).arrAt w cfg0.N) w

theorem B2_of_ne (c : Dev nD) (b : Ref sig .tc) (hb : ∀ w, Pipeline.arrRef spec0 w ≠ b) :
    B2 m c (Proc.devRef .tc b) = B1 m c (Proc.devRef .tc b) :=
  Pipeline.withArrays_of_ne spec0 c (B1 m c) (fun w => (dat0 (VB1 m) c).arrAt w cfg0.N) b hb

/-- The output region's entry: after the second host stretch. -/
abbrev B3 : Dev nD → Valuation τ sig (Elt F) := fun c => StableHlo.after hostOps1 (B2 m c)
/-- The same, read at the TensorCore's references. -/
abbrev VB3 : (c : Dev nD) → (b : Ref sig .tc) → Buf (Elt F) ((c : Thread nD τ).loc b) := fun c b => B3 m c b
/-- The output region's exit: its six arrays at what the write-backs of all 32 points leave, the rest as entered. -/
def B4 (c : Dev nD) : Valuation τ sig (Elt F) :=
  Pipeline.withArrays spec1 c (B3 m c) fun w => (dat1 (VB3 m) c).arrAt w cfg1.N

theorem B4_arr (c : Dev nD) (w : Fin cfg1.W) :
    B4 m c (Proc.devRef .tc (Pipeline.arrRef spec1 w)) = (dat1 (VB3 m) c).arrAt w cfg1.N :=
  Pipeline.withArrays_arr spec1 launch1.win.arr_inj c (B3 m c) (fun w => (dat1 (VB3 m) c).arrAt w cfg1.N) w

theorem B4_of_ne (c : Dev nD) (b : Ref sig .tc) (hb : ∀ w, Pipeline.arrRef spec1 w ≠ b) :
    B4 m c (Proc.devRef .tc b) = B3 m c (Proc.devRef .tc b) :=
  Pipeline.withArrays_of_ne spec1 c (B3 m c) (fun w => (dat1 (VB3 m) c).arrAt w cfg1.N) b hb

/-! ### Walking one step back through the fold -/

/-- The first host stretch leaves a reference it does not write as launched. -/
theorem B1_keep (c : Dev nD) (r : Ref sig .tc) (h : r ∉ hostOps0_W) :
    B1 m c (Proc.devRef .tc r) = B0 m c (Proc.devRef .tc r) :=
  StableHlo.after_of_writes_sub hostOps0 (B0 m c) hostOps0_writes h

/-- The second host stretch leaves a reference it does not write as the statistics region left it. -/
theorem B3_keep (c : Dev nD) (r : Ref sig .tc) (h : r ∉ hostOps1_W) :
    B3 m c (Proc.devRef .tc r) = B2 m c (Proc.devRef .tc r) :=
  StableHlo.after_of_writes_sub hostOps1 (B2 m c) hostOps1_writes h

/-- The statistics region leaves an input window's array as entered: no write-back lands in it. -/
theorem B2_input (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (VB1 m) c).arrAt_in w hw _).trans (A_eq0 (VB1 m) c w))

/-- The output region leaves an input window's array as entered. -/
theorem B4_input (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((dat1 (VB3 m) c).arrAt_in w hw _).trans (A_eq1 (VB3 m) c w))

/-! ### The arguments end as launched

No host operation writes an argument. The statistics region reads the first two arguments through input windows and
names no other; the output region reads the sixth through an input window and names no other. -/

theorem B4_main_arg0 (c : Dev nD) : B4 m c (Proc.devRef .tc main_arg0) = m ((c : Thread nD τ).loc main_arg0) :=
  (B4_of_ne m c main_arg0 (by decide)).trans <| (B3_keep m c main_arg0 (by decide)).trans <|
    (B2_input m c 0 rfl).trans <| (B1_keep m c main_arg0 (by decide)).trans rfl

theorem B4_main_arg1 (c : Dev nD) : B4 m c (Proc.devRef .tc main_arg1) = m ((c : Thread nD τ).loc main_arg1) :=
  (B4_of_ne m c main_arg1 (by decide)).trans <| (B3_keep m c main_arg1 (by decide)).trans <|
    (B2_input m c 1 rfl).trans <| (B1_keep m c main_arg1 (by decide)).trans rfl

theorem B4_main_arg2 (c : Dev nD) : B4 m c (Proc.devRef .tc main_arg2) = m ((c : Thread nD τ).loc main_arg2) :=
  (B4_of_ne m c main_arg2 (by decide)).trans <| (B3_keep m c main_arg2 (by decide)).trans <|
    (B2_of_ne m c main_arg2 (by decide)).trans <| (B1_keep m c main_arg2 (by decide)).trans rfl

theorem B4_main_arg3 (c : Dev nD) : B4 m c (Proc.devRef .tc main_arg3) = m ((c : Thread nD τ).loc main_arg3) :=
  (B4_of_ne m c main_arg3 (by decide)).trans <| (B3_keep m c main_arg3 (by decide)).trans <|
    (B2_of_ne m c main_arg3 (by decide)).trans <| (B1_keep m c main_arg3 (by decide)).trans rfl

theorem B4_main_arg4 (c : Dev nD) : B4 m c (Proc.devRef .tc main_arg4) = m ((c : Thread nD τ).loc main_arg4) :=
  (B4_of_ne m c main_arg4 (by decide)).trans <| (B3_keep m c main_arg4 (by decide)).trans <|
    (B2_of_ne m c main_arg4 (by decide)).trans <| (B1_keep m c main_arg4 (by decide)).trans rfl

theorem B4_main_arg5 (c : Dev nD) : B4 m c (Proc.devRef .tc main_arg5) = m ((c : Thread nD τ).loc main_arg5) :=
  (B4_input m c 1 rfl).trans <| (B3_keep m c main_arg5 (by decide)).trans <|
    (B2_of_ne m c main_arg5 (by decide)).trans <| (B1_keep m c main_arg5 (by decide)).trans rfl

theorem B4_main_arg6 (c : Dev nD) : B4 m c (Proc.devRef .tc main_arg6) = m ((c : Thread nD τ).loc main_arg6) :=
  (B4_of_ne m c main_arg6 (by decide)).trans <| (B3_keep m c main_arg6 (by decide)).trans <|
    (B2_of_ne m c main_arg6 (by decide)).trans <| (B1_keep m c main_arg6 (by decide)).trans rfl

/-- The program's result: the output window's array at what the output region's write-backs leave. -/
theorem result (c : Dev nD) : B4 m c (Proc.devRef .tc main_v17) = (dat1 (VB3 m) c).arrAt 5 cfg1.N :=
  B4_arr m c 5

/-! ## The proof data, and what every core carries beside its buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VB1 m) c
  | ⟨1, _⟩ => fun c => dat1 (VB3 m) c

/-- No semaphore is shared between cores: no level is assigned. -/
abbrev noLevels : GSem nD τ sig → Finset Unit := fun _ => ∅
abbrev levelZero : GSem nD τ sig → Unit → ℕ := fun _ _ => 0

/-- The core's generator register, at some state. -/
abbrev someGen (c : Dev nD) : sProp 𝕄 := iprop(∃ r, prngReg c r)
/-- The core owes nothing. -/
abbrev owesNothing (c : Dev nD) : sProp 𝕄 := iprop(∃ W, owes (c : Thread nD τ) (0 : CellTallies nD τ sig Unit) W)
/-- What rides beside the buffers through every item. -/
abbrev beside (c : Dev nD) : sProp 𝕄 := iprop(someGen c ∗ owesNothing c)
/-- A core between two items: every unscoped buffer at the boundary's contents, and what rides beside them. -/
abbrev between (B : Dev nD → Valuation τ sig (Elt F)) (c : Dev nD) : sProp 𝕄 :=
  iprop(StableHlo.held (c : Thread nD τ) (Pipeline.ucRefs τ sig) (B c) ∗ beside c)

/-- A host stretch over the unscoped buffers, from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B beside

/-! ### The steps every region shares -/

/-- A core that owes nothing owes nothing within a bound that excludes no pair. -/
theorem owesWithin_of_nothing (c : Dev nD) (Bd : Set (SemLoc sig × Unit)) (hBd : ∀ x, x ∈ Bd) :
    owesNothing c ⊢ (Pipeline.owesWithin c (0 : CellTallies nD τ sig Unit) Bd : sProp 𝕄) := by
  iintro ⟨%W, HO⟩
  iexists W
  isplitr
  · ipureintro; exact fun x _ => hBd x
  · iexact HO

/-- And back: the bound is forgotten. -/
theorem nothing_of_owesWithin (c : Dev nD) (Bd : Set (SemLoc sig × Unit)) :
    (Pipeline.owesWithin c (0 : CellTallies nD τ sig Unit) Bd : sProp 𝕄) ⊢ owesNothing c := by
  iintro ⟨%W, -, HO⟩
  iexists W
  iexact HO

/-- The class's invariant from the generator register and the scoped buffers no window stages; the tables (there are
    none) are let go. -/
theorem classInv_intro {gr W : ℕ} (win : Fin W → Pipeline.WinSpec sig gr) (c : Dev nD) (T : sProp 𝕄) :
    iprop(someGen c ∗ T ∗ Pipeline.scopedRest win c) ⊢ (Pipeline.ΦA win c : sProp 𝕄) := by
  unfold Pipeline.ΦA
  iintro ⟨Hg, -, Hs⟩
  isplitl [Hs]
  · iexact Hs
  · iexact Hg

/-- The class's invariant gives both back. -/
theorem classInv_elim {gr W : ℕ} (win : Fin W → Pipeline.WinSpec sig gr) (c : Dev nD) :
    (Pipeline.ΦA win c : sProp 𝕄) ⊢ iprop(someGen c ∗ emp ∗ Pipeline.scopedRest win c) := by
  unfold Pipeline.ΦA
  iintro ⟨Hs, Hg⟩
  isplitl [Hg]
  · iexact Hg
  isplitr
  · iempintro
  · iexact Hs

/-! ## The regions -/

-- a library lemma stated over the pinned configuration of pipeline `p` meets the printed configuration only when
-- unification may unfold plain definitions in a metavariable's type
set_option backward.isDefEq.respectTransparency.types false in
/-- Entering the statistics region: the core's unscoped buffers at `B1` are the region's six arrays at the proof data's
    entry contents and the other unscoped buffers at `B1`. -/
theorem enter0 (c : Dev nD) :
    (StableHlo.held (c : Thread nD τ) (Pipeline.ucRefs τ sig) (B1 m c) : sProp 𝕄)
      ⊢ iprop((pdats m 0 c).arrays ((pdats m 0 c).arrAt · 0)
          ∗ Pipeline.unscopedRest (Ix := Unit) (Name := ℕ) (U := UR sig nD τ) (Lvl := ℕ) spec0 c (VB1 m c)) := by
  have h := Pipeline.arrays_of_unscopedBufs (p := 0) (pcfgs (F := F)) adm (pdats m) launch0.win launch0.arr_whole c
    ((pdats m 0 c).share_full fun _ => rfl) (VB1 m c) fun _ => rfl
  rw [Pipeline.unscopedBufs_held] at h
  exact h

set_option backward.isDefEq.respectTransparency.types false in
/-- Leaving it: the six arrays at what all the points' write-backs leave and the other unscoped buffers at `B1` are
    the core's unscoped buffers at `B2`. -/
theorem leave0 (c : Dev nD) :
    iprop((pdats m 0 c).arrays ((pdats m 0 c).arrAt · cfg0.N)
        ∗ Pipeline.unscopedRest (Ix := Unit) (Name := ℕ) (U := UR sig nD τ) (Lvl := ℕ) spec0 c (VB1 m c))
      ⊢ (StableHlo.held (c : Thread nD τ) (Pipeline.ucRefs τ sig) (B2 m c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (VB1 m c) (fun b => B2 m c b) ((pdats m 0 c).arrAt · cfg0.N) (fun w => (B2_arr m c w).symm)
    (fun b hb => B2_of_ne m c b fun w e => hb (Finset.mem_image.mpr ⟨w, Finset.mem_univ _, e⟩))
  rw [Pipeline.unscopedBufs_held] at h
  exact h

set_option backward.isDefEq.respectTransparency.types false in
/-- Entering the output region, from `B3`. -/
theorem enter1 (c : Dev nD) :
    (StableHlo.held (c : Thread nD τ) (Pipeline.ucRefs τ sig) (B3 m c) : sProp 𝕄)
      ⊢ iprop((pdats m 1 c).arrays ((pdats m 1 c).arrAt · 0)
          ∗ Pipeline.unscopedRest (Ix := Unit) (Name := ℕ) (U := UR sig nD τ) (Lvl := ℕ) spec1 c (VB3 m c)) := by
  have h := Pipeline.arrays_of_unscopedBufs (p := 1) (pcfgs (F := F)) adm (pdats m) launch1.win launch1.arr_whole c
    ((pdats m 1 c).share_full fun _ => rfl) (VB3 m c) fun _ => rfl
  rw [Pipeline.unscopedBufs_held] at h
  exact h

set_option backward.isDefEq.respectTransparency.types false in
/-- Leaving it, at `B4`. -/
theorem leave1 (c : Dev nD) :
    iprop((pdats m 1 c).arrays ((pdats m 1 c).arrAt · cfg1.N)
        ∗ Pipeline.unscopedRest (Ix := Unit) (Name := ℕ) (U := UR sig nD τ) (Lvl := ℕ) spec1 c (VB3 m c))
      ⊢ (StableHlo.held (c : Thread nD τ) (Pipeline.ucRefs τ sig) (B4 m c) : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (VB3 m c) (fun b => B4 m c b) ((pdats m 1 c).arrAt · cfg1.N) (fun w => (B4_arr m c w).symm)
    (fun b hb => B4_of_ne m c b fun w e => hb (Finset.mem_image.mpr ⟨w, Finset.mem_univ _, e⟩))
  rw [Pipeline.unscopedBufs_held] at h
  exact h

set_option backward.isDefEq.respectTransparency.types false in
/-- The statistics region, entered at `B1` and left at `B2`. The generator register enters the region's invariant
    with the scoped buffers no window stages, through the invariant's first end, and comes back through its last. -/
def reg0 : Pipeline.RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (VB1 m) c).loose
  hwaits := Pipeline.hwaits_of_owed_zero _ _ _ _ noLevels levelZero 0 fun _ _ => rfl
  pre := between (B1 m)
  post := between (B2 m)
  X := someGen
  Y := someGen
  Z c := Pipeline.unscopedRest (Ix := Unit) (Name := ℕ) (U := UR sig nD τ) (Lvl := ℕ) spec0 c (VB1 m c)
  hentry c := by
    rw [Pipeline.ownSems0_none]
    iintro ⟨⟨Hb, Hg, HO⟩, -, -⟩
    ihave H := enter0 m c $$ Hb
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · iapply owesWithin_of_nothing c _ (fun _ => Or.inl trivial); iexact HO
    isplitl [Hg]; · iexact Hg
    iexact Hz
  hin c := (classInv_intro spec0 c _).trans (hin0 (VB1 m) c)
  hout c := by
    rw [Pipeline.ownSems0_none]
    exact (hout0 (VB1 m) c).trans (classInv_elim spec0 c)
  hexit c := by
    iintro ⟨Ha, HO, Hg, Hz⟩
    imodintro
    isplitl [Ha Hz]
    · iapply leave0 m c; isplitl [Ha] <;> iassumption
    isplitl [Hg]; · iexact Hg
    iapply nothing_of_owesWithin c; iexact HO

set_option backward.isDefEq.respectTransparency.types false in
/-- The output region, entered at `B3` and left at `B4`; its invariant is the class's at every point. -/
def reg1 : Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (VB3 m) c).loose
  hwaits := Pipeline.hwaits_of_owed_zero _ _ _ _ noLevels levelZero 1 fun _ _ => rfl
  pre := between (B3 m)
  post := between (B4 m)
  X := someGen
  Y := someGen
  Z c := Pipeline.unscopedRest (Ix := Unit) (Name := ℕ) (U := UR sig nD τ) (Lvl := ℕ) spec1 c (VB3 m c)
  hentry c := by
    rw [Pipeline.ownSems0_none]
    iintro ⟨⟨Hb, Hg, HO⟩, -, -⟩
    ihave H := enter1 m c $$ Hb
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · iapply owesWithin_of_nothing c _ (fun _ => Or.inl trivial); iexact HO
    isplitl [Hg]; · iexact Hg
    iexact Hz
  hin c := classInv_intro spec1 c _
  hout c := by
    rw [Pipeline.ownSems0_none]
    exact classInv_elim spec1 c
  hexit c := by
    iintro ⟨Ha, HO, Hg, Hz⟩
    imodintro
    isplitl [Ha Hz]
    · iapply leave1 m c; isplitl [Ha] <;> iassumption
    isplitl [Hg]; · iexact Hg
    iapply nothing_of_owesWithin c; iexact HO

/-! ## @main as four items, and the launch -/

/-- An unscoped TensorCore reference is among those a core holds between items. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- @main's four items in order, each host stretch from the contents the fold has before it. -/
abbrev items : List (Pipeline.Seg (pcfgs (F := F)) adm (pdats m) () defs₀ Variants.none noLevels levelZero) :=
  [ .host (stretch hostOps0 hostOps0_sub hostOps0_fresh (B0 m)),
    .region (reg0 m),
    .host (stretch hostOps1 hostOps1_sub hostOps1_fresh (B2 m)),
    .region (reg1 m) ]

/-- @main is the run of the four items. -/
theorem main_items (c : Dev nD) : main (F := F) c = Pipeline.Seg.run (items m) :=
  (main_chain c).trans (by chain_rfl)

/-- After the last item: the buffers at `B4` and the generator register, beside the core owing nothing. -/
theorem between_last (c : Dev nD) :
    between (B4 m) c ⊢ (iprop((StableHlo.held (c : Thread nD τ) (Pipeline.ucRefs τ sig) (B4 m c) ∗ someGen c)
      ∗ ∃ W, owes (c : Thread nD τ) (0 : CellTallies nD τ sig Unit) W) : sProp 𝕄) := by
  iintro ⟨Hh, Hg, HO⟩
  isplitr [HO]
  · isplitl [Hh] <;> iassumption
  · iexact HO

-- the launch theorem's implicit arguments are found by unifying its conclusion with this one, which takes unfolding
-- plain definitions in a metavariable's type
set_option backward.isDefEq.respectTransparency.types false in
/-- THE RUN. From any memory with zero counters every weakly fair execution of @main terminates, nothing faulting, and
    in every final memory each core's unscoped buffers hold the fold's last contents `B4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = B4 m c b) :=
  Pipeline.θ_run_regions_kit (pcfgs (F := F)) adm (pdats m) () cellOf_inj emb₁ defs₀ Variants.none noLevels levelZero
    m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (B0 m))
    (Tₙ := fun c => iprop(StableHlo.held (c : Thread nD τ) (Pipeline.ucRefs τ sig) (B4 m c) ∗ someGen c))
    (hch := ⟨fun _ => .rfl, fun _ => .rfl, fun _ => .rfl, fun _ => .rfl, between_last m⟩)
    (hinit := by
      refine Pipeline.initEach noLevels levelZero fun c => ?_
      rw [show unscopedBufs c (fun b => m ((c : Thread nD τ).loc b))
          = StableHlo.held (c : Thread nD τ) (Pipeline.ucRefs τ sig) (B0 m c) from Pipeline.unscopedBufs_held c (B0 m c)]
      iintro ⟨⟨Hh, -, HO, -, Hg, -⟩, -⟩
      imodintro
      isplitl [Hh]; · iexact Hh
      isplitl [Hg]
      · iexists _; iexact Hg
      · iexists ∅; iexact HO)
    (QY := fun c s => ∀ b ∈ Pipeline.ucRefs τ sig, s.mem ((c : Thread nD τ).1, b) = B4 m c b)
    (hfin := fun c s' => by
      iintro ⟨⟨Hh, -⟩, HSI⟩
      unfold StableHlo.held
      imodintro
      iapply (pointsTo_read_all (Pipeline.ucRefs τ sig) (fun b => ((c : Thread nD τ).1, b)) (B4 m c) s')
      isplitl [Hh] <;> iassumption)
    (hQ := fun s h => h)

/-- THE FRAME: every argument array ends as launched — the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_ucRefs main_arg0 (by decide))).trans (B4_main_arg0 m c),
     (h c _ (mem_ucRefs main_arg1 (by decide))).trans (B4_main_arg1 m c),
     (h c _ (mem_ucRefs main_arg2 (by decide))).trans (B4_main_arg2 m c),
     (h c _ (mem_ucRefs main_arg3 (by decide))).trans (B4_main_arg3 m c),
     (h c _ (mem_ucRefs main_arg4 (by decide))).trans (B4_main_arg4 m c),
     (h c _ (mem_ucRefs main_arg5 (by decide))).trans (B4_main_arg5 m c),
     (h c _ (mem_ucRefs main_arg6 (by decide))).trans (B4_main_arg6 m c)⟩) (run_all m ρ)

end Cert.KernelIdeal.Hand

end
-- ==== Proof.Val.Spec.lean ====
/-
  The mathematics of the two programs, index by index, on the extended reals.

  Both compute, for a batch of 32768 rows: the first layer `h r k = (∑ d, x r d · bin (W1 k d)) + b1 k` with binarized
  weights (`bin z` is 1 for `0 ≤ z` and -1 otherwise); the batch statistics of each of the 100 columns of `h`;
  the normalized, binarized activation; the second layer's logits against the binarized second weights; and the
  log-softmax of each row of logits.

  They differ in the normalization only. The kernel takes the column sums `s` of `h` and `q` of `h²`, the mean
  `s / N`, the variance `q / N − mean²`, folds the scale `γ · rsqrt (var + ε)` and the shift `β − mean · scale`,
  and binarizes `h · scale + shift`. The reference takes the mean, the variance as the mean of `(h − mean)²`, and
  binarizes `(h − mean) · rsqrt (var + ε) · γ + β`. On finite inputs the two variances are one number (the second
  moment minus the squared mean), which is nonnegative, so `var + ε` is a positive real, its `rsqrt` is a real, and
  the two normalized values are equal by distributing the product; equal values binarize equally.
-/
import Idealize.ShloMosaic.PureOps.Ideal
import Idealize.ShloMosaic.PureOps.Ideal.Laws

noncomputable section

namespace Cert.Spec

open Idealize.ShloMosaic

/-- The literals the programs share, as the extended reals their words denote. -/
def cZero : EReal := Ideal.ofBits .f32 0x00000000#32
def cOne : EReal := Ideal.ofBits .f32 0x3F800000#32
def cNegOne : EReal := Ideal.ofBits .f32 0xBF800000#32
/-- The batch size, 32768.0. -/
def cN : EReal := Ideal.ofBits .f32 0x47000000#32
/-- The variance's guard, the single-precision number nearest 1e-4. -/
def cEps : EReal := Ideal.ofBits .f32 0x38D1B717#32
/-- The row maximum's starting value, minus infinity. -/
def cNegInf : EReal := Ideal.ofBits .f32 0xFF800000#32

/-- Binarization: 1 where the argument is at least zero, -1 elsewhere — `select (z ≥ 0) 1 (-1)` as both programs
    compute it. -/
def bin (z : EReal) : EReal := if Ideal.cmp .oge z cZero = 1#1 then cOne else cNegOne

section
variable (X : Fin 32768 → Fin 4096 → EReal) (W1 : Fin 100 → Fin 4096 → EReal) (b1 g be : Fin 100 → EReal)
  (W2 : Fin 1000 → Fin 100 → EReal) (b2 : Fin 1000 → EReal)

/-- The first layer. -/
def H (r : Fin 32768) (k : Fin 100) : EReal := (∑ d : Fin 4096, X r d * bin (W1 k d)) + b1 k

/-- A column's sum and its sum of squares over the batch. -/
def colS (h : Fin 32768 → Fin 100 → EReal) (k : Fin 100) : EReal := ∑ r : Fin 32768, h r k
def colQ (h : Fin 32768 → Fin 100 → EReal) (k : Fin 100) : EReal := ∑ r : Fin 32768, h r k * h r k

/-! The kernel's normalization, from the two column sums. -/
def meanK (s : Fin 100 → EReal) (k : Fin 100) : EReal := Ideal.div (s k) cN
def varK (s q : Fin 100 → EReal) (k : Fin 100) : EReal := Ideal.div (q k) cN - meanK s k * meanK s k
def scaleK (s q : Fin 100 → EReal) (k : Fin 100) : EReal := g k * Ideal.rsqrt (varK s q k + cEps)
def shiftK (s q : Fin 100 → EReal) (k : Fin 100) : EReal := be k - meanK s k * scaleK g s q k
/-- The kernel's activation from a scale row and a shift row. -/
def actK (h : Fin 32768 → Fin 100 → EReal) (sc sh : Fin 100 → EReal) (r : Fin 32768) (k : Fin 100) : EReal :=
  bin (h r k * sc k + sh k)

/-! The reference's normalization, from `h` itself. -/
def meanR (h : Fin 32768 → Fin 100 → EReal) (k : Fin 100) : EReal := Ideal.div (∑ r : Fin 32768, h r k) cN
def varR (h : Fin 32768 → Fin 100 → EReal) (k : Fin 100) : EReal :=
  Ideal.div (∑ r : Fin 32768, (h r k - meanR h k) * (h r k - meanR h k)) cN
def actR (h : Fin 32768 → Fin 100 → EReal) (r : Fin 32768) (k : Fin 100) : EReal :=
  bin (((h r k - meanR h k) * Ideal.rsqrt (varR h k + cEps)) * g k + be k)

/-! The shared tail: the second layer and each row's log-softmax. -/
def logits (a : Fin 32768 → Fin 100 → EReal) (r : Fin 32768) (j : Fin 1000) : EReal :=
  (∑ k : Fin 100, a r k * bin (W2 j k)) + b2 j
/-- A row's maximum, folded from minus infinity. -/
def rowMax (o : Fin 1000 → EReal) : EReal := (Finset.univ : Finset (Fin 1000)).fold max cNegInf o
/-- The log-softmax of a row about a shift `M`. -/
def lsm (o : Fin 1000 → EReal) (M : EReal) (j : Fin 1000) : EReal :=
  (o j - M) - Ideal.log (∑ j' : Fin 1000, Ideal.exp (o j' - M))

/-- The kernel's result from an activation. -/
def outK (a : Fin 32768 → Fin 100 → EReal) (r : Fin 32768) (j : Fin 1000) : EReal :=
  lsm (logits W2 b2 a r) (rowMax (logits W2 b2 a r)) j
/-- The reference's result from an activation: its shift is the maximum of minus infinity and the row's maximum. -/
def outR (a : Fin 32768 → Fin 100 → EReal) (r : Fin 32768) (j : Fin 1000) : EReal :=
  lsm (logits W2 b2 a r) (max cNegInf (rowMax (logits W2 b2 a r))) j

/-- The kernel's whole result from the inputs. -/
def kernelOut (r : Fin 32768) (j : Fin 1000) : EReal :=
  outK W2 b2 (actK (H X W1 b1) (scaleK g (colS (H X W1 b1)) (colQ (H X W1 b1))) (shiftK g be (colS (H X W1 b1)) (colQ (H X W1 b1)))) r j
/-- The reference's whole result from the inputs. -/
def referenceOut (r : Fin 32768) (j : Fin 1000) : EReal :=
  outR W2 b2 (actR g be (H X W1 b1)) r j

end

end Cert.Spec

end
-- ==== Proof.Val.R0Value.lean ====
/-
  The statistics pass read as values on the extended reals: its three result arrays as functions of the arrays it finds.

  The pass runs over 64 points of 512 rows. At point `t` it stores the block `h = x · bin(W1)ᵀ + b1` of rows
  `512 t … 512 t + 511` and adds the block's column sums, and the column sums of its squares, onto two carried rows
  that start at zero. So after the pass the first result is the first layer `H` of every row, and the two one-row
  results — written back once, after the last point — are `∑ r, H r k` and `∑ r, H r k · H r k` over all 32768 rows.

  Three steps. (1) One entry of the stored block: the comparison, the two splats and the select are the binarization
  `bin`; the format changes are the identity; the matrix product contracts the second axis of both operands, so entry
  `(p, k)` is `∑ d, x (p, d) · bin (w (k, d))`; the bias row is repeated down the rows. (2) Block `t` of the first
  result is block `t` of `H` because the rows' window and the result's window move together, 512 rows per point, and
  the blocks tile the array (row `r` lies in block `r / 512`). (3) By induction on the point the carried rows hold
  the sums over the rows below `512 (n + 1)`, written as sums over a range of naturals so that a point's 512 rows
  append to the range; at the last point the range is the whole batch.
-/
import proofs.«178065_j47201690583460_1_alg».proof.Proof.KI.Data
import proofs.«178065_j47201690583460_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val.R0

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-- Binarization as the kernel spells it at one element. -/
theorem bin_eq (z : EReal) :
    Scalar.select (FloatOps.cmpf (F := Ideal) (φ := .f32) .oge z (Scalar.ofBits .f32 0x00000000#32)) (Scalar.ofBits (F := Ideal) .f32 0x3F800000#32) (Scalar.ofBits (F := Ideal) .f32 0xBF800000#32)
      = Cert.Spec.bin z := rfl

theorem lhs_ax0 (j : S512x100.Idx) (q : dot_S512x4096_S100x4096_S512x100_1_1_0_0_n_n.contr.Idx) :
    (dot_S512x4096_S100x4096_S512x100_1_1_0_0_n_n.lhsIdx j q 0).val = (j 0).val := by
  unfold DotDims.lhsIdx
  rw [dif_neg (show ¬(0 : Fin S512x4096.rank) ∈ dot_S512x4096_S100x4096_S512x100_1_1_0_0_n_n.lhsBatch by decide), dif_pos (show (0 : Fin S512x4096.rank) ∈ dot_S512x4096_S100x4096_S512x100_1_1_0_0_n_n.lhsNonContracting by decide)]
  rfl
theorem lhs_ax1 (j : S512x100.Idx) (q : dot_S512x4096_S100x4096_S512x100_1_1_0_0_n_n.contr.Idx) :
    (dot_S512x4096_S100x4096_S512x100_1_1_0_0_n_n.lhsIdx j q 1).val = (q ⟨0, by decide⟩).val :=
  dot_S512x4096_S100x4096_S512x100_1_1_0_0_n_n.lhsIdx_val_of_single rfl j q
theorem rhs_ax0 (j : S512x100.Idx) (q : dot_S512x4096_S100x4096_S512x100_1_1_0_0_n_n.contr.Idx) :
    (dot_S512x4096_S100x4096_S512x100_1_1_0_0_n_n.rhsIdx j q 0).val = (j 1).val := by
  unfold DotDims.rhsIdx
  rw [dif_neg (show ¬(0 : Fin S100x4096.rank) ∈ dot_S512x4096_S100x4096_S512x100_1_1_0_0_n_n.rhsBatch by decide), dif_pos (show (0 : Fin S100x4096.rank) ∈ dot_S512x4096_S100x4096_S512x100_1_1_0_0_n_n.rhsNonContracting by decide)]
  rfl
theorem rhs_ax1 (j : S512x100.Idx) (q : dot_S512x4096_S100x4096_S512x100_1_1_0_0_n_n.contr.Idx) :
    (dot_S512x4096_S100x4096_S512x100_1_1_0_0_n_n.rhsIdx j q 1).val = (q ⟨0, by decide⟩).val :=
  dot_S512x4096_S100x4096_S512x100_1_1_0_0_n_n.rhsIdx_val_of_single rfl j q

/-- The matrix product of a block of rows against the weight block, both contracted along their second axis. -/
theorem matmul_at (A : FVec Ideal S512x4096 .bf16) (B : FVec Ideal S100x4096 .bf16) (p : Fin 512) (k : Fin 100) :
    matmul dot_S512x4096_S100x4096_S512x100_1_1_0_0_n_n none A B (constant S512x100 .f32 0x00000000#32) (ix2 p k)
      = ∑ d : Fin 4096, A (ix2 p d) * B (ix2 k d) := by
  simp only [matmul]
  rw [Ideal.matmul_constant_zero_apply, ← Equiv.sum_comp (contrEquiv1 dot_S512x4096_S100x4096_S512x100_1_1_0_0_n_n 4096 rfl rfl).symm]
  refine Finset.sum_congr rfl fun d _ => ?_
  have hk := contrEquiv1_symm_val dot_S512x4096_S100x4096_S512x100_1_1_0_0_n_n 4096 rfl rfl d
  have el : dot_S512x4096_S100x4096_S512x100_1_1_0_0_n_n.lhsIdx (ix2 p k) ((contrEquiv1 dot_S512x4096_S100x4096_S512x100_1_1_0_0_n_n 4096 rfl rfl).symm d) = ix2 p d := funext fun a => Fin.ext (by
    match a with
    | ⟨0, _⟩ => exact lhs_ax0 _ _
    | ⟨1, _⟩ => exact (lhs_ax1 _ _).trans hk)
  have er : dot_S512x4096_S100x4096_S512x100_1_1_0_0_n_n.rhsIdx (ix2 p k) ((contrEquiv1 dot_S512x4096_S100x4096_S512x100_1_1_0_0_n_n 4096 rfl rfl).symm d) = ix2 k d := funext fun a => Fin.ext (by
    match a with
    | ⟨0, _⟩ => exact rhs_ax0 _ _
    | ⟨1, _⟩ => exact (rhs_ax1 _ _).trans hk)
  rw [el, er]

/-- The first layer's block at an entry: row `p` of the block against the binarized weight row `k`, plus the bias. -/
theorem pay4_apply (w : Vec Ideal S100x4096 .f32) (x : Vec Ideal S512x4096 .f32) (b : Vec Ideal S1x100 .f32) (p : Fin 512) (k : Fin 100) :
    k0_pay4 (F := Ideal) w x b (ix2 p k) = (∑ d : Fin 4096, x (ix2 p d) * Cert.Spec.bin (w (ix2 k d))) + b (ix2 (0 : Fin 1) k) := by
  unfold k0_pay4
  rw [addf_apply, matmul_at, broadcastTo_1b_ab_apply, shapeCast_self]
  rfl

variable (V : (c : Dev nD) → (b : Ref sig .tc) → Buf (Elt Ideal) ((c : Thread nD τ).loc b))

/-- The three inputs as the region finds them, by coordinates. -/
def Xc (c : Dev nD) : Fin 32768 → Fin 4096 → EReal := fun r d => V c main_arg0 (ix2 r d)
def W1c (c : Dev nD) : Fin 100 → Fin 4096 → EReal := fun k d => V c main_arg1 (ix2 k d)
def b1c (c : Dev nD) : Fin 100 → EReal := fun k => V c main_v0 (ix2 0 k)

theorem hz : (![0, 0] : Fin 2 → Nat) = fun _ => 0 := funext fun a => by fin_cases a <;> rfl

/-- The block indices of the statistics pass's windows, decided over its 64 points: the rows' windows move with the
    point along the first axis, the weight, bias and column-sum windows stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The rows' block at point `t` is rows `512 t … 512 t + 511` of the input. -/
theorem iblk_x (c : Dev nD) (t : Fin cfg0.N) (p : Fin 512) (d : Fin 4096) (r : Fin 32768) (hr : r.val = 512 * t.val + p.val) :
    (iblk0 V c 0 t : Vec Ideal S512x4096 .f32) (ix2 p d) = Xc V c r d := by
  obtain ⟨e0, e1, -⟩ := idx_facts t
  unfold iblk0 Xc
  rw [View.read_apply]
  show V c main_arg0 _ = V c main_arg0 _
  congr 1
  funext a
  apply Fin.ext
  match a with
  | ⟨0, _⟩ => show win0_0.index t (0 : Fin 2) * 512 + 1 * p.val = r.val; omega
  | ⟨1, _⟩ => show win0_0.index t (1 : Fin 2) * 4096 + 1 * d.val = d.val; omega

/-- The weight block at every point is the whole weight array. -/
theorem iblk_w (c : Dev nD) (t : Fin cfg0.N) (k : Fin 100) (d : Fin 4096) :
    (iblk0 V c 1 t : Vec Ideal S100x4096 .f32) (ix2 k d) = W1c V c k d := by
  obtain ⟨-, -, e0, e1, -⟩ := idx_facts t
  unfold iblk0 W1c
  rw [View.read_apply]
  show V c main_arg1 _ = V c main_arg1 _
  congr 1
  funext a
  apply Fin.ext
  match a with
  | ⟨0, _⟩ => show win0_1.index t (0 : Fin 2) * 100 + 1 * k.val = k.val; omega
  | ⟨1, _⟩ => show win0_1.index t (1 : Fin 2) * 4096 + 1 * d.val = d.val; omega

/-- The bias block at every point is the whole bias row. -/
theorem iblk_b (c : Dev nD) (t : Fin cfg0.N) (k : Fin 100) :
    (iblk0 V c 2 t : Vec Ideal S1x100 .f32) (ix2 (0 : Fin 1) k) = b1c V c k := by
  obtain ⟨-, -, -, -, e0, e1, -⟩ := idx_facts t
  unfold iblk0 b1c
  rw [View.read_apply]
  show V c main_v0 _ = V c main_v0 _
  congr 1
  funext a
  apply Fin.ext
  match a with
  | ⟨0, _⟩ => show win0_2.index t (0 : Fin 2) * 1 + 1 * 0 = 0; omega
  | ⟨1, _⟩ => show win0_2.index t (1 : Fin 2) * 100 + 1 * k.val = k.val; omega

/-- The block of the first layer stored at point `t`, at an entry: the first layer at row `512 t + p`. -/
theorem hblk_apply (c : Dev nD) (t : Fin cfg0.N) (p : Fin 512) (k : Fin 100) (r : Fin 32768) (hr : r.val = 512 * t.val + p.val) :
    hblk0 (F := Ideal) V c t (ix2 p k) = Cert.Spec.H (Xc V c) (W1c V c) (b1c V c) r k := by
  unfold hblk0 Cert.Spec.H
  refine (pay4_apply (iblk0 V c 1 t) (iblk0 V c 0 t) (iblk0 V c 2 t) p k).trans ?_
  rw [iblk_b V c t k]
  congr 1
  refine Finset.sum_congr rfl fun d _ => ?_
  rw [iblk_x V c t p d r hr, iblk_w V c t k d]

/-- The first layer as an array over the result's index. -/
abbrev Harr (c : Dev nD) : S32768x100.Idx → EReal :=
  fun i => Cert.Spec.H (Xc V c) (W1c V c) (b1c V c) (i 0) (i 1)

/-- The part of a staging block the write-back moves is the whole block. -/
theorem cut_h (t : Fin cfg0.N) (A : Vec Ideal S512x100 .f32) (p : Fin 512) (k : Fin 100) :
    (cfg0.win 3).cut (grid0.coords t) A (ix2 p k) = A (ix2 p k) := rfl
/-- An array read through a point's block is the array at the block's embedded index. -/
theorem read_h (t : Fin cfg0.N) (G : S32768x100.Idx → EReal) (j : S512x100.Idx) :
    ((cfg0.win 3).blk t).view.read (Elt Ideal) G j = G (((cfg0.win 3).blk t).view.emb j) := rfl
/-- Entry `(p, k)` of point `t`'s block sits at row `512 t + p`, column `k` of the array. -/
theorem emb_h (t : Fin cfg0.N) (p : Fin 512) (k : Fin 100) :
    ((((cfg0.win 3).blk t).view.emb (ix2 p k) : S32768x100.Idx) 0).val = 512 * t.val + p.val
      ∧ (((cfg0.win 3).blk t).view.emb (ix2 p k) : S32768x100.Idx) 1 = k := by
  obtain ⟨-, -, -, -, -, -, e0, e1, -⟩ := idx_facts t
  exact ⟨by show win0_3.index t (0 : Fin 2) * 512 + 1 * p.val = 512 * t.val + p.val; omega,
    Fin.ext (by show win0_3.index t (1 : Fin 2) * 100 + 1 * k.val = k.val; omega)⟩

/-- What point `t` writes back to the first layer's array is block `t` of the first layer. -/
theorem flushed_h (c : Dev nD) (t : Fin cfg0.N) :
    (dat0 (F := Ideal) V c).flushed 3 t = ((cfg0.win 3).blk t).view.read (Elt Ideal) (Harr V c) := by
  have hafter : (dat0 (F := Ideal) V c).after 3 t = hblk0 (F := Ideal) V c t := rfl
  funext (j : S512x100.Idx)
  obtain ⟨p, k, rfl⟩ : ∃ (p : Fin 512) (k : Fin 100), j = ix2 p k := ⟨j 0, j 1, eq_ix2 j⟩
  obtain ⟨hr, hk⟩ := emb_h t p k
  refine ((congrFun (congrArg ((cfg0.win 3).cut (grid0.coords t)) hafter) (ix2 p k)).trans (cut_h t _ p k)).trans ?_
  refine Eq.trans ?_ (read_h t (Harr V c) (ix2 p k)).symm
  rw [hblk_apply V c t p k _ hr]
  show _ = Cert.Spec.H _ _ _ _ ((((cfg0.win 3).blk t).view.emb (ix2 p k) : S32768x100.Idx) 1)
  rw [hk]

/-- An index of the first layer's array is in point `t`'s block iff each coordinate is in the block's range. -/
theorem mem_blk_h (t : Fin cfg0.N) (i : S32768x100.Idx) :
    i ∈ ((cfg0.win 3).blk t).view.set ↔ ∀ a : Fin 2, win0_3.index t a * S512x100.size a ≤ (i a).val ∧ (i a).val < win0_3.index t a * S512x100.size a + S512x100.size a := by
  show i ∈ ((View.whole main_v1_0).slice (win0_3.rect t)).set ↔ _
  rw [View.set_slice_whole, Rect.mem_set_unit]
  exact Iff.rfl

/-- Every row is in the block of the point `row / 512`. -/
theorem cover_h (i : S32768x100.Idx) : ∃ t : Fin cfg0.N, (cfg0.win 3).flush t = true ∧ i ∈ ((cfg0.win 3).blk t).view.set := by
  have hi0 : (i 0).val < 32768 := (i 0).isLt
  have hi1 : (i 1).val < 100 := (i 1).isLt
  have hN : cfg0.N = 64 := N_0
  refine ⟨⟨(i 0).val / 512, by rw [hN]; omega⟩, flush0_3 _, ?_⟩
  obtain ⟨-, -, -, -, -, -, e0, e1, -⟩ := idx_facts ⟨(i 0).val / 512, by rw [hN]; omega⟩
  rw [mem_blk_h]
  intro a
  match a with
  | ⟨0, _⟩ => show win0_3.index _ (0 : Fin 2) * 512 ≤ (i 0).val ∧ (i 0).val < win0_3.index _ (0 : Fin 2) * 512 + 512; rw [e0]; show (i 0).val / 512 * 512 ≤ (i 0).val ∧ (i 0).val < (i 0).val / 512 * 512 + 512; omega
  | ⟨1, _⟩ => show win0_3.index _ (1 : Fin 2) * 100 ≤ (i 1).val ∧ (i 1).val < win0_3.index _ (1 : Fin 2) * 100 + 100; rw [e1]; omega

/-- The first layer's array after the statistics pass. -/
theorem h_eq (c : Dev nD) : (dat0 (F := Ideal) V c).arrAt 3 cfg0.N = fun i => Cert.Spec.H (Xc V c) (W1c V c) (b1c V c) (i 0) (i 1) :=
  (dat0 (F := Ideal) V c).arrAt_eq_of_cover 3 (Harr V c) (fun t _ => flushed_h V c t) cover_h

/-! ## The two running column sums -/

/-- The source index of a column reduction: the row inserted in front of the column. -/
theorem lift_eq (k : Fin 100) (p : Fin (S512x100.size 0)) : reduces_S512x100_S100.lift (ix1 k) p = ix2 (n0 := 512) p k := by
  funext a
  apply Fin.ext
  match a with
  | ⟨0, _⟩ => rfl
  | ⟨1, _⟩ => rfl

/-- A block's column sum, cast to a one-row array, read at a column. -/
theorem colsum_row (src : FVec Ideal S512x100 .f32) (u : Fin 1) (k : Fin 100) :
    shapeCast S1x100 (multiReduction .add [0] S100 src 0x00000000#32 reduces_S512x100_S100 (.inl rfl) rfl) shapeCasts_S100_S1x100 (ix2 u k)
      = ∑ p : Fin 512, src (ix2 p k) := by
  rw [shapeCast_a_1a_apply]
  exact (Ideal.multiReduction_add_single src 0x00000000#32 reduces_S512x100_S100 (.inl rfl) rfl (ix1 k)).trans
    (Finset.sum_congr rfl fun p _ => congrArg src (lift_eq k p))

/-- The running sum after a point: what it held plus the column sums of the point's block of the first layer. -/
theorem pay5_apply (w : Vec Ideal S100x4096 .f32) (x : Vec Ideal S512x4096 .f32) (b : Vec Ideal S1x100 .f32) (prev : Vec Ideal S1x100 .f32)
    (u : Fin 1) (k : Fin 100) :
    k0_pay5 (F := Ideal) w x b prev (ix2 u k) = prev (ix2 u k) + ∑ p : Fin 512, k0_pay4 (F := Ideal) w x b (ix2 p k) := by
  unfold k0_pay5
  rw [shapeCast_self, addf_apply, colsum_row]

/-- The running sum of squares after a point: what it held plus the column sums of the squared block. -/
theorem pay6_apply (w : Vec Ideal S100x4096 .f32) (x : Vec Ideal S512x4096 .f32) (b : Vec Ideal S1x100 .f32) (prev : Vec Ideal S1x100 .f32)
    (u : Fin 1) (k : Fin 100) :
    k0_pay1 (F := Ideal) (k0_pay6 (F := Ideal) w x b prev) (ix2 u k)
      = prev (ix2 u k) + ∑ p : Fin 512, k0_pay4 (F := Ideal) w x b (ix2 p k) * k0_pay4 (F := Ideal) w x b (ix2 p k) := by
  unfold k0_pay1 k0_pay6
  rw [shapeCast_self, addf_apply, colsum_row]
  rfl

/-- The zero rows the first point starts from. -/
theorem pay2_apply (j : S1x100.Idx) : (k0_pay2 (F := Ideal)) j = 0 := by
  unfold k0_pay2
  rw [shapeCast_self]
  exact Ideal.ofBits_zero_f32
theorem pay3_apply (j : S1x100.Idx) : (k0_pay3 (F := Ideal)) j = 0 := by
  unfold k0_pay3
  rw [shapeCast_self]
  exact Ideal.ofBits_zero_f32

/-- The first layer at a row given as a natural number: zero past the batch. -/
def Hn (c : Dev nD) (r : ℕ) (k : Fin 100) : EReal :=
  if h : r < 32768 then Cert.Spec.H (Xc V c) (W1c V c) (b1c V c) ⟨r, h⟩ k else 0

theorem Hn_of_lt (c : Dev nD) (r : Fin 32768) (k : Fin 100) : Hn V c r.val k = Cert.Spec.H (Xc V c) (W1c V c) (b1c V c) r k := by
  unfold Hn; rw [dif_pos r.isLt]

/-- The column sums of point `t`'s block of the first layer are the sums over its 512 rows. -/
theorem blocksum (c : Dev nD) (t : Fin cfg0.N) (k : Fin 100) :
    ∑ p : Fin 512, k0_pay4 (F := Ideal) (iblk0 V c 1 t) (iblk0 V c 0 t) (iblk0 V c 2 t) (ix2 p k)
      = ∑ x ∈ Finset.range 512, Hn V c (512 * t.val + x) k := by
  rw [Finset.sum_range]
  refine Finset.sum_congr rfl fun p _ => ?_
  have ht : t.val < 64 := t.isLt
  have hp := p.isLt
  have h := hblk_apply V c t p k ⟨512 * t.val + p.val, by omega⟩ rfl
  unfold hblk0 at h
  rw [h, ← Hn_of_lt]
theorem blocksumsq (c : Dev nD) (t : Fin cfg0.N) (k : Fin 100) :
    ∑ p : Fin 512, k0_pay4 (F := Ideal) (iblk0 V c 1 t) (iblk0 V c 0 t) (iblk0 V c 2 t) (ix2 p k) * k0_pay4 (F := Ideal) (iblk0 V c 1 t) (iblk0 V c 0 t) (iblk0 V c 2 t) (ix2 p k)
      = ∑ x ∈ Finset.range 512, Hn V c (512 * t.val + x) k * Hn V c (512 * t.val + x) k := by
  rw [Finset.sum_range]
  refine Finset.sum_congr rfl fun p _ => ?_
  have ht : t.val < 64 := t.isLt
  have hp := p.isLt
  have h := hblk_apply V c t p k ⟨512 * t.val + p.val, by omega⟩ rfl
  unfold hblk0 at h
  rw [h, ← Hn_of_lt]

/-- After point `n` the first scratch row holds, at column `k`, the sum of the first layer over the rows below `512 (n + 1)`. -/
theorem accS_apply (c : Dev nD) : ∀ (n : ℕ) (h : n < cfg0.N) (u : Fin 1) (k : Fin 100),
    accS (F := Ideal) V c n h (ix2 u k) = ∑ r ∈ Finset.range (512 * (n + 1)), Hn V c r k
  | 0, h, u, k => by
    unfold accS
    rw [pay5_apply, pay2_apply, zero_add, blocksum V c ⟨0, h⟩ k]
    refine Finset.sum_congr rfl fun x _ => ?_
    show Hn V c (512 * 0 + x) k = _
    rw [Nat.mul_zero, Nat.zero_add]
  | n + 1, h, u, k => by
    unfold accS
    rw [pay5_apply, accS_apply c n (Nat.lt_of_succ_lt h) u k, blocksum V c ⟨n + 1, h⟩ k,
      show 512 * (n + 1 + 1) = 512 * (n + 1) + 512 by omega, Finset.sum_range_add]

/-- After point `n` the second scratch row holds the sum of the squared first layer over the same rows. -/
theorem accQ_apply (c : Dev nD) : ∀ (n : ℕ) (h : n < cfg0.N) (u : Fin 1) (k : Fin 100),
    accQ (F := Ideal) V c n h (ix2 u k) = ∑ r ∈ Finset.range (512 * (n + 1)), Hn V c r k * Hn V c r k
  | 0, h, u, k => by
    unfold accQ
    rw [pay6_apply, pay3_apply, zero_add, blocksumsq V c ⟨0, h⟩ k]
    refine Finset.sum_congr rfl fun x _ => ?_
    show Hn V c (512 * 0 + x) k * Hn V c (512 * 0 + x) k = _
    rw [Nat.mul_zero, Nat.zero_add]
  | n + 1, h, u, k => by
    unfold accQ
    rw [pay6_apply, accQ_apply c n (Nat.lt_of_succ_lt h) u k, blocksumsq V c ⟨n + 1, h⟩ k,
      show 512 * (n + 1 + 1) = 512 * (n + 1) + 512 by omega, Finset.sum_range_add]

/-- Over the whole batch the sums are the specification's column sums. -/
theorem sum_all (c : Dev nD) (k : Fin 100) :
    ∑ r ∈ Finset.range 32768, Hn V c r k = Cert.Spec.colS (Cert.Spec.H (Xc V c) (W1c V c) (b1c V c)) k := by
  unfold Cert.Spec.colS
  rw [Finset.sum_range]
  exact Finset.sum_congr rfl fun r _ => Hn_of_lt V c r k
theorem sumsq_all (c : Dev nD) (k : Fin 100) :
    ∑ r ∈ Finset.range 32768, Hn V c r k * Hn V c r k = Cert.Spec.colQ (Cert.Spec.H (Xc V c) (W1c V c) (b1c V c)) k := by
  unfold Cert.Spec.colQ
  rw [Finset.sum_range]
  exact Finset.sum_congr rfl fun r _ => by rw [Hn_of_lt V c r k]

/-! ## The two one-row results -/

/-- The column sums of the first layer as a one-row array. -/
abbrev sarr (c : Dev nD) : S1x100.Idx → EReal :=
  fun i => Cert.Spec.colS (Cert.Spec.H (Xc V c) (W1c V c) (b1c V c)) (i 1)

/-- The part of a staging row the write-back moves is the whole row. -/
theorem cut_s (t : Fin cfg0.N) (A : Vec Ideal S1x100 .f32) (u : Fin 1) (k : Fin 100) :
    (cfg0.win 4).cut (grid0.coords t) A (ix2 u k) = A (ix2 u k) := rfl
/-- An array read through a point's block is the array at the block's embedded index. -/
theorem read_s (t : Fin cfg0.N) (G : S1x100.Idx → EReal) (j : S1x100.Idx) :
    ((cfg0.win 4).blk t).view.read (Elt Ideal) G j = G (((cfg0.win 4).blk t).view.emb j) := rfl
/-- The block sits at column offset zero. -/
theorem emb_s (t : Fin cfg0.N) (u : Fin 1) (k : Fin 100) :
    (((cfg0.win 4).blk t).view.emb (ix2 u k) : S1x100.Idx) 1 = k := by
  obtain ⟨-, -, -, -, -, -, -, -, e0, e1, -⟩ := idx_facts t
  exact Fin.ext (by show win0_4.index t (1 : Fin 2) * 100 + 1 * k.val = k.val; omega)

/-- The one write-back of this row, at the last point, writes the sums over the whole batch. -/
theorem flushed_s (c : Dev nD) (t : Fin cfg0.N) (hf : (cfg0.win 4).flush t = true) :
    (dat0 (F := Ideal) V c).flushed 4 t = ((cfg0.win 4).blk t).view.read (Elt Ideal) (sarr V c) := by
  have ht : t.val < 64 := t.isLt
  have h63 : t.val = 63 := by have := (flush0_4 t).mp hf; omega
  have hafter : (dat0 (F := Ideal) V c).after 4 t = accS (F := Ideal) V c t.val t.isLt := rfl
  funext (j : S1x100.Idx)
  obtain ⟨u, k, rfl⟩ : ∃ (u : Fin 1) (k : Fin 100), j = ix2 u k := ⟨j 0, j 1, eq_ix2 j⟩
  have e : 512 * (t.val + 1) = 32768 := by omega
  refine ((congrFun (congrArg ((cfg0.win 4).cut (grid0.coords t)) hafter) (ix2 u k)).trans (cut_s t _ u k)).trans ?_
  refine Eq.trans ?_ (read_s t (sarr V c) (ix2 u k)).symm
  rw [accS_apply V c t.val t.isLt u k, e, sum_all]
  show _ = Cert.Spec.colS _ ((((cfg0.win 4).blk t).view.emb (ix2 u k) : S1x100.Idx) 1)
  rw [emb_s]

/-- An index of the one-row array is in a point's block iff each coordinate is in the block's range. -/
theorem mem_blk_s (t : Fin cfg0.N) (i : S1x100.Idx) :
    i ∈ ((cfg0.win 4).blk t).view.set ↔ ∀ a : Fin 2, win0_4.index t a * S1x100.size a ≤ (i a).val ∧ (i a).val < win0_4.index t a * S1x100.size a + S1x100.size a := by
  show i ∈ ((View.whole main_v1_1).slice (win0_4.rect t)).set ↔ _
  rw [View.set_slice_whole, Rect.mem_set_unit]
  exact Iff.rfl

/-- The last point's block is the whole one-row array. -/
theorem cover_s (i : S1x100.Idx) : ∃ t : Fin cfg0.N, (cfg0.win 4).flush t = true ∧ i ∈ ((cfg0.win 4).blk t).view.set := by
  have hN : cfg0.N = 64 := N_0
  have hi0 : (i 0).val < 1 := (i 0).isLt
  have hi1 : (i 1).val < 100 := (i 1).isLt
  refine ⟨⟨63, by rw [hN]; omega⟩, (flush0_4 _).mpr rfl, ?_⟩
  obtain ⟨-, -, -, -, -, -, -, -, e0, e1, -⟩ := idx_facts ⟨63, by rw [hN]; omega⟩
  rw [mem_blk_s]
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 100 ≤ (i 1).val ∧ (i 1).val < win0_4.index _ (1 : Fin 2) * 100 + 100; rw [e1]; omega

/-- The column sums of the first layer after the statistics pass. -/
theorem s_eq (c : Dev nD) : (dat0 (F := Ideal) V c).arrAt 4 cfg0.N = fun i => Cert.Spec.colS (Cert.Spec.H (Xc V c) (W1c V c) (b1c V c)) (i 1) :=
  (dat0 (F := Ideal) V c).arrAt_eq_of_cover 4 (sarr V c) (flushed_s V c) cover_s

/-- The column sums of the squared first layer as a one-row array. -/
abbrev qarr (c : Dev nD) : S1x100.Idx → EReal :=
  fun i => Cert.Spec.colQ (Cert.Spec.H (Xc V c) (W1c V c) (b1c V c)) (i 1)

/-- The part of a staging row the write-back moves is the whole row. -/
theorem cut_q (t : Fin cfg0.N) (A : Vec Ideal S1x100 .f32) (u : Fin 1) (k : Fin 100) :
    (cfg0.win 5).cut (grid0.coords t) A (ix2 u k) = A (ix2 u k) := rfl
/-- An array read through a point's block is the array at the block's embedded index. -/
theorem read_q (t : Fin cfg0.N) (G : S1x100.Idx → EReal) (j : S1x100.Idx) :
    ((cfg0.win 5).blk t).view.read (Elt Ideal) G j = G (((cfg0.win 5).blk t).view.emb j) := rfl
/-- The block sits at column offset zero. -/
theorem emb_q (t : Fin cfg0.N) (u : Fin 1) (k : Fin 100) :
    (((cfg0.win 5).blk t).view.emb (ix2 u k) : S1x100.Idx) 1 = k := by
  obtain ⟨-, -, -, -, -, -, -, -, -, -, e0, e1⟩ := idx_facts t
  exact Fin.ext (by show win0_5.index t (1 : Fin 2) * 100 + 1 * k.val = k.val; omega)

/-- The one write-back of this row, at the last point, writes the sums over the whole batch. -/
theorem flushed_q (c : Dev nD) (t : Fin cfg0.N) (hf : (cfg0.win 5).flush t = true) :
    (dat0 (F := Ideal) V c).flushed 5 t = ((cfg0.win 5).blk t).view.read (Elt Ideal) (qarr V c) := by
  have ht : t.val < 64 := t.isLt
  have h63 : t.val = 63 := by have := (flush0_5 t).mp hf; omega
  have hafter : (dat0 (F := Ideal) V c).after 5 t = accQ (F := Ideal) V c t.val t.isLt := rfl
  funext (j : S1x100.Idx)
  obtain ⟨u, k, rfl⟩ : ∃ (u : Fin 1) (k : Fin 100), j = ix2 u k := ⟨j 0, j 1, eq_ix2 j⟩
  have e : 512 * (t.val + 1) = 32768 := by omega
  refine ((congrFun (congrArg ((cfg0.win 5).cut (grid0.coords t)) hafter) (ix2 u k)).trans (cut_q t _ u k)).trans ?_
  refine Eq.trans ?_ (read_q t (qarr V c) (ix2 u k)).symm
  rw [accQ_apply V c t.val t.isLt u k, e, sumsq_all]
  show _ = Cert.Spec.colQ _ ((((cfg0.win 5).blk t).view.emb (ix2 u k) : S1x100.Idx) 1)
  rw [emb_q]

/-- An index of the one-row array is in a point's block iff each coordinate is in the block's range. -/
theorem mem_blk_q (t : Fin cfg0.N) (i : S1x100.Idx) :
    i ∈ ((cfg0.win 5).blk t).view.set ↔ ∀ a : Fin 2, win0_5.index t a * S1x100.size a ≤ (i a).val ∧ (i a).val < win0_5.index t a * S1x100.size a + S1x100.size a := by
  show i ∈ ((View.whole main_v1_2).slice (win0_5.rect t)).set ↔ _
  rw [View.set_slice_whole, Rect.mem_set_unit]
  exact Iff.rfl

/-- The last point's block is the whole one-row array. -/
theorem cover_q (i : S1x100.Idx) : ∃ t : Fin cfg0.N, (cfg0.win 5).flush t = true ∧ i ∈ ((cfg0.win 5).blk t).view.set := by
  have hN : cfg0.N = 64 := N_0
  have hi0 : (i 0).val < 1 := (i 0).isLt
  have hi1 : (i 1).val < 100 := (i 1).isLt
  refine ⟨⟨63, by rw [hN]; omega⟩, (flush0_5 _).mpr rfl, ?_⟩
  obtain ⟨-, -, -, -, -, -, -, -, -, -, e0, e1⟩ := idx_facts ⟨63, by rw [hN]; omega⟩
  rw [mem_blk_q]
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 100 ≤ (i 1).val ∧ (i 1).val < win0_5.index _ (1 : Fin 2) * 100 + 100; rw [e1]; omega

/-- The column sums of the squared first layer after the statistics pass. -/
theorem q_eq (c : Dev nD) : (dat0 (F := Ideal) V c).arrAt 5 cfg0.N = fun i => Cert.Spec.colQ (Cert.Spec.H (Xc V c) (W1c V c) (b1c V c)) (i 1) :=
  (dat0 (F := Ideal) V c).arrAt_eq_of_cover 5 (qarr V c) (flushed_q V c) cover_q

end Cert.KernelIdeal.Val.R0

end
-- ==== Proof.Val.R1Value.lean ====
/-
  The output pass's result array as one function of the arrays the region finds.

  The pass has 32 grid points; at point `t` it loads rows `1024 t … 1024 t + 1023` of the first layer's result `h`, the
  whole second weight matrix, the bias row, the scale row and the shift row, and stores one block of 1024 rows of the
  result: for each row the activation `bin (h · scale + shift)`, its logits against the binarized second weights plus
  the bias, the row's maximum folded from minus infinity, and the log-softmax of the row about that maximum.

  First the stored block is read at an index `(p, j)`: every operation of the block's term is pointwise, a row or column
  broadcast, the contraction over the 100 hidden units, or a reduction along a row, and each reads at `(p, j)` as the
  specification's formula of row `p` of the block. Then the blocks are put together: the block point `t` writes back is
  block `t` of one function `G` of the whole arrays (each input block read where the output block's rows say), and the 32
  blocks cover the array (row `r` lies in the block of point `r / 1024`), so the array ends holding `G`.
-/
import proofs.«178065_j47201690583460_1_alg».proof.Proof.KI.Data
import proofs.«178065_j47201690583460_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val.R1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential and the logarithm of a vector at an index. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The index a reduction along the columns inserts: row `p` at column `j`. -/
theorem lift_row {a b : ℕ} (h : (⟨2, ![a, b]⟩ : Shape).Reduces [1] ⟨1, ![a]⟩) (p : Fin a) (j : Fin b) :
    h.lift (ix1 p) j = ix2 p j := by
  funext c; apply Fin.ext
  match c with
  | ⟨0, _⟩ => rfl
  | ⟨1, _⟩ => rfl

/-- A row's maximum, folded from minus infinity. -/
theorem rowMax_apply {a b : ℕ} (src : FVec Ideal ⟨2, ![a, b]⟩ .f32)
    (h : (⟨2, ![a, b]⟩ : Shape).Reduces [1] ⟨1, ![a]⟩) (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun j => src (ix2 p j)) := by
  refine (Ideal.multiReduction_maximumf_single src 0xFF800000#32 h hφ hacc (ix1 p)).trans ?_
  show (Finset.univ : Finset (Fin b)).fold max _ _ = _
  congr 1
  funext j
  exact congrArg src (lift_row h p j)

/-- A row's sum. -/
theorem rowSum_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (p : Fin a) :
    multiReduction .add [1] ⟨1, ![a]⟩ src 0x00000000#32 h hφ hacc (ix1 p) = ∑ j : Fin b, src (ix2 p j) := by
  refine (Ideal.multiReduction_add_single src 0x00000000#32 h hφ hacc (ix1 p)).trans ?_
  show ∑ j : Fin b, _ = _
  exact Finset.sum_congr rfl fun j _ => congrArg src (lift_row h p j)

/-! ## The second layer's contraction, read at an index -/

theorem lhs_mm_0 (i : S1024x1000.Idx) (q : dot_S1024x100_S1000x100_S1024x1000_1_1_0_0_n_n.contr.Idx) :
    (dot_S1024x100_S1000x100_S1024x1000_1_1_0_0_n_n.lhsIdx i q 0).val = (i 0).val := by
  unfold DotDims.lhsIdx
  rw [dif_neg (show ¬(0 : Fin S1024x100.rank) ∈ dot_S1024x100_S1000x100_S1024x1000_1_1_0_0_n_n.lhsBatch by decide), dif_pos (show (0 : Fin S1024x100.rank) ∈ dot_S1024x100_S1000x100_S1024x1000_1_1_0_0_n_n.lhsNonContracting by decide)]
  rfl
theorem lhs_mm_1 (i : S1024x1000.Idx) (q : dot_S1024x100_S1000x100_S1024x1000_1_1_0_0_n_n.contr.Idx) :
    (dot_S1024x100_S1000x100_S1024x1000_1_1_0_0_n_n.lhsIdx i q 1).val = (q ⟨0, by decide⟩).val :=
  dot_S1024x100_S1000x100_S1024x1000_1_1_0_0_n_n.lhsIdx_val_of_single rfl i q
theorem rhs_mm_0 (i : S1024x1000.Idx) (q : dot_S1024x100_S1000x100_S1024x1000_1_1_0_0_n_n.contr.Idx) :
    (dot_S1024x100_S1000x100_S1024x1000_1_1_0_0_n_n.rhsIdx i q 0).val = (i 1).val := by
  unfold DotDims.rhsIdx
  rw [dif_neg (show ¬(0 : Fin S1000x100.rank) ∈ dot_S1024x100_S1000x100_S1024x1000_1_1_0_0_n_n.rhsBatch by decide), dif_pos (show (0 : Fin S1000x100.rank) ∈ dot_S1024x100_S1000x100_S1024x1000_1_1_0_0_n_n.rhsNonContracting by decide)]
  rfl
theorem rhs_mm_1 (i : S1024x1000.Idx) (q : dot_S1024x100_S1000x100_S1024x1000_1_1_0_0_n_n.contr.Idx) :
    (dot_S1024x100_S1000x100_S1024x1000_1_1_0_0_n_n.rhsIdx i q 1).val = (q ⟨0, by decide⟩).val :=
  dot_S1024x100_S1000x100_S1024x1000_1_1_0_0_n_n.rhsIdx_val_of_single rfl i q

/-- The product into the zero block at `(p, j)`: row `p` of the left operand against row `j` of the right one. -/
theorem matmul_ix (l : FVec Ideal S1024x100 .bf16) (r : FVec Ideal S1000x100 .bf16) (p : Fin 1024) (j : Fin 1000) :
    matmul dot_S1024x100_S1000x100_S1024x1000_1_1_0_0_n_n none l r (constant (F := Ideal) S1024x1000 .f32 0x00000000#32) (ix2 p j)
      = ∑ k : Fin 100, l (ix2 p k) * r (ix2 j k) := by
  simp only [matmul]
  rw [Ideal.matmul_constant_zero_apply, ← Equiv.sum_comp (contrEquiv1 dot_S1024x100_S1000x100_S1024x1000_1_1_0_0_n_n 100 rfl rfl).symm]
  refine Finset.sum_congr rfl fun k _ => ?_
  have hk := contrEquiv1_symm_val dot_S1024x100_S1000x100_S1024x1000_1_1_0_0_n_n 100 rfl rfl k
  have el : dot_S1024x100_S1000x100_S1024x1000_1_1_0_0_n_n.lhsIdx (ix2 p j) ((contrEquiv1 dot_S1024x100_S1000x100_S1024x1000_1_1_0_0_n_n 100 rfl rfl).symm k) = ix2 p k := funext fun a => Fin.ext (by
    match a with
    | ⟨0, _⟩ => exact lhs_mm_0 _ _
    | ⟨1, _⟩ => exact (lhs_mm_1 _ _).trans hk)
  have er : dot_S1024x100_S1000x100_S1024x1000_1_1_0_0_n_n.rhsIdx (ix2 p j) ((contrEquiv1 dot_S1024x100_S1000x100_S1024x1000_1_1_0_0_n_n 100 rfl rfl).symm k) = ix2 j k := funext fun a => Fin.ext (by
    match a with
    | ⟨0, _⟩ => exact rhs_mm_0 _ _
    | ⟨1, _⟩ => exact (rhs_mm_1 _ _).trans hk)
  rw [el, er]

/-- The binarization as the programs spell it — a select between the two splats on the comparison with the zero
    splat — at an index. -/
theorem bin_ix {s : Shape} (z : FVec Ideal s .f32) (i : s.Idx) :
    (select (cmpf .oge z (broadcast s (Scalar.ofBits (F := Ideal) .f32 0x00000000#32)))
        (broadcast s (Scalar.ofBits (F := Ideal) .f32 0x3F800000#32)) (broadcast s (Scalar.ofBits (F := Ideal) .f32 0xBF800000#32)) : FVec Ideal s .f32) i
      = Cert.Spec.bin (z i) := rfl

/-! ## The output kernel's block at an index -/

/-- The block's activation and logits from the five loaded blocks. -/
def actB (x0 : Vec Ideal S1024x100 .f32) (sc sf : Vec Ideal S1x100 .f32) (p : Fin 1024) (k : Fin 100) : EReal :=
  Cert.Spec.bin (x0 (ix2 p k) * sc (ix2 0 k) + sf (ix2 0 k))
def logitB (x0 : Vec Ideal S1024x100 .f32) (sc sf : Vec Ideal S1x100 .f32) (w : Vec Ideal S1000x100 .f32) (b : Vec Ideal S1x1000 .f32)
    (p : Fin 1024) (j : Fin 1000) : EReal :=
  (∑ k : Fin 100, actB x0 sc sf p k * Cert.Spec.bin (w (ix2 j k))) + b (ix2 0 j)

theorem pay_ix (x0 : Vec Ideal S1024x100 .f32) (sc sf : Vec Ideal S1x100 .f32) (w : Vec Ideal S1000x100 .f32) (b : Vec Ideal S1x1000 .f32)
    (p : Fin 1024) (j : Fin 1000) :
    k1_pay1 x0 sc sf w b (ix2 p j) = Cert.Spec.lsm (logitB x0 sc sf w b p) (Cert.Spec.rowMax (logitB x0 sc sf w b p)) j := by
  unfold k1_pay1
  simp only [subf_apply, broadcastTo_a1_ab_apply, log_apply, shapeCast_a_a1_apply, rowSum_apply, exp_apply, rowMax_apply, addf_apply,
    matmul_ix, truncf_apply, bin_ix, mulf_apply, shapeCast_self, broadcastTo_1b_ab_apply]
  rw [rowSum_apply]
  simp only [subf_apply, broadcastTo_a1_ab_apply, shapeCast_a_a1_apply, exp_apply]
  rw [rowMax_apply]
  simp only [addf_apply, matmul_ix, truncf_apply, bin_ix, mulf_apply, shapeCast_self, broadcastTo_1b_ab_apply]
  rfl

/-! ## Each input block read where the output's rectangle says -/

/-- The windows' index maps, decided over the grid: at point `t` the block of the first layer's result and the block of
    the result are row-block `t`; every other window is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of the first layer's result at point `t` is rows `1024 t … 1024 t + 1023` of the array. -/
theorem iblk_h (c : Dev nD) (t : Fin cfg1.N) (p : Fin 1024) (k : Fin 100) (r : Fin 32768) (hr : r.val = 1024 * t.val + p.val) :
    (iblk1 V c 0 t : Vec Ideal S1024x100 .f32) (ix2 p k) = (V c main_v1_0 : S32768x100.Idx → EReal) (ix2 r k) := by
  obtain ⟨e0, e1, -⟩ := idx_facts t
  unfold iblk1
  rw [View.read_apply]
  show V c main_v1_0 _ = V c main_v1_0 _
  congr 1
  funext a; apply Fin.ext
  match a with
  | ⟨0, _⟩ => show win1_0.index t (0 : Fin 2) * 1024 + 1 * p.val = r.val; rw [e0, hr]; omega
  | ⟨1, _⟩ => show win1_0.index t (1 : Fin 2) * 100 + 1 * k.val = k.val; rw [e1]; omega

/-- The second weights' window is the whole array at every point. -/
theorem iblk_w (c : Dev nD) (t : Fin cfg1.N) (j : Fin 1000) (k : Fin 100) :
    (iblk1 V c 1 t : Vec Ideal S1000x100 .f32) (ix2 j k) = (V c main_arg5 : S1000x100.Idx → EReal) (ix2 j k) := by
  obtain ⟨-, -, e0, e1, -⟩ := idx_facts t
  unfold iblk1
  rw [View.read_apply]
  show V c main_arg5 _ = V c main_arg5 _
  congr 1
  funext a; apply Fin.ext
  match a with
  | ⟨0, _⟩ => show win1_1.index t (0 : Fin 2) * 1000 + 1 * j.val = j.val; rw [e0]; omega
  | ⟨1, _⟩ => show win1_1.index t (1 : Fin 2) * 100 + 1 * k.val = k.val; rw [e1]; omega

/-- The bias row's window is the whole row at every point. -/
theorem iblk_b (c : Dev nD) (t : Fin cfg1.N) (j : Fin 1000) :
    (iblk1 V c 2 t : Vec Ideal S1x1000 .f32) (ix2 (0 : Fin 1) j) = (V c main_v16 : S1x1000.Idx → EReal) (ix2 (0 : Fin 1) j) := by
  obtain ⟨-, -, -, -, e0, e1, -⟩ := idx_facts t
  unfold iblk1
  rw [View.read_apply]
  show V c main_v16 _ = V c main_v16 _
  congr 1
  funext a; apply Fin.ext
  match a with
  | ⟨0, _⟩ => show win1_2.index t (0 : Fin 2) * 1 + 1 * 0 = 0; rw [e0]
  | ⟨1, _⟩ => show win1_2.index t (1 : Fin 2) * 1000 + 1 * j.val = j.val; rw [e1]; omega

/-- The scale row's window is the whole row at every point. -/
theorem iblk_sc (c : Dev nD) (t : Fin cfg1.N) (k : Fin 100) :
    (iblk1 V c 3 t : Vec Ideal S1x100 .f32) (ix2 (0 : Fin 1) k) = (V c main_v12 : S1x100.Idx → EReal) (ix2 (0 : Fin 1) k) := by
  obtain ⟨-, -, -, -, -, -, e0, e1, -⟩ := idx_facts t
  unfold iblk1
  rw [View.read_apply]
  show V c main_v12 _ = V c main_v12 _
  congr 1
  funext a; apply Fin.ext
  match a with
  | ⟨0, _⟩ => show win1_3.index t (0 : Fin 2) * 1 + 1 * 0 = 0; rw [e0]
  | ⟨1, _⟩ => show win1_3.index t (1 : Fin 2) * 100 + 1 * k.val = k.val; rw [e1]; omega

/-- The shift row's window is the whole row at every point. -/
theorem iblk_sf (c : Dev nD) (t : Fin cfg1.N) (k : Fin 100) :
    (iblk1 V c 4 t : Vec Ideal S1x100 .f32) (ix2 (0 : Fin 1) k) = (V c main_v15 : S1x100.Idx → EReal) (ix2 (0 : Fin 1) k) := by
  obtain ⟨-, -, -, -, -, -, -, -, e0, e1, -⟩ := idx_facts t
  unfold iblk1
  rw [View.read_apply]
  show V c main_v15 _ = V c main_v15 _
  congr 1
  funext a; apply Fin.ext
  match a with
  | ⟨0, _⟩ => show win1_4.index t (0 : Fin 2) * 1 + 1 * 0 = 0; rw [e0]
  | ⟨1, _⟩ => show win1_4.index t (1 : Fin 2) * 100 + 1 * k.val = k.val; rw [e1]; omega

/-! ## From blocks to the array -/

/-- The result array as one function of the arrays the region finds: each row's log-softmax of its logits against the
    binarized second weights, the logits' activation the binarized, scaled and shifted first layer. -/
def G (c : Dev nD) : S32768x1000.Idx → EReal := fun i =>
  Cert.Spec.outK (fun j k => V c main_arg5 (ix2 j k)) (fun j => V c main_v16 (ix2 0 j))
    (Cert.Spec.actK (fun r k => V c main_v1_0 (ix2 r k)) (fun k => V c main_v12 (ix2 0 k)) (fun k => V c main_v15 (ix2 0 k))) (i 0) (i 1)

/-- The block's logits are the array's logits of the block's rows. -/
theorem logitB_eq (c : Dev nD) (t : Fin cfg1.N) (p : Fin 1024) (r : Fin 32768) (hr : r.val = 1024 * t.val + p.val) :
    logitB (iblk1 V c 0 t) (iblk1 V c 3 t) (iblk1 V c 4 t) (iblk1 V c 1 t) (iblk1 V c 2 t) p
      = Cert.Spec.logits (fun j k => V c main_arg5 (ix2 j k)) (fun j => V c main_v16 (ix2 0 j))
          (Cert.Spec.actK (fun r k => V c main_v1_0 (ix2 r k)) (fun k => V c main_v12 (ix2 0 k)) (fun k => V c main_v15 (ix2 0 k))) r := by
  funext j
  unfold logitB Cert.Spec.logits actB Cert.Spec.actK
  rw [iblk_b V c t j]
  refine congrArg (· + _) (Finset.sum_congr rfl fun k _ => ?_)
  rw [iblk_h V c t p k r hr, iblk_sc V c t k, iblk_sf V c t k, iblk_w V c t j k]

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  dsimp only [dat1]
  obtain ⟨-, -, -, -, -, -, -, -, -, -, e0, e1⟩ := idx_facts t
  funext y
  obtain ⟨p, j, rfl⟩ : ∃ (p : Fin 1024) (j : Fin 1000), y = ix2 p j := ⟨y 0, y 1, eq_ix2 y⟩
  rw [View.read_apply]
  have hN : cfg1.N = 32 := N_1
  have ht : t.val < 32 := hN ▸ t.isLt
  have hr : 1024 * t.val + p.val < 32768 := by have := p.isLt; omega
  have he : ((cfg1.win 5).blk t).view.emb (ix2 p j) = (ix2 (⟨1024 * t.val + p.val, hr⟩ : Fin 32768) j : S32768x1000.Idx) := by
    funext a; apply Fin.ext
    match a with
    | ⟨0, _⟩ => show win1_5.index t (0 : Fin 2) * 1024 + 1 * p.val = 1024 * t.val + p.val; rw [e0]; omega
    | ⟨1, _⟩ => show win1_5.index t (1 : Fin 2) * 1000 + 1 * j.val = j.val; rw [e1]; omega
  rw [he]
  show oblk1 V c t (ix2 p j) = G V c (ix2 (⟨1024 * t.val + p.val, hr⟩ : Fin 32768) j)
  unfold oblk1 G
  rw [pay_ix]
  show _ = Cert.Spec.outK _ _ _ (⟨1024 * t.val + p.val, hr⟩ : Fin 32768) j
  unfold Cert.Spec.outK
  rw [logitB_eq V c t p ⟨1024 * t.val + p.val, hr⟩ rfl]

/-- An index of the array is in point `t`'s block iff each coordinate is in the block's range on its axis. -/
theorem mem_blk (t : Fin cfg1.N) (i : S32768x1000.Idx) :
    i ∈ ((cfg1.win 5).blk t).view.set ↔ ∀ a : Fin 2, win1_5.index t a * S1024x1000.size a ≤ (i a).val ∧ (i a).val < win1_5.index t a * S1024x1000.size a + S1024x1000.size a := by
  show i ∈ ((View.whole main_v17).slice (win1_5.rect t)).set ↔ _
  rw [View.set_slice_whole, Rect.mem_set_unit]
  exact Iff.rfl

/-- The 32 blocks cover the array: row `r` is in the block of point `r / 1024`. -/
theorem cover (i : S32768x1000.Idx) : ∃ t : Fin cfg1.N, (cfg1.win 5).flush t = true ∧ i ∈ ((cfg1.win 5).blk t).view.set := by
  have hi0 : (i 0).val < 32768 := (i 0).isLt
  have hi1 : (i 1).val < 1000 := (i 1).isLt
  have hN : cfg1.N = 32 := N_1
  have hq : (i 0).val / 1024 < cfg1.N := by rw [hN]; omega
  obtain ⟨-, -, -, -, -, -, -, -, -, -, e0, e1⟩ := idx_facts ⟨(i 0).val / 1024, hq⟩
  refine ⟨⟨(i 0).val / 1024, hq⟩, flush1_5 _, ?_⟩
  rw [mem_blk]
  intro a
  match a with
  | ⟨0, _⟩ =>
    show win1_5.index ⟨(i 0).val / 1024, hq⟩ (0 : Fin 2) * 1024 ≤ (i 0).val ∧ (i 0).val < win1_5.index ⟨(i 0).val / 1024, hq⟩ (0 : Fin 2) * 1024 + 1024
    rw [e0]; show (i 0).val / 1024 * 1024 ≤ (i 0).val ∧ (i 0).val < (i 0).val / 1024 * 1024 + 1024; omega
  | ⟨1, _⟩ =>
    show win1_5.index ⟨(i 0).val / 1024, hq⟩ (1 : Fin 2) * 1000 ≤ (i 1).val ∧ (i 1).val < win1_5.index ⟨(i 0).val / 1024, hq⟩ (1 : Fin 2) * 1000 + 1000
    rw [e1]; omega

/-- THE RESULT ARRAY after the output pass: `G` of the arrays the region finds. -/
theorem result_eq (c : Dev nD) : (dat1 (F := Ideal) V c).arrAt 5 cfg1.N = fun i =>
    Cert.Spec.outK (fun j k => V c main_arg5 (ix2 j k)) (fun j => V c main_v16 (ix2 0 j))
      (Cert.Spec.actK (fun r k => V c main_v1_0 (ix2 r k)) (fun k => V c main_v12 (ix2 0 k)) (fun k => V c main_v15 (ix2 0 k))) (i 0) (i 1) :=
  (dat1 V c).arrAt_eq_of_cover 5 (G V c) (fun t _ => flushed_eq V c t) cover

end Cert.KernelIdeal.Val.R1

end
-- ==== Proof.Val.Host.lean ====
/-
  What the kernel program's two stretches of host operations leave in the buffers a later kernel region reads,
  from any contents they start at.

  The first stretch reshapes the first layer's bias row from [100] to [1, 100]. The second turns the two column-sum
  rows s (of h) and q (of h squared) into the normalization's scale row and shift row,

      mean = s / N,   var = q / N - mean * mean,   scale = gamma * rsqrt (var + eps),   shift = beta - mean * scale,

  every operation elementwise on [1, 100] rows, with gamma and beta reshaped from [100] to [1, 100] and the
  constants N and eps broadcast from scalars; it also reshapes the second layer's bias from [1000] to [1, 1000].
  At the ideal instance each elementwise operation is the extended reals' own, a broadcast scalar reads its value at
  every index, and a [a] to [1, a] reshape reads entry i at (0, i); so each row read at a column is the
  specification's closed form at that column.
-/
import proofs.«178065_j47201690583460_1_alg».proof.Proof.Gen.KernelIdeal.Launch
import proofs.«178065_j47201690583460_1_alg».proof.Proof.Gen.KernelIdeal.Regions
import proofs.«178065_j47201690583460_1_alg».proof.Proof.Val.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val.Host

open Idealize.ShloMosaic Idealize.ShloMosaic.ValueIdx Idealize.ShloMosaic.StableHlo Idealize.SL.Sem
open Cert.KernelIdeal

section Rows

/-! The rows as functions of their operands, over variables: a [100] row g (or beta) and two [1, 100] rows s, q. -/

variable (g be : FVec Ideal S100 .f32) (s q : FVec Ideal S1x100 .f32)
  (hc : S100.ShapeCasts S1x100) (hb : S_.BroadcastsInDim S1x100 (![] : Fin 0 → Fin S1x100.rank))

/-- A [100] row reshaped to [1, 100] reads, at column k of its one row, the row's entry k. -/
theorem row_cast (k : Fin 100) : shapeCast S1x100 g hc (ix2 0 k) = g (ix1 k) :=
  shapeCast_a_1a_apply g hc 0 k

/-- The scale row at a column: gamma times the reciprocal square root of the guarded variance, the variance the
    second moment q / N minus the squared mean s / N. -/
theorem scaleRow_apply (k : Fin 100) :
    mulf (shapeCast S1x100 g hc)
        (Host.rsqrt
          (addf
            (subf (Host.divf q (broadcastInDim S1x100 ![] hb (constant (F := Ideal) S_ .f32 0x47000000#32)))
              (mulf (Host.divf s (broadcastInDim S1x100 ![] hb (constant (F := Ideal) S_ .f32 0x47000000#32)))
                (Host.divf s (broadcastInDim S1x100 ![] hb (constant (F := Ideal) S_ .f32 0x47000000#32)))))
            (broadcastInDim S1x100 ![] hb (constant (F := Ideal) S_ .f32 0x38D1B717#32)))) (ix2 0 k)
      = Cert.Spec.scaleK (fun k => g (ix1 k)) (fun k => s (ix2 0 k)) (fun k => q (ix2 0 k)) k := by
  show shapeCast S1x100 g hc (ix2 0 k) * _ = _
  rw [row_cast]
  rfl

/-- The shift row at a column: beta minus the mean times the scale. -/
theorem shiftRow_apply (k : Fin 100) :
    subf (shapeCast S1x100 be hc)
        (mulf (Host.divf s (broadcastInDim S1x100 ![] hb (constant (F := Ideal) S_ .f32 0x47000000#32)))
          (mulf (shapeCast S1x100 g hc)
            (Host.rsqrt
              (addf
                (subf (Host.divf q (broadcastInDim S1x100 ![] hb (constant (F := Ideal) S_ .f32 0x47000000#32)))
                  (mulf (Host.divf s (broadcastInDim S1x100 ![] hb (constant (F := Ideal) S_ .f32 0x47000000#32)))
                    (Host.divf s (broadcastInDim S1x100 ![] hb (constant (F := Ideal) S_ .f32 0x47000000#32)))))
                (broadcastInDim S1x100 ![] hb (constant (F := Ideal) S_ .f32 0x38D1B717#32)))))) (ix2 0 k)
      = Cert.Spec.shiftK (fun k => g (ix1 k)) (fun k => be (ix1 k)) (fun k => s (ix2 0 k)) (fun k => q (ix2 0 k)) k := by
  show shapeCast S1x100 be hc (ix2 0 k) - _ * (shapeCast S1x100 g hc (ix2 0 k) * _) = _
  rw [row_cast, row_cast]
  rfl

end Rows

/-- The first stretch leaves the first layer's bias, reshaped to one row, in the buffer the first kernel region
    reads it from. -/
theorem host0_v0 (W : Valuation τ sig (Elt Ideal)) (k : Fin 100) :
    (StableHlo.after (Gen.hostOps0 (F := Ideal)) W (Proc.devRef .tc main_v0) : S1x100.Idx → EReal) (ix2 0 k)
      = (W (Proc.devRef .tc main_arg2) : S100.Idx → EReal) (ix1 k) := by
  after_results
  exact row_cast (W (Proc.devRef .tc main_arg2)) Gen.shapeCasts_S100_S1x100 k

/-- No operation of the first stretch writes a buffer other than the reshaped bias. -/
theorem host0_keeps (W : Valuation τ sig (Elt Ideal)) (b : Ref sig .tc) (hb : b ∉ Gen.hostOps0_W) :
    StableHlo.after (Gen.hostOps0 (F := Ideal)) W (Proc.devRef .tc b) = W (Proc.devRef .tc b) :=
  StableHlo.after_of_writes_sub Gen.hostOps0 W Gen.hostOps0_writes hb

/-- The second stretch's scale row, read at a column, is the specification's scale of gamma and the two column sums. -/
theorem host1_scale (W : Valuation τ sig (Elt Ideal)) (k : Fin 100) :
    (StableHlo.after (Gen.hostOps1 (F := Ideal)) W (Proc.devRef .tc main_v12) : S1x100.Idx → EReal) (ix2 0 k)
      = Cert.Spec.scaleK (fun k => (W (Proc.devRef .tc main_arg3) : S100.Idx → EReal) (ix1 k))
          (fun k => (W (Proc.devRef .tc main_v1_1) : S1x100.Idx → EReal) (ix2 0 k))
          (fun k => (W (Proc.devRef .tc main_v1_2) : S1x100.Idx → EReal) (ix2 0 k)) k := by
  after_results
  exact scaleRow_apply (W (Proc.devRef .tc main_arg3)) (W (Proc.devRef .tc main_v1_1)) (W (Proc.devRef .tc main_v1_2))
    Gen.shapeCasts_S100_S1x100 Gen.bcast_S_S1x100 k

/-- The second stretch's shift row, read at a column, is the specification's shift of gamma, beta and the two
    column sums. -/
theorem host1_shift (W : Valuation τ sig (Elt Ideal)) (k : Fin 100) :
    (StableHlo.after (Gen.hostOps1 (F := Ideal)) W (Proc.devRef .tc main_v15) : S1x100.Idx → EReal) (ix2 0 k)
      = Cert.Spec.shiftK (fun k => (W (Proc.devRef .tc main_arg3) : S100.Idx → EReal) (ix1 k))
          (fun k => (W (Proc.devRef .tc main_arg4) : S100.Idx → EReal) (ix1 k))
          (fun k => (W (Proc.devRef .tc main_v1_1) : S1x100.Idx → EReal) (ix2 0 k))
          (fun k => (W (Proc.devRef .tc main_v1_2) : S1x100.Idx → EReal) (ix2 0 k)) k := by
  after_results
  exact shiftRow_apply (W (Proc.devRef .tc main_arg3)) (W (Proc.devRef .tc main_arg4)) (W (Proc.devRef .tc main_v1_1))
    (W (Proc.devRef .tc main_v1_2)) Gen.shapeCasts_S100_S1x100 Gen.bcast_S_S1x100 k

/-- A [1000] row reshaped to [1, 1000] reads, at column j of its one row, the row's entry j: the second layer's
    bias as the second kernel region reads it. -/
theorem host1_b2 (W : Valuation τ sig (Elt Ideal)) (j : Fin 1000) :
    (StableHlo.after (Gen.hostOps1 (F := Ideal)) W (Proc.devRef .tc main_v16) : S1x1000.Idx → EReal) (ix2 0 j)
      = (W (Proc.devRef .tc main_arg6) : S1000.Idx → EReal) (ix1 j) := by
  after_results
  exact shapeCast_a_1a_apply (α := EReal) (W (Proc.devRef .tc main_arg6)) Gen.shapeCasts_S1000_S1x1000 0 j

/-- No operation of the second stretch writes a buffer outside its eighteen results. -/
theorem host1_keeps (W : Valuation τ sig (Elt Ideal)) (b : Ref sig .tc) (hb : b ∉ Gen.hostOps1_W) :
    StableHlo.after (Gen.hostOps1 (F := Ideal)) W (Proc.devRef .tc b) = W (Proc.devRef .tc b) :=
  StableHlo.after_of_writes_sub Gen.hostOps1 W Gen.hostOps1_writes hb

end Cert.KernelIdeal.Val.Host
-- ==== Proof.Val.KVal.lean ====
/-
  The kernel program's result, read off its run: the array the output region leaves is, index by index, the
  specification's kernel formula of the seven arguments.

  The buffers' contents are followed backwards through the program: the output region's array is its blocks' function
  of the arrays it finds; of those, the scale row, the shift row and the bias row are what the second host stretch
  computes from the two column-sum rows and the arguments; the block of h and the two column sums are what the
  statistics region leaves; and the statistics region finds the arguments as launched, the bias reshaped.
-/
import proofs.«178065_j47201690583460_1_alg».proof.Proof.KI.Launch
import proofs.«178065_j47201690583460_1_alg».proof.Proof.Val.R0Value
import proofs.«178065_j47201690583460_1_alg».proof.Proof.Val.R1Value
import proofs.«178065_j47201690583460_1_alg».proof.Proof.Val.Host

set_option maxRecDepth 16384

noncomputable section

namespace Cert.KernelIdeal.Val.Chain

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (c : Dev nD)

/-! ## The arguments as the specification takes them -/

def Xm : Fin 32768 → Fin 4096 → EReal := fun r d => (m ((c : Thread nD τ).loc main_arg0) : S32768x4096.Idx → EReal) (ix2 r d)
def W1m : Fin 100 → Fin 4096 → EReal := fun k d => (m ((c : Thread nD τ).loc main_arg1) : S100x4096.Idx → EReal) (ix2 k d)
def b1m : Fin 100 → EReal := fun k => (m ((c : Thread nD τ).loc main_arg2) : S100.Idx → EReal) (ix1 k)
def gm : Fin 100 → EReal := fun k => (m ((c : Thread nD τ).loc main_arg3) : S100.Idx → EReal) (ix1 k)
def bem : Fin 100 → EReal := fun k => (m ((c : Thread nD τ).loc main_arg4) : S100.Idx → EReal) (ix1 k)
def W2m : Fin 1000 → Fin 100 → EReal := fun j k => (m ((c : Thread nD τ).loc main_arg5) : S1000x100.Idx → EReal) (ix2 j k)
def b2m : Fin 1000 → EReal := fun j => (m ((c : Thread nD τ).loc main_arg6) : S1000.Idx → EReal) (ix1 j)

/-! ## Walking back through the fold -/

/-- A buffer no host operation writes and no window of the statistics region stages is, at the output region's entry, as launched. -/
theorem B3_launch (b : Ref sig .tc) (h1 : b ∉ hostOps1_W) (h2 : ∀ w, Pipeline.arrRef spec0 w ≠ b) (h0 : b ∉ hostOps0_W) :
    B3 m c (Proc.devRef .tc b) = m ((c : Thread nD τ).loc b) :=
  (B3_keep m c b h1).trans ((B2_of_ne m c b h2).trans (B1_keep m c b h0))

/-- The same at the statistics region's exit. -/
theorem B2_launch (b : Ref sig .tc) (h2 : ∀ w, Pipeline.arrRef spec0 w ≠ b) (h0 : b ∉ hostOps0_W) :
    B2 m c (Proc.devRef .tc b) = m ((c : Thread nD τ).loc b) :=
  (B2_of_ne m c b h2).trans (B1_keep m c b h0)

/-- The statistics region finds x, W1 as launched and the bias row as the bias. -/
theorem Xc_eq : R0.Xc (VB1 m) c = Xm m c := by
  funext r d
  show (B1 m c (Proc.devRef .tc main_arg0) : S32768x4096.Idx → EReal) (ix2 r d) = _
  rw [B1_keep m c main_arg0 (by decide)]; rfl

theorem W1c_eq : R0.W1c (VB1 m) c = W1m m c := by
  funext k d
  show (B1 m c (Proc.devRef .tc main_arg1) : S100x4096.Idx → EReal) (ix2 k d) = _
  rw [B1_keep m c main_arg1 (by decide)]; rfl

theorem b1c_eq : R0.b1c (VB1 m) c = b1m m c := by
  funext k
  exact Host.host0_v0 (B0 m c) k

/-- What the statistics region leaves: the first layer and its two column sums. -/
theorem h_launch : (B2 m c (Proc.devRef .tc main_v1_0) : S32768x100.Idx → EReal)
    = fun i => Cert.Spec.H (Xm m c) (W1m m c) (b1m m c) (i 0) (i 1) := by
  have e := (B2_arr m c 3).trans (R0.h_eq (VB1 m) c)
  rw [Xc_eq, W1c_eq, b1c_eq] at e
  exact e

theorem s_launch : (B2 m c (Proc.devRef .tc main_v1_1) : S1x100.Idx → EReal)
    = fun i => Cert.Spec.colS (Cert.Spec.H (Xm m c) (W1m m c) (b1m m c)) (i 1) := by
  have e := (B2_arr m c 4).trans (R0.s_eq (VB1 m) c)
  rw [Xc_eq, W1c_eq, b1c_eq] at e
  exact e

theorem q_launch : (B2 m c (Proc.devRef .tc main_v1_2) : S1x100.Idx → EReal)
    = fun i => Cert.Spec.colQ (Cert.Spec.H (Xm m c) (W1m m c) (b1m m c)) (i 1) := by
  have e := (B2_arr m c 5).trans (R0.q_eq (VB1 m) c)
  rw [Xc_eq, W1c_eq, b1c_eq] at e
  exact e

/-! ## What the output region finds -/

theorem in_W2 : (fun j k => (VB3 m c main_arg5 : S1000x100.Idx → EReal) (ix2 j k)) = W2m m c := by
  funext j k
  show (B3 m c (Proc.devRef .tc main_arg5) : S1000x100.Idx → EReal) (ix2 j k) = _
  rw [B3_launch m c main_arg5 (by decide) (by decide) (by decide)]; rfl

theorem in_b2 : (fun j => (VB3 m c main_v16 : S1x1000.Idx → EReal) (ix2 0 j)) = b2m m c := by
  funext j
  refine (Host.host1_b2 (B2 m c) j).trans ?_
  rw [B2_launch m c main_arg6 (by decide) (by decide)]; rfl

theorem in_h : (fun r k => (VB3 m c main_v1_0 : S32768x100.Idx → EReal) (ix2 r k)) = Cert.Spec.H (Xm m c) (W1m m c) (b1m m c) := by
  funext r k
  show (B3 m c (Proc.devRef .tc main_v1_0) : S32768x100.Idx → EReal) (ix2 r k) = _
  rw [B3_keep m c main_v1_0 (by decide), h_launch]; rfl

theorem in_scale : (fun k => (VB3 m c main_v12 : S1x100.Idx → EReal) (ix2 0 k))
    = Cert.Spec.scaleK (gm m c) (Cert.Spec.colS (Cert.Spec.H (Xm m c) (W1m m c) (b1m m c))) (Cert.Spec.colQ (Cert.Spec.H (Xm m c) (W1m m c) (b1m m c))) := by
  funext k
  refine (Host.host1_scale (B2 m c) k).trans ?_
  rw [B2_launch m c main_arg3 (by decide) (by decide), s_launch, q_launch]; rfl

theorem in_shift : (fun k => (VB3 m c main_v15 : S1x100.Idx → EReal) (ix2 0 k))
    = Cert.Spec.shiftK (gm m c) (bem m c) (Cert.Spec.colS (Cert.Spec.H (Xm m c) (W1m m c) (b1m m c))) (Cert.Spec.colQ (Cert.Spec.H (Xm m c) (W1m m c) (b1m m c))) := by
  funext k
  refine (Host.host1_shift (B2 m c) k).trans ?_
  rw [B2_launch m c main_arg3 (by decide) (by decide), B2_launch m c main_arg4 (by decide) (by decide), s_launch, q_launch]; rfl

/-! ## The result -/

/-- The array the program returns is the specification's kernel formula of the launched arguments. -/
theorem kernel_value : (B4 m c (Proc.devRef .tc main_v17) : S32768x1000.Idx → EReal)
    = fun i => Cert.Spec.kernelOut (Xm m c) (W1m m c) (b1m m c) (gm m c) (bem m c) (W2m m c) (b2m m c) (i 0) (i 1) := by
  have e := (result m c).trans (R1.result_eq (VB3 m) c)
  rw [in_W2, in_b2, in_h, in_scale, in_shift] at e
  exact e

end Cert.KernelIdeal.Val.Chain

end
-- ==== Proof.Val.Bridge.lean ====
/-
  The kernel's and the reference's results are one function of finite inputs.

  The two differ in the batch normalization and in the log-softmax's shift. For a column of real numbers the second
  moment minus the squared mean is the mean squared deviation, a nonnegative real; with the positive guard added its
  reciprocal square root is a real; and then `h · (γ · ρ) + (β − μ · (γ · ρ))` and `((h − μ) · ρ) · γ + β` are one real
  number. The shift differs by a maximum with minus infinity, which changes nothing.
-/
import proofs.«178065_j47201690583460_1_alg».proof.Proof.Val.Spec
import Mathlib.Data.EReal.Basic
import Mathlib.Data.EReal.Operations
import Mathlib.Algebra.BigOperators.Ring.Finset
import Mathlib.Algebra.Order.BigOperators.Ring.Finset
import Mathlib.Analysis.SpecialFunctions.Sqrt
import Mathlib.Tactic.NormNum
import Mathlib.Tactic.Ring
import Mathlib.Tactic.FieldSimp
import Mathlib.Tactic.Positivity

noncomputable section

namespace Cert.Spec.Bridge

open Idealize.ShloMosaic

/-- an extended real that is a real number -/
def IsReal (z : EReal) : Prop := ∃ x : ℝ, z = (x : EReal)

/-! ### The six literals, each evaluated once -/

theorem cZero_eq : cZero = 0 := by
  unfold cZero; simp [Ideal.ofBits, Ideal.ieee]

theorem cOne_eq : cOne = 1 := by
  unfold cOne; simp [Ideal.ofBits, Ideal.ieee, -EReal.coe_mul]; norm_num

theorem cNegOne_eq : cNegOne = -1 := by
  unfold cNegOne; simp [Ideal.ofBits, Ideal.ieee, -EReal.coe_mul]; norm_num

theorem cN_eq : cN = ((32768 : ℝ) : EReal) := by
  unfold cN; simp [Ideal.ofBits, Ideal.ieee, -EReal.coe_mul]; norm_num

theorem cNegInf_eq : cNegInf = ⊥ := by
  unfold cNegInf; simp [Ideal.ofBits, Ideal.ieee]

/-- The guard is a positive real; its value is never needed. -/
theorem cEps_eq : ∃ e : ℝ, 0 < e ∧ cEps = (e : EReal) := by
  unfold cEps; simp [Ideal.ofBits, Ideal.ieee, -EReal.coe_mul]

/-! ### Real numbers inside the extended reals -/

theorem isReal_coe (x : ℝ) : IsReal (x : EReal) := ⟨x, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i, IsReal (f i)) :
    IsReal (∑ i ∈ s, f i) := by
  choose f' hf' using hf
  refine ⟨∑ i ∈ s, f' i, ?_⟩
  rw [coe_sum]; exact Finset.sum_congr rfl fun i _ => hf' i

/-- Binarization yields one of the two reals 1 and -1, whatever its argument. -/
theorem bin_isReal (z : EReal) : IsReal (bin z) := by
  unfold bin
  split
  · rw [cOne_eq]; exact ⟨1, rfl⟩
  · rw [cNegOne_eq]; exact ⟨-1, rfl⟩

/-- The first layer of real inputs is real (the weights enter through their binarization only). -/
theorem H_isReal (X : Fin 32768 → Fin 4096 → EReal) (W1 : Fin 100 → Fin 4096 → EReal) (b1 : Fin 100 → EReal)
    (hX : ∀ r d, IsReal (X r d)) (hb1 : ∀ k, IsReal (b1 k)) (r : Fin 32768) (k : Fin 100) :
    IsReal (H X W1 b1 r k) := by
  unfold H
  exact (IsReal.sum _ _ fun d => (hX r d).mul (bin_isReal _)).add (hb1 k)

/-! ### The variance of a finite family of reals -/

/-- The second moment minus the squared mean is the mean squared deviation. -/
theorem var_identity {ι : Type*} [Fintype ι] (a : ι → ℝ) (N : ℝ) (hN : (Fintype.card ι : ℝ) = N) (hN0 : N ≠ 0) :
    (∑ i, a i * a i) * (1 / N) - ((∑ i, a i) * (1 / N)) * ((∑ i, a i) * (1 / N))
      = (∑ i, (a i - (∑ i, a i) * (1 / N)) * (a i - (∑ i, a i) * (1 / N))) * (1 / N) := by
  generalize hm : (∑ i, a i) * (1 / N) = m
  have h1 : ∑ i, (a i - m) * (a i - m) = (∑ i, a i * a i) - 2 * m * (∑ i, a i) + N * (m * m) := by
    have e : ∀ i, (a i - m) * (a i - m) = a i * a i - 2 * m * a i + m * m := fun i => by ring
    simp only [e, Finset.sum_add_distrib, Finset.sum_sub_distrib, ← Finset.mul_sum, Finset.sum_const,
      Finset.card_univ, nsmul_eq_mul, hN]
    ring
  have hS : (∑ i, a i) = N * m := by rw [← hm]; field_simp
  rw [h1, hS]; field_simp; ring

/-- The mean squared deviation is nonnegative. -/
theorem var_nonneg {ι : Type*} [Fintype ι] (a : ι → ℝ) (m N : ℝ) (hN0 : 0 < N) :
    0 ≤ (∑ i, (a i - m) * (a i - m)) * (1 / N) :=
  mul_nonneg (Finset.sum_nonneg fun i _ => mul_self_nonneg _) (by positivity)

/-! ### The two normalizations agree on a real first layer -/

/-- The reciprocal square root of a nonnegative real plus a positive real is a real. -/
theorem rsqrt_real (v e : ℝ) (hv : 0 ≤ v) (he : 0 < e) :
    ∃ ρ : ℝ, Ideal.rsqrt ((v : EReal) + (e : EReal)) = (ρ : EReal) := by
  have hpos : 0 < v + e := by linarith
  refine ⟨(Real.sqrt (v + e))⁻¹, ?_⟩
  rw [← EReal.coe_add, Ideal.rsqrt_coe, if_neg (not_lt.mpr hpos.le), if_neg hpos.ne']

/-- On a real column the mean is a real, and the kernel's and the reference's variances are one nonnegative real. -/
theorem stats_real (h : Fin 32768 → Fin 100 → EReal) (h' : Fin 32768 → Fin 100 → ℝ)
    (hh : ∀ r k, h r k = (h' r k : EReal)) (k : Fin 100) :
    ∃ μ v : ℝ, 0 ≤ v ∧ meanR h k = (μ : EReal) ∧ meanK (colS h) k = (μ : EReal)
      ∧ varK (colS h) (colQ h) k = (v : EReal) ∧ varR h k = (v : EReal) := by
  have hN : (32768 : ℝ) ≠ 0 := by norm_num
  have hS : (∑ r : Fin 32768, h r k) = ((∑ r, h' r k : ℝ) : EReal) := by
    rw [coe_sum]; exact Finset.sum_congr rfl fun r _ => hh r k
  generalize hμdef : (∑ r, h' r k) * (1 / 32768) = μ
  have hμ : meanR h k = (μ : EReal) := by
    unfold meanR; rw [cN_eq, Ideal.div_coe hN, hS, ← EReal.coe_mul, hμdef]
  have hQ : (∑ r : Fin 32768, h r k * h r k) = ((∑ r, h' r k * h' r k : ℝ) : EReal) := by
    rw [coe_sum]; exact Finset.sum_congr rfl fun r _ => by rw [hh r k, EReal.coe_mul]
  have hD : (∑ r : Fin 32768, (h r k - (μ : EReal)) * (h r k - (μ : EReal)))
      = ((∑ r, (h' r k - μ) * (h' r k - μ) : ℝ) : EReal) := by
    rw [coe_sum]; exact Finset.sum_congr rfl fun r _ => by rw [hh r k, EReal.coe_mul, EReal.coe_sub]
  have hcard : ((Fintype.card (Fin 32768) : ℕ) : ℝ) = 32768 := by simp
  refine ⟨μ, (∑ r, (h' r k - μ) * (h' r k - μ)) * (1 / 32768), var_nonneg _ _ _ (by norm_num), hμ, hμ, ?_, ?_⟩
  · unfold varK colQ
    rw [show meanK (colS h) k = meanR h k from rfl, hμ, cN_eq, Ideal.div_coe hN, hQ, ← EReal.coe_mul, ← EReal.coe_mul,
      ← EReal.coe_sub, ← hμdef, var_identity (fun r => h' r k) 32768 hcard hN]
  · unfold varR
    rw [hμ, cN_eq, Ideal.div_coe hN, hD, ← EReal.coe_mul]

/-- The kernel's folded scale and shift give the reference's normalized value, so the activations agree. -/
theorem act_eq (h : Fin 32768 → Fin 100 → EReal) (g be : Fin 100 → EReal) (hh : ∀ r k, IsReal (h r k))
    (hg : ∀ k, IsReal (g k)) (hbe : ∀ k, IsReal (be k)) :
    actK h (scaleK g (colS h) (colQ h)) (shiftK g be (colS h) (colQ h)) = actR g be h := by
  choose h' hh' using hh
  funext r k
  obtain ⟨μ, v, hv, hμR, hμK, hvK, hvR⟩ := stats_real h h' hh' k
  obtain ⟨e, he, hE⟩ := cEps_eq
  obtain ⟨ρ, hρ⟩ := rsqrt_real v e hv he
  obtain ⟨γ, hγ⟩ := hg k
  obtain ⟨β, hβ⟩ := hbe k
  unfold actK actR shiftK scaleK
  rw [hμK, hμR, hvK, hvR, hE, hρ, hγ, hβ, hh' r k]
  congr 1
  norm_cast
  ring

/-! ### The whole results -/

theorem bridge (X : Fin 32768 → Fin 4096 → EReal) (W1 : Fin 100 → Fin 4096 → EReal) (b1 g be : Fin 100 → EReal)
    (W2 : Fin 1000 → Fin 100 → EReal) (b2 : Fin 1000 → EReal)
    (hX : ∀ r d, IsReal (X r d)) (hb1 : ∀ k, IsReal (b1 k)) (hg : ∀ k, IsReal (g k)) (hbe : ∀ k, IsReal (be k)) :
    Cert.Spec.kernelOut X W1 b1 g be W2 b2 = Cert.Spec.referenceOut X W1 b1 g be W2 b2 := by
  funext r j
  unfold kernelOut referenceOut
  rw [act_eq (H X W1 b1) g be (H_isReal X W1 b1 hX hb1) hg hbe]
  unfold outK outR
  rw [cNegInf_eq, max_bot_left]

end Cert.Spec.Bridge

end
-- ==== Proof.Val.Finite.lean ====
/-
  From the certificate's precondition to the finiteness of every float input.

  The precondition says that a predicate of the inputs evaluates to the one-bit word 1: the conjunction, over the seven
  float arguments, of "every entry x has |x| < +infinity", each conjunct an all-reduction by "and" of an elementwise
  comparison of |x| = max x (-x) against the word 0x7F800000 read as a float. At the ideal instance that word
  denotes the top element of the extended reals, and an extended real x with max x (-x) < top is neither top nor
  bottom, hence a real number.
-/
import proofs.«178065_j47201690583460_1_alg».proof.Defs
import proofs.«178065_j47201690583460_1_alg».proof.Proof.Gen.Pre_finite_inputs
import Idealize.ShloMosaic.Lib.ReduceAll

open Idealize.ShloMosaic Idealize.SL.Sem

namespace Cert.KernelIdeal.Val.Finite

/-- The scalar shape has exactly one index. -/
instance subsingleton_scalar_idx : Subsingleton Cert.Pre_finite_inputs.S_.Idx := ⟨fun a b => funext fun d => d.elim0⟩

/-- The word 0x7F800000, read as a single-precision float at the ideal instance, is plus infinity. -/
theorem ofBits_inf : Ideal.ofBits .f32 0x7F800000#32 = (⊤ : EReal) := by simp [Ideal.ofBits, Ideal.ieee]

/-- An extended real whose absolute value max x (-x) compares strictly below plus infinity is a real number:
    at bottom and at top the absolute value is top, and top < top is false. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the predicate read back: if the all-reduction by "and" of the comparison |a i| < +infinity over
    every index of a is 1, every entry of a is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] hb (constant (F := Ideal) Cert.Pre_finite_inputs.S_ .f32 0x7F800000#32)))
          (constantI Cert.Pre_finite_inputs.S_ 1 1#1) hr hu j = 1#1)
    (i : s.Idx) : ∃ r : ℝ, a i = (r : EReal) :=
  real_of_abs_lt (a i) (Host.reduce_andi_all _ _ hr hu j e i)

/-- Under the certificate's precondition every entry of every float argument is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal)) := by
  -- the predicate's one result word, at the scalar shape's one index
  have h0 := congrFun (h c) (fun d => d.elim0)
  dsimp only [Cert.Pre_finite_inputs.fn, Cert.Pre_finite_inputs.fn_part1] at h0
  -- the conjunction is a left-nested chain of one-bit "and"s: peel it from the outside
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨real_of_all _ _ _ _ _ e0, real_of_all _ _ _ _ _ e1, real_of_all _ _ _ _ _ e2, real_of_all _ _ _ _ _ e3,
    real_of_all _ _ _ _ _ e4, real_of_all _ _ _ _ _ e5, real_of_all _ _ _ _ _ e6⟩

end Cert.KernelIdeal.Val.Finite
-- ==== Proof.Val.RefRun.lean ====
import proofs.«178065_j47201690583460_1_alg».proof.Proof.Gen.ReferenceIdeal
import proofs.«178065_j47201690583460_1_alg».proof.Proof.Val.RefRead
import Idealize.ShloMosaic.Lib.StableHlo.Run

/-!
# The run of the reference program, stretch by stretch

The reference's @main is a straight line of 82 host operations (each called function's operations standing at its
call). The line is cut into six stretches, each ending where a value later stretches read is complete:
`main_v8` (the first affine layer), `main_v18` (the batch mean and variance), `main_v33` (the normalized, scaled
and shifted activations), `main_v37` (their sign), `main_v46` (the second affine layer) and `main_v47` (its
log-softmax). For each stretch and an ARBITRARY valuation `W` of the buffers before it we state what the stretch
leaves in the buffers read afterwards, as the matching stage `ReadP.val_main_…` of the values `W` holds, and that
it leaves alone every buffer it does not write. The run of the whole line is `StableHlo.run_seq`; its final
valuation is then read through the six stretches in turn.
-/

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- An operation's one written buffer is among a literal list of references. -/
local macro "writes_mem" : tactic =>
  `(tactic| (simp only [nullary_writes, unary_writes, binary_writes, ternary_writes, Finset.singleton_subset_iff, List.mem_toFinset]
             exact List.mem_map_of_mem (by decide)))

/-- Stretch 1: the sign of the first weight matrix, its product with the input and the bias — up to `main_v8`. -/
abbrev ops1 : List (HloOp τ sig (Elt F)) :=
  [ nullary main_cst (constant S_ .f32 0x00000000#32),
    unary main_cst main_v0 (broadcastInDim S100x4096 ![] bcast_S_S100x4096 : (⟨S_, .f32⟩ : BufTy).Contents (Elt F) → (⟨S100x4096, .f32⟩ : BufTy).Contents (Elt F)),
    binary main_arg1 main_v0 main_v1 (cmpf .oge : (⟨S100x4096, .f32⟩ : BufTy).Contents (Elt F) → (⟨S100x4096, .f32⟩ : BufTy).Contents (Elt F) → (⟨S100x4096, .i1⟩ : BufTy).Contents (Elt F)),
    nullary main_cst_0 (constant S_ .f32 0x3F800000#32),
    nullary main_cst_1 (constant S_ .f32 0xBF800000#32),
    TRef.unary (TRef.of (T := ⟨S_, .f32⟩) main_cst_0) (TRef.of (T := ⟨S100x4096, .f32⟩) main_call0_v0) (broadcastInDim S100x4096 ![] bcast_S_S100x4096),
    TRef.unary (TRef.of (T := ⟨S_, .f32⟩) main_cst_1) (TRef.of (T := ⟨S100x4096, .f32⟩) main_call0_v1) (broadcastInDim S100x4096 ![] bcast_S_S100x4096),
    TRef.ternary (TRef.of (T := ⟨S100x4096, .i1⟩) main_v1) (TRef.of (T := ⟨S100x4096, .f32⟩) main_call0_v0) (TRef.of (T := ⟨S100x4096, .f32⟩) main_call0_v1) (TRef.of (T := ⟨S100x4096, .f32⟩) main_v2) select,
    unary main_v2 main_v3 (id : (⟨S100x4096, .f32⟩ : BufTy).Contents (Elt F) → (⟨S100x4096, .f32⟩ : BufTy).Contents (Elt F)),
    unary main_v3 main_v4 ((transpose S4096x100 [1, 0] · transposes_S100x4096_S4096x100_1_0) : (⟨S100x4096, .f32⟩ : BufTy).Contents (Elt F) → (⟨S4096x100, .f32⟩ : BufTy).Contents (Elt F)),
    binary main_arg0 main_v4 main_v5 ((fun l r => Host.dotGeneral dot_S32768x4096_S4096x100_S32768x100_1_0_0_1_n_n none l r) : (⟨S32768x4096, .f32⟩ : BufTy).Contents (Elt F) → (⟨S4096x100, .f32⟩ : BufTy).Contents (Elt F) → (⟨S32768x100, .f32⟩ : BufTy).Contents (Elt F)),
    unary main_arg2 main_v6 (broadcastInDim S1x100 ![1] bcast_S100_S1x100_1 : (⟨S100, .f32⟩ : BufTy).Contents (Elt F) → (⟨S1x100, .f32⟩ : BufTy).Contents (Elt F)),
    unary main_v6 main_v7 (broadcastInDim S32768x100 ![0, 1] bcast_S1x100_S32768x100_0_1 : (⟨S1x100, .f32⟩ : BufTy).Contents (Elt F) → (⟨S32768x100, .f32⟩ : BufTy).Contents (Elt F)),
    binary main_v5 main_v7 main_v8 (addf : (⟨S32768x100, .f32⟩ : BufTy).Contents (Elt F) → (⟨S32768x100, .f32⟩ : BufTy).Contents (Elt F) → (⟨S32768x100, .f32⟩ : BufTy).Contents (Elt F)) ]

theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
theorem ops1_fresh : (ops1 : List (HloOp τ sig (Elt F))).Forall fun op => op.fresh = ∅ := by
  simp only [List.Forall]; repeat' constructor
/-- The references stretch 1 writes. -/
abbrev ops1_W : List (Ref sig .tc) := [main_cst, main_v0, main_v1, main_cst_0, main_cst_1, main_call0_v0, main_call0_v1, main_v2, main_v3, main_v4, main_v5, main_v6, main_v7, main_v8]
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_⟩ <;> writes_mem
/-- Stretch 1 leaves alone every buffer it does not write. -/
theorem ops1_keeps (W : Valuation τ sig (Elt F)) (r : Ref sig .tc) (h : r ∉ ops1_W) :
    after ops1 W (Proc.devRef .tc r) = W (Proc.devRef .tc r) :=
  after_of_writes_sub ops1 W ops1_writes h

/-- Stretch 2: the mean over the batch (`main_v11`) and the variance (`main_v18`) of `main_v8`. -/
abbrev ops2 : List (HloOp τ sig (Elt F)) :=
  [ nullary main_cst_2 (constant S_ .f32 0x00000000#32),
    binary main_v8 main_cst_2 main_v9 ((fun x v => Host.reduceAdd x v reducesTo_S32768x100_S100_d0 h_S_) : (⟨S32768x100, .f32⟩ : BufTy).Contents (Elt F) → (⟨S_, .f32⟩ : BufTy).Contents (Elt F) → (⟨S100, .f32⟩ : BufTy).Contents (Elt F)),
    nullary main_cst_3 (constant S_ .f32 0x47000000#32),
    unary main_cst_3 main_v10 (broadcastInDim S100 ![] bcast_S_S100 : (⟨S_, .f32⟩ : BufTy).Contents (Elt F) → (⟨S100, .f32⟩ : BufTy).Contents (Elt F)),
    binary main_v9 main_v10 main_v11 (Host.divf : (⟨S100, .f32⟩ : BufTy).Contents (Elt F) → (⟨S100, .f32⟩ : BufTy).Contents (Elt F) → (⟨S100, .f32⟩ : BufTy).Contents (Elt F)),
    unary main_v11 main_v12 (broadcastInDim S1x100 ![1] bcast_S100_S1x100_1 : (⟨S100, .f32⟩ : BufTy).Contents (Elt F) → (⟨S1x100, .f32⟩ : BufTy).Contents (Elt F)),
    unary main_v12 main_v13 (broadcastInDim S32768x100 ![0, 1] bcast_S1x100_S32768x100_0_1 : (⟨S1x100, .f32⟩ : BufTy).Contents (Elt F) → (⟨S32768x100, .f32⟩ : BufTy).Contents (Elt F)),
    binary main_v8 main_v13 main_v14 (subf : (⟨S32768x100, .f32⟩ : BufTy).Contents (Elt F) → (⟨S32768x100, .f32⟩ : BufTy).Contents (Elt F) → (⟨S32768x100, .f32⟩ : BufTy).Contents (Elt F)),
    binary main_v14 main_v14 main_v15 (mulf : (⟨S32768x100, .f32⟩ : BufTy).Contents (Elt F) → (⟨S32768x100, .f32⟩ : BufTy).Contents (Elt F) → (⟨S32768x100, .f32⟩ : BufTy).Contents (Elt F)),
    nullary main_cst_4 (constant S_ .f32 0x00000000#32),
    binary main_v15 main_cst_4 main_v16 ((fun x v => Host.reduceAdd x v reducesTo_S32768x100_S100_d0 h_S_) : (⟨S32768x100, .f32⟩ : BufTy).Contents (Elt F) → (⟨S_, .f32⟩ : BufTy).Contents (Elt F) → (⟨S100, .f32⟩ : BufTy).Contents (Elt F)),
    nullary main_cst_5 (constant S_ .f32 0x47000000#32),
    unary main_cst_5 main_v17 (broadcastInDim S100 ![] bcast_S_S100 : (⟨S_, .f32⟩ : BufTy).Contents (Elt F) → (⟨S100, .f32⟩ : BufTy).Contents (Elt F)),
    binary main_v16 main_v17 main_v18 (Host.divf : (⟨S100, .f32⟩ : BufTy).Contents (Elt F) → (⟨S100, .f32⟩ : BufTy).Contents (Elt F) → (⟨S100, .f32⟩ : BufTy).Contents (Elt F)) ]

theorem ops2_sub : (ops2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem ops2_fresh : (ops2 : List (HloOp τ sig (Elt F))).Forall fun op => op.fresh = ∅ := by
  simp only [List.Forall]; repeat' constructor
/-- The references stretch 2 writes. -/
abbrev ops2_W : List (Ref sig .tc) := [main_cst_2, main_v9, main_cst_3, main_v10, main_v11, main_v12, main_v13, main_v14, main_v15, main_cst_4, main_v16, main_cst_5, main_v17, main_v18]
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_⟩ <;> writes_mem
/-- Stretch 2 leaves alone every buffer it does not write. -/
theorem ops2_keeps (W : Valuation τ sig (Elt F)) (r : Ref sig .tc) (h : r ∉ ops2_W) :
    after ops2 W (Proc.devRef .tc r) = W (Proc.devRef .tc r) :=
  after_of_writes_sub ops2 W ops2_writes h

/-- Stretch 3: centring, scaling by the inverse deviation, the learnt scale and shift — up to `main_v33`. -/
abbrev ops3 : List (HloOp τ sig (Elt F)) :=
  [ unary main_v11 main_v19 (broadcastInDim S1x100 ![1] bcast_S100_S1x100_1 : (⟨S100, .f32⟩ : BufTy).Contents (Elt F) → (⟨S1x100, .f32⟩ : BufTy).Contents (Elt F)),
    unary main_v19 main_v20 (broadcastInDim S32768x100 ![0, 1] bcast_S1x100_S32768x100_0_1 : (⟨S1x100, .f32⟩ : BufTy).Contents (Elt F) → (⟨S32768x100, .f32⟩ : BufTy).Contents (Elt F)),
    binary main_v8 main_v20 main_v21 (subf : (⟨S32768x100, .f32⟩ : BufTy).Contents (Elt F) → (⟨S32768x100, .f32⟩ : BufTy).Contents (Elt F) → (⟨S32768x100, .f32⟩ : BufTy).Contents (Elt F)),
    nullary main_cst_6 (constant S_ .f32 0x38D1B717#32),
    unary main_cst_6 main_v22 (broadcastInDim S100 ![] bcast_S_S100 : (⟨S_, .f32⟩ : BufTy).Contents (Elt F) → (⟨S100, .f32⟩ : BufTy).Contents (Elt F)),
    binary main_v18 main_v22 main_v23 (addf : (⟨S100, .f32⟩ : BufTy).Contents (Elt F) → (⟨S100, .f32⟩ : BufTy).Contents (Elt F) → (⟨S100, .f32⟩ : BufTy).Contents (Elt F)),
    unary main_v23 main_v24 (Host.rsqrt : (⟨S100, .f32⟩ : BufTy).Contents (Elt F) → (⟨S100, .f32⟩ : BufTy).Contents (Elt F)),
    unary main_v24 main_v25 (broadcastInDim S1x100 ![1] bcast_S100_S1x100_1 : (⟨S100, .f32⟩ : BufTy).Contents (Elt F) → (⟨S1x100, .f32⟩ : BufTy).Contents (Elt F)),
    unary main_v25 main_v26 (broadcastInDim S32768x100 ![0, 1] bcast_S1x100_S32768x100_0_1 : (⟨S1x100, .f32⟩ : BufTy).Contents (Elt F) → (⟨S32768x100, .f32⟩ : BufTy).Contents (Elt F)),
    binary main_v21 main_v26 main_v27 (mulf : (⟨S32768x100, .f32⟩ : BufTy).Contents (Elt F) → (⟨S32768x100, .f32⟩ : BufTy).Contents (Elt F) → (⟨S32768x100, .f32⟩ : BufTy).Contents (Elt F)),
    unary main_arg3 main_v28 (broadcastInDim S1x100 ![1] bcast_S100_S1x100_1 : (⟨S100, .f32⟩ : BufTy).Contents (Elt F) → (⟨S1x100, .f32⟩ : BufTy).Contents (Elt F)),
    unary main_v28 main_v29 (broadcastInDim S32768x100 ![0, 1] bcast_S1x100_S32768x100_0_1 : (⟨S1x100, .f32⟩ : BufTy).Contents (Elt F) → (⟨S32768x100, .f32⟩ : BufTy).Contents (Elt F)),
    binary main_v27 main_v29 main_v30 (mulf : (⟨S32768x100, .f32⟩ : BufTy).Contents (Elt F) → (⟨S32768x100, .f32⟩ : BufTy).Contents (Elt F) → (⟨S32768x100, .f32⟩ : BufTy).Contents (Elt F)),
    unary main_arg4 main_v31 (broadcastInDim S1x100 ![1] bcast_S100_S1x100_1 : (⟨S100, .f32⟩ : BufTy).Contents (Elt F) → (⟨S1x100, .f32⟩ : BufTy).Contents (Elt F)),
    unary main_v31 main_v32 (broadcastInDim S32768x100 ![0, 1] bcast_S1x100_S32768x100_0_1 : (⟨S1x100, .f32⟩ : BufTy).Contents (Elt F) → (⟨S32768x100, .f32⟩ : BufTy).Contents (Elt F)),
    binary main_v30 main_v32 main_v33 (addf : (⟨S32768x100, .f32⟩ : BufTy).Contents (Elt F) → (⟨S32768x100, .f32⟩ : BufTy).Contents (Elt F) → (⟨S32768x100, .f32⟩ : BufTy).Contents (Elt F)) ]

theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops3_fresh : (ops3 : List (HloOp τ sig (Elt F))).Forall fun op => op.fresh = ∅ := by
  simp only [List.Forall]; repeat' constructor
/-- The references stretch 3 writes. -/
abbrev ops3_W : List (Ref sig .tc) := [main_v19, main_v20, main_v21, main_cst_6, main_v22, main_v23, main_v24, main_v25, main_v26, main_v27, main_v28, main_v29, main_v30, main_v31, main_v32, main_v33]
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_⟩ <;> writes_mem
/-- Stretch 3 leaves alone every buffer it does not write. -/
theorem ops3_keeps (W : Valuation τ sig (Elt F)) (r : Ref sig .tc) (h : r ∉ ops3_W) :
    after ops3 W (Proc.devRef .tc r) = W (Proc.devRef .tc r) :=
  after_of_writes_sub ops3 W ops3_writes h

/-- Stretch 4: the sign of `main_v33` — up to `main_v37`. -/
abbrev ops4 : List (HloOp τ sig (Elt F)) :=
  [ nullary main_cst_7 (constant S_ .f32 0x00000000#32),
    unary main_cst_7 main_v34 (broadcastInDim S32768x100 ![] bcast_S_S32768x100 : (⟨S_, .f32⟩ : BufTy).Contents (Elt F) → (⟨S32768x100, .f32⟩ : BufTy).Contents (Elt F)),
    binary main_v33 main_v34 main_v35 (cmpf .oge : (⟨S32768x100, .f32⟩ : BufTy).Contents (Elt F) → (⟨S32768x100, .f32⟩ : BufTy).Contents (Elt F) → (⟨S32768x100, .i1⟩ : BufTy).Contents (Elt F)),
    nullary main_cst_8 (constant S_ .f32 0x3F800000#32),
    nullary main_cst_9 (constant S_ .f32 0xBF800000#32),
    TRef.unary (TRef.of (T := ⟨S_, .f32⟩) main_cst_8) (TRef.of (T := ⟨S32768x100, .f32⟩) main_call1_v0) (broadcastInDim S32768x100 ![] bcast_S_S32768x100),
    TRef.unary (TRef.of (T := ⟨S_, .f32⟩) main_cst_9) (TRef.of (T := ⟨S32768x100, .f32⟩) main_call1_v1) (broadcastInDim S32768x100 ![] bcast_S_S32768x100),
    TRef.ternary (TRef.of (T := ⟨S32768x100, .i1⟩) main_v35) (TRef.of (T := ⟨S32768x100, .f32⟩) main_call1_v0) (TRef.of (T := ⟨S32768x100, .f32⟩) main_call1_v1) (TRef.of (T := ⟨S32768x100, .f32⟩) main_v36) select,
    unary main_v36 main_v37 (id : (⟨S32768x100, .f32⟩ : BufTy).Contents (Elt F) → (⟨S32768x100, .f32⟩ : BufTy).Contents (Elt F)) ]

theorem ops4_sub : (ops4 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub ..⟩
theorem ops4_fresh : (ops4 : List (HloOp τ sig (Elt F))).Forall fun op => op.fresh = ∅ := by
  simp only [List.Forall]; repeat' constructor
/-- The references stretch 4 writes. -/
abbrev ops4_W : List (Ref sig .tc) := [main_cst_7, main_v34, main_v35, main_cst_8, main_cst_9, main_call1_v0, main_call1_v1, main_v36, main_v37]
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_⟩ <;> writes_mem
/-- Stretch 4 leaves alone every buffer it does not write. -/
theorem ops4_keeps (W : Valuation τ sig (Elt F)) (r : Ref sig .tc) (h : r ∉ ops4_W) :
    after ops4 W (Proc.devRef .tc r) = W (Proc.devRef .tc r) :=
  after_of_writes_sub ops4 W ops4_writes h

/-- Stretch 5: the sign of the second weight matrix, its product with `main_v37` and the bias — up to `main_v46`. -/
abbrev ops5 : List (HloOp τ sig (Elt F)) :=
  [ nullary main_cst_10 (constant S_ .f32 0x00000000#32),
    unary main_cst_10 main_v38 (broadcastInDim S1000x100 ![] bcast_S_S1000x100 : (⟨S_, .f32⟩ : BufTy).Contents (Elt F) → (⟨S1000x100, .f32⟩ : BufTy).Contents (Elt F)),
    binary main_arg5 main_v38 main_v39 (cmpf .oge : (⟨S1000x100, .f32⟩ : BufTy).Contents (Elt F) → (⟨S1000x100, .f32⟩ : BufTy).Contents (Elt F) → (⟨S1000x100, .i1⟩ : BufTy).Contents (Elt F)),
    nullary main_cst_11 (constant S_ .f32 0x3F800000#32),
    nullary main_cst_12 (constant S_ .f32 0xBF800000#32),
    TRef.unary (TRef.of (T := ⟨S_, .f32⟩) main_cst_11) (TRef.of (T := ⟨S1000x100, .f32⟩) main_call2_v0) (broadcastInDim S1000x100 ![] bcast_S_S1000x100),
    TRef.unary (TRef.of (T := ⟨S_, .f32⟩) main_cst_12) (TRef.of (T := ⟨S1000x100, .f32⟩) main_call2_v1) (broadcastInDim S1000x100 ![] bcast_S_S1000x100),
    TRef.ternary (TRef.of (T := ⟨S1000x100, .i1⟩) main_v39) (TRef.of (T := ⟨S1000x100, .f32⟩) main_call2_v0) (TRef.of (T := ⟨S1000x100, .f32⟩) main_call2_v1) (TRef.of (T := ⟨S1000x100, .f32⟩) main_v40) select,
    unary main_v40 main_v41 (id : (⟨S1000x100, .f32⟩ : BufTy).Contents (Elt F) → (⟨S1000x100, .f32⟩ : BufTy).Contents (Elt F)),
    unary main_v41 main_v42 ((transpose S100x1000 [1, 0] · transposes_S1000x100_S100x1000_1_0) : (⟨S1000x100, .f32⟩ : BufTy).Contents (Elt F) → (⟨S100x1000, .f32⟩ : BufTy).Contents (Elt F)),
    binary main_v37 main_v42 main_v43 ((fun l r => Host.dotGeneral dot_S32768x100_S100x1000_S32768x1000_1_0_0_1_n_n none l r) : (⟨S32768x100, .f32⟩ : BufTy).Contents (Elt F) → (⟨S100x1000, .f32⟩ : BufTy).Contents (Elt F) → (⟨S32768x1000, .f32⟩ : BufTy).Contents (Elt F)),
    unary main_arg6 main_v44 (broadcastInDim S1x1000 ![1] bcast_S1000_S1x1000_1 : (⟨S1000, .f32⟩ : BufTy).Contents (Elt F) → (⟨S1x1000, .f32⟩ : BufTy).Contents (Elt F)),
    unary main_v44 main_v45 (broadcastInDim S32768x1000 ![0, 1] bcast_S1x1000_S32768x1000_0_1 : (⟨S1x1000, .f32⟩ : BufTy).Contents (Elt F) → (⟨S32768x1000, .f32⟩ : BufTy).Contents (Elt F)),
    binary main_v43 main_v45 main_v46 (addf : (⟨S32768x1000, .f32⟩ : BufTy).Contents (Elt F) → (⟨S32768x1000, .f32⟩ : BufTy).Contents (Elt F) → (⟨S32768x1000, .f32⟩ : BufTy).Contents (Elt F)) ]

theorem ops5_sub : (ops5 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
theorem ops5_fresh : (ops5 : List (HloOp τ sig (Elt F))).Forall fun op => op.fresh = ∅ := by
  simp only [List.Forall]; repeat' constructor
/-- The references stretch 5 writes. -/
abbrev ops5_W : List (Ref sig .tc) := [main_cst_10, main_v38, main_v39, main_cst_11, main_cst_12, main_call2_v0, main_call2_v1, main_v40, main_v41, main_v42, main_v43, main_v44, main_v45, main_v46]
theorem ops5_writes : (ops5 : List (HloOp τ sig (Elt F))).Forall fun op => op.writes ⊆ (ops5_W.map (Proc.devRef (τ := τ) .tc)).toFinset := by
  simp only [List.Forall]
  refine ⟨?_, ?_, ?_, ?_, ?_, ?_, ?_, ?_, ?_, ?_, ?_, ?_, ?_, ?_⟩ <;> writes_mem
/-- Stretch 5 leaves alone every buffer it does not write. -/
theorem ops5_keeps (W : Valuation τ sig (Elt F)) (r : Ref sig .tc) (h : r ∉ ops5_W) :
    after ops5 W (Proc.devRef .tc r) = W (Proc.devRef .tc r) :=
  after_of_writes_sub ops5 W ops5_writes h

/-- Stretch 6: the log-softmax of `main_v46` along the classes — up to `main_v47`. -/
abbrev ops6 : List (HloOp τ sig (Elt F)) :=
  [ TRef.nullary (TRef.of (T := ⟨S_, .f32⟩) main_call3_cst) (constant S_ .f32 0xFF800000#32),
    TRef.binary (TRef.of (T := ⟨S32768x1000, .f32⟩) main_v46) (TRef.of (T := ⟨S_, .f32⟩) main_call3_cst) (TRef.of (T := ⟨S32768, .f32⟩) main_call3_v0) (fun x v => Host.reduce FloatOps.maximumf x v reducesTo_S32768x1000_S32768_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S32768, .f32⟩) main_call3_v1) (broadcastInDim S32768 ![] bcast_S_S32768),
    TRef.binary (TRef.of (T := ⟨S32768, .f32⟩) main_call3_v1) (TRef.of (T := ⟨S32768, .f32⟩) main_call3_v0) (TRef.of (T := ⟨S32768, .f32⟩) main_call3_v2) maximumf,
    TRef.unary (TRef.of (T := ⟨S32768, .f32⟩) main_call3_v2) (TRef.of (T := ⟨S32768x1, .f32⟩) main_call3_v3) (broadcastInDim S32768x1 ![0] bcast_S32768_S32768x1_0),
    TRef.unary (TRef.of (T := ⟨S32768x1, .f32⟩) main_call3_v3) (TRef.of (T := ⟨S32768x1000, .f32⟩) main_call3_v4) (broadcastInDim S32768x1000 ![0, 1] bcast_S32768x1_S32768x1000_0_1),
    TRef.binary (TRef.of (T := ⟨S32768x1000, .f32⟩) main_v46) (TRef.of (T := ⟨S32768x1000, .f32⟩) main_call3_v4) (TRef.of (T := ⟨S32768x1000, .f32⟩) main_call3_v5) subf,
    TRef.unary (TRef.of (T := ⟨S32768x1000, .f32⟩) main_call3_v5) (TRef.of (T := ⟨S32768x1000, .f32⟩) main_call3_v6) Host.exp,
    TRef.nullary (TRef.of (T := ⟨S_, .f32⟩) main_call3_cst_1) (constant S_ .f32 0x00000000#32),
    TRef.binary (TRef.of (T := ⟨S32768x1000, .f32⟩) main_call3_v6) (TRef.of (T := ⟨S_, .f32⟩) main_call3_cst_1) (TRef.of (T := ⟨S32768, .f32⟩) main_call3_v7) (fun x v => Host.reduceAdd x v reducesTo_S32768x1000_S32768_d1 h_S_),
    TRef.unary (TRef.of (T := ⟨S32768, .f32⟩) main_call3_v7) (TRef.of (T := ⟨S32768x1, .f32⟩) main_call3_v8) (broadcastInDim S32768x1 ![0] bcast_S32768_S32768x1_0),
    TRef.unary (TRef.of (T := ⟨S32768x1, .f32⟩) main_call3_v8) (TRef.of (T := ⟨S32768x1, .f32⟩) main_call3_v9) Host.log,
    TRef.unary (TRef.of (T := ⟨S32768x1, .f32⟩) main_call3_v9) (TRef.of (T := ⟨S32768x1000, .f32⟩) main_call3_v10) (broadcastInDim S32768x1000 ![0, 1] bcast_S32768x1_S32768x1000_0_1),
    TRef.binary (TRef.of (T := ⟨S32768x1000, .f32⟩) main_call3_v5) (TRef.of (T := ⟨S32768x1000, .f32⟩) main_call3_v10) (TRef.of (T := ⟨S32768x1000, .f32⟩) main_v47) subf ]

theorem ops6_sub : (ops6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops6_fresh : (ops6 : List (HloOp τ sig (Elt F))).Forall fun op => op.fresh = ∅ := by
  simp only [List.Forall]; repeat' constructor
/-- The references stretch 6 writes. -/
abbrev ops6_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v47]
theorem ops6_writes : (ops6 : List (HloOp τ sig (Elt F))).Forall fun op => op.writes ⊆ (ops6_W.map (Proc.devRef (τ := τ) .tc)).toFinset := by
  simp only [List.Forall]
  refine ⟨?_, ?_, ?_, ?_, ?_, ?_, ?_, ?_, ?_, ?_, ?_, ?_, ?_, ?_, ?_⟩ <;> writes_mem
/-- Stretch 6 leaves alone every buffer it does not write. -/
theorem ops6_keeps (W : Valuation τ sig (Elt F)) (r : Ref sig .tc) (h : r ∉ ops6_W) :
    after ops6 W (Proc.devRef .tc r) = W (Proc.devRef .tc r) :=
  after_of_writes_sub ops6 W ops6_writes h

/-- @main's 82 operations, in order: the six stretches one after the other. -/
abbrev ops : List (HloOp τ sig (Elt F)) := ops1 ++ (ops2 ++ (ops3 ++ (ops4 ++ (ops5 ++ ops6))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## Typed references at literal buffers

A called function's operations are stated over typed references, and move each operand and result between the
tensor value's type and the buffer's own along the reference's type equation. The two moves undo each other; and at
a reference made from a literal buffer at that buffer's own type each is the identity. -/

/-- Moving a value to a typed reference's buffer type and back gives the value. -/
theorem ofBuf_toBuf {T : BufTy} (x : TRef sig T) (v : T.Contents (Elt F)) : x.ofBuf (x.toBuf v) = v := by
  obtain ⟨r, rfl, _, _⟩ := x
  rfl

/-- At a buffer's own type the move to the buffer is the identity. -/
theorem toBuf_self (r : Ref sig .tc) (p : r.ty = r.ty) (q : r.space ≠ .host) (s : r.isScoped = false)
    (v : r.ty.Contents (Elt F)) : (TRef.of (T := r.ty) r p q s).toBuf v = v := rfl

/-- At a buffer's own type the move from the buffer is the identity. -/
theorem ofBuf_self (r : Ref sig .tc) (p : r.ty = r.ty) (q : r.space ≠ .host) (s : r.isScoped = false)
    (v : r.ty.Contents (Elt F)) : (TRef.of (T := r.ty) r p q s).ofBuf v = v := rfl

/-! ## What each stretch leaves in the buffers read after it

Each statement is over an arbitrary valuation `W` of the buffers before the stretch. A value the stretch takes over
from an earlier one enters as a hypothesis `W ‹buffer› = ‹stage›`, so that the stages compose without ever being
opened: the fold over the stretch is unrolled, each operation's result read at its own buffer and passed over at
every other, the hypotheses rewritten in, and what is left is the stage's own definition. -/

/-- After stretch 1, `main_v8` holds the first affine layer of the arguments `W` holds. -/
theorem ops1_v8 (W : Valuation τ sig (Elt F)) :
    after ops1 W (Proc.devRef .tc main_v8)
      = val_main_v8 (F := F) (W (Proc.devRef .tc main_arg0)) (W (Proc.devRef .tc main_arg1)) (W (Proc.devRef .tc main_arg2)) := by
  after_results
  simp only [TRef.ofBuf, TRef.toBuf, cast_eq]
  generalize W (Proc.devRef .tc main_arg0) = x0
  generalize W (Proc.devRef .tc main_arg1) = x1
  generalize W (Proc.devRef .tc main_arg2) = x2
  rfl

/-- After stretch 2, `main_v11` holds the batch mean of the `main_v8` before it. -/
theorem ops2_v11 (W : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F))
    (h8 : W (Proc.devRef .tc main_v8) = val_main_v8 (F := F) x0 x1 x2) :
    after ops2 W (Proc.devRef .tc main_v11) = val_main_v11 (F := F) x0 x1 x2 := by
  after_results
  rw [h8]
  rfl

/-- After stretch 2, `main_v18` holds the batch variance of the `main_v8` before it. -/
theorem ops2_v18 (W : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F))
    (h8 : W (Proc.devRef .tc main_v8) = val_main_v8 (F := F) x0 x1 x2) :
    after ops2 W (Proc.devRef .tc main_v18) = val_main_v18 (F := F) x0 x1 x2 := by
  after_results
  rw [h8]
  rfl

/-- After stretch 3, `main_v33` holds the normalized activations, scaled and shifted. -/
theorem ops3_v33 (W : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F)) (x3 : (⟨S100, .f32⟩ : BufTy).Contents (Elt F)) (x4 : (⟨S100, .f32⟩ : BufTy).Contents (Elt F))
    (h8 : W (Proc.devRef .tc main_v8) = val_main_v8 (F := F) x0 x1 x2)
    (h11 : W (Proc.devRef .tc main_v11) = val_main_v11 (F := F) x0 x1 x2)
    (h18 : W (Proc.devRef .tc main_v18) = val_main_v18 (F := F) x0 x1 x2)
    (h3 : W (Proc.devRef .tc main_arg3) = x3) (h4 : W (Proc.devRef .tc main_arg4) = x4) :
    after ops3 W (Proc.devRef .tc main_v33) = val_main_v33 (F := F) x0 x1 x2 x3 x4 := by
  after_results
  rw [h8, h11, h18, h3, h4]
  rfl

/-- After stretch 4, `main_v37` holds the sign of the `main_v33` before it. -/
theorem ops4_v37 (W : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F)) (x3 : (⟨S100, .f32⟩ : BufTy).Contents (Elt F)) (x4 : (⟨S100, .f32⟩ : BufTy).Contents (Elt F))
    (h33 : W (Proc.devRef .tc main_v33) = val_main_v33 (F := F) x0 x1 x2 x3 x4) :
    after ops4 W (Proc.devRef .tc main_v37) = val_main_v37 (F := F) x0 x1 x2 x3 x4 := by
  after_results
  simp only [TRef.ofBuf, TRef.toBuf, cast_eq]
  rw [h33]
  rfl

/-- After stretch 5, `main_v46` holds the second affine layer. -/
theorem ops5_v46 (W : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F)) (x3 : (⟨S100, .f32⟩ : BufTy).Contents (Elt F)) (x4 : (⟨S100, .f32⟩ : BufTy).Contents (Elt F)) (x5 : (⟨S1000x100, .f32⟩ : BufTy).Contents (Elt F)) (x6 : (⟨S1000, .f32⟩ : BufTy).Contents (Elt F))
    (h37 : W (Proc.devRef .tc main_v37) = val_main_v37 (F := F) x0 x1 x2 x3 x4)
    (h5 : W (Proc.devRef .tc main_arg5) = x5) (h6 : W (Proc.devRef .tc main_arg6) = x6) :
    after ops5 W (Proc.devRef .tc main_v46) = val_main_v46 (F := F) x0 x1 x2 x3 x4 x5 x6 := by
  after_results
  simp only [TRef.ofBuf, TRef.toBuf, cast_eq]
  rw [h37, h5, h6]
  rfl

/-- After stretch 6, `main_v47` holds the log-softmax of the `main_v46` before it. -/
theorem ops6_v47 (W : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F)) (x3 : (⟨S100, .f32⟩ : BufTy).Contents (Elt F)) (x4 : (⟨S100, .f32⟩ : BufTy).Contents (Elt F)) (x5 : (⟨S1000x100, .f32⟩ : BufTy).Contents (Elt F)) (x6 : (⟨S1000, .f32⟩ : BufTy).Contents (Elt F))
    (h46 : W (Proc.devRef .tc main_v46) = val_main_v46 (F := F) x0 x1 x2 x3 x4 x5 x6) :
    after ops6 W (Proc.devRef .tc main_v47) = val_main_v47 (F := F) x0 x1 x2 x3 x4 x5 x6 := by
  have h46' : (TRef.of (T := ⟨S32768x1000, .f32⟩) main_v46).ofBuf (W (Proc.devRef .tc main_v46))
      = val_main_v46 (F := F) x0 x1 x2 x3 x4 x5 x6 := h46
  after_results
  rw [h46']
  repeat rw [ofBuf_toBuf]
  refine (toBuf_self main_v47 _ _ _ _).trans ?_
  rfl

/-! ## The whole line -/

theorem ops_sub : (ops : List (HloOp τ sig (Elt F))).Forall fun op => op.bufs ⊆ tcRefs τ sig :=
  List.forall_append.2 ⟨ops1_sub, List.forall_append.2 ⟨ops2_sub, List.forall_append.2 ⟨ops3_sub,
    List.forall_append.2 ⟨ops4_sub, List.forall_append.2 ⟨ops5_sub, ops6_sub⟩⟩⟩⟩⟩

/-- Every operation of the line determines its results. -/
theorem ops_fresh : ∀ op ∈ (ops : List (HloOp τ sig (Elt F))), op.fresh = ∅ :=
  List.forall_iff_forall_mem.1 (List.forall_append.2 ⟨ops1_fresh, List.forall_append.2 ⟨ops2_fresh, List.forall_append.2 ⟨ops3_fresh,
    List.forall_append.2 ⟨ops4_fresh, List.forall_append.2 ⟨ops5_fresh, ops6_fresh⟩⟩⟩⟩⟩)

/-- The buffers after the whole line are the buffers after the six stretches in turn. -/
theorem after_ops (V : Valuation τ sig (Elt F)) :
    after ops V = after ops6 (after ops5 (after ops4 (after ops3 (after ops2 (after ops1 V))))) := by
  show after (ops1 ++ (ops2 ++ (ops3 ++ (ops4 ++ (ops5 ++ ops6))))) V = _
  rw [StableHlo.after_append, StableHlo.after_append, StableHlo.after_append, StableHlo.after_append, StableHlo.after_append]

/-- A buffer no stretch writes is after the line as before it. -/
theorem ops_keeps (V : Valuation τ sig (Elt F)) (r : Ref sig .tc) (h1 : r ∉ ops1_W) (h2 : r ∉ ops2_W) (h3 : r ∉ ops3_W)
    (h4 : r ∉ ops4_W) (h5 : r ∉ ops5_W) (h6 : r ∉ ops6_W) :
    after ops V (Proc.devRef .tc r) = V (Proc.devRef .tc r) := by
  rw [after_ops]
  exact (ops6_keeps _ r h6).trans <| (ops5_keeps _ r h5).trans <| (ops4_keeps _ r h4).trans <|
    (ops3_keeps _ r h3).trans <| (ops2_keeps _ r h2).trans (ops1_keeps V r h1)

/-- After the whole line `main_v47` holds the last stage of the arguments the line started from: each stretch's
    statement at the valuation the stretches before it leave, the values it takes over carried past the stretches
    that do not write them. -/
theorem ops_v47 (V : Valuation τ sig (Elt F)) :
    after ops V (Proc.devRef .tc main_v47) = val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  have a3 : (after ops2 (after ops1 V)) (Proc.devRef .tc main_arg3) = V (Proc.devRef .tc main_arg3) :=
    (ops2_keeps _ main_arg3 (by decide)).trans (ops1_keeps _ main_arg3 (by decide))
  have a4 : (after ops2 (after ops1 V)) (Proc.devRef .tc main_arg4) = V (Proc.devRef .tc main_arg4) :=
    (ops2_keeps _ main_arg4 (by decide)).trans (ops1_keeps _ main_arg4 (by decide))
  have a5 : (after ops4 (after ops3 (after ops2 (after ops1 V)))) (Proc.devRef .tc main_arg5) = V (Proc.devRef .tc main_arg5) :=
    (ops4_keeps _ main_arg5 (by decide)).trans <| (ops3_keeps _ main_arg5 (by decide)).trans <| (ops2_keeps _ main_arg5 (by decide)).trans (ops1_keeps _ main_arg5 (by decide))
  have a6 : (after ops4 (after ops3 (after ops2 (after ops1 V)))) (Proc.devRef .tc main_arg6) = V (Proc.devRef .tc main_arg6) :=
    (ops4_keeps _ main_arg6 (by decide)).trans <| (ops3_keeps _ main_arg6 (by decide)).trans <| (ops2_keeps _ main_arg6 (by decide)).trans (ops1_keeps _ main_arg6 (by decide))
  have h8 := ops1_v8 V
  have h8' := (ops2_keeps (after ops1 V) main_v8 (by decide)).trans h8
  have h11 := ops2_v11 (after ops1 V) _ _ _ h8
  have h18 := ops2_v18 (after ops1 V) _ _ _ h8
  have h33 := ops3_v33 (after ops2 (after ops1 V)) _ _ _ (V (Proc.devRef .tc main_arg3)) (V (Proc.devRef .tc main_arg4)) h8' h11 h18 a3 a4
  have h37 := ops4_v37 (after ops3 (after ops2 (after ops1 V))) _ _ _ _ _ h33
  have h46 := ops5_v46 (after ops4 (after ops3 (after ops2 (after ops1 V)))) _ _ _ _ _ (V (Proc.devRef .tc main_arg5)) (V (Proc.devRef .tc main_arg6)) h37 a5 a6
  exact ops6_v47 (after ops5 (after ops4 (after ops3 (after ops2 (after ops1 V))))) _ _ _ _ _ _ _ h46

/-! ## The run -/

/-- On every device, for any float values, from any memory with zero counters: every weakly fair execution of
    @main terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v47).trans (ops_v47 (launchContents m c)),
      (h c main_arg0).trans (ops_keeps (launchContents m c) main_arg0 (by decide) (by decide) (by decide) (by decide) (by decide) (by decide)),
      (h c main_arg1).trans (ops_keeps (launchContents m c) main_arg1 (by decide) (by decide) (by decide) (by decide) (by decide) (by decide)),
      (h c main_arg2).trans (ops_keeps (launchContents m c) main_arg2 (by decide) (by decide) (by decide) (by decide) (by decide) (by decide)),
      (h c main_arg3).trans (ops_keeps (launchContents m c) main_arg3 (by decide) (by decide) (by decide) (by decide) (by decide) (by decide)),
      (h c main_arg4).trans (ops_keeps (launchContents m c) main_arg4 (by decide) (by decide) (by decide) (by decide) (by decide) (by decide)),
      (h c main_arg5).trans (ops_keeps (launchContents m c) main_arg5 (by decide) (by decide) (by decide) (by decide) (by decide) (by decide)),
      (h c main_arg6).trans (ops_keeps (launchContents m c) main_arg6 (by decide) (by decide) (by decide) (by decide) (by decide) (by decide))⟩)
    (run_seq scopedRefs_eq scopedSems_eq defs main (fun _ => ops) main_eq (fun _ => ops_sub) m ρ (fun _ => ops_fresh))

end Cert.ReferenceIdeal.RunH

end
-- ==== Proof.Val.Ref.lean ====
/-
  The reference's result, index by index, is the specification's.

  Read at an index (r, j) the reference computes: the first layer h r k = (∑ d, x r d · bin (W1 k d)) + b1 k, its
  transposed binarized weights read back at (k, d); each column's mean and its variance as the mean of the squared
  deviations; the activation bin (((h − mean) · rsqrt (var + ε)) · γ + β); the logits (∑ k, a r k · bin (W2 j k)) + b2 j;
  the row's maximum folded from minus infinity; and the log-softmax about the shift max (−∞) (row maximum). Each stage
  is one lemma at coordinates; a sum's zero initial value is dropped, and the select on the comparison "at least zero"
  between the words of 1 and −1 is the binarization.
-/
import proofs.«178065_j47201690583460_1_alg».proof.Proof.Val.RefRead
import proofs.«178065_j47201690583460_1_alg».proof.Proof.Val.Spec
import Idealize.ShloMosaic.Lib.ValueIdx
import Idealize.ShloMosaic.Lib.Pipeline.Value
import Idealize.ShloMosaic.PureOps.Ideal.Laws

noncomputable section

namespace Cert.ReferenceIdeal.RefSpec

open Cert.ReferenceIdeal Cert.ReferenceIdeal.Gen Cert.ReferenceIdeal.ReadP Idealize.ShloMosaic Idealize.ShloMosaic.ValueIdx

section
variable (x0 : (⟨S32768x4096, .f32⟩ : BufTy).Contents (Elt Ideal)) (x1 : (⟨S100x4096, .f32⟩ : BufTy).Contents (Elt Ideal))
  (x2 x3 x4 : (⟨S100, .f32⟩ : BufTy).Contents (Elt Ideal)) (x5 : (⟨S1000x100, .f32⟩ : BufTy).Contents (Elt Ideal))
  (x6 : (⟨S1000, .f32⟩ : BufTy).Contents (Elt Ideal))

/-! The arguments as curried arrays over their coordinates. -/
abbrev cX : Fin 32768 → Fin 4096 → EReal := fun r d => x0 (ix2 r d)
abbrev cW1 : Fin 100 → Fin 4096 → EReal := fun k d => x1 (ix2 k d)
abbrev cV (x : (⟨S100, .f32⟩ : BufTy).Contents (Elt Ideal)) : Fin 100 → EReal := fun k => x (ix1 k)
abbrev cW2 : Fin 1000 → Fin 100 → EReal := fun j k => x5 (ix2 j k)
abbrev cb2 : Fin 1000 → EReal := fun j => x6 (ix1 j)

/-- Binarization as both programs compute it: the select, on the comparison "at least zero", between the words of 1 and -1. -/
theorem select_bin (z : EReal) :
    Scalar.select (FloatOps.cmpf (F := Ideal) (φ := .f32) .oge z (FloatOps.ofBits (F := Ideal) .f32 0x00000000#32))
      (FloatOps.ofBits (F := Ideal) .f32 0x3F800000#32) (FloatOps.ofBits (F := Ideal) .f32 0xBF800000#32) = Cert.Spec.bin z := rfl

/-- The first weights, binarized, at (k, d). -/
theorem w1_bin (k : Fin 100) (d : Fin 4096) :
    val_main_v3 (F := Ideal) x1 (ix2 k d) = Cert.Spec.bin (x1 (ix2 k d)) := by
  rw [val_main_v3_apply, val_main_v2_apply, val_main_v1_apply, val_main_v0_apply, val_main_cst_apply,
    val_main_call0_v0_apply, val_main_cst_0_apply, val_main_call0_v1_apply, val_main_cst_1_apply]
  exact select_bin _

/-- The first layer at (r, k): the row of x against the binarized row k of the weights (the transposed operand read back), plus the bias. -/
theorem h_eq (r : Fin 32768) (k : Fin 100) :
    val_main_v8 (F := Ideal) x0 x1 x2 (ix2 r k) = Cert.Spec.H (cX x0) (cW1 x1) (cV x2) r k := by
  have el : ∀ d : Fin 4096, lidx_main_v5 (ix2 r k) d = ix2 r d := fun d =>
    funext fun a => Fin.ext (by match a with | ⟨0, _⟩ => rfl | ⟨1, _⟩ => rfl)
  have er : ∀ d : Fin 4096, idx_main_v4 (ridx_main_v5 (ix2 r k) d) = ix2 k d := fun d =>
    funext fun a => Fin.ext (by match a with | ⟨0, _⟩ => rfl | ⟨1, _⟩ => rfl)
  have eb : idx_main_v6 (idx_main_v7 (ix2 r k)) = ix1 k :=
    funext fun a => Fin.ext (by match a with | ⟨0, _⟩ => rfl)
  rw [val_main_v8_apply, val_main_v5_apply, val_main_v7_apply, val_main_v6_apply, eb]
  simp only [val_main_v4_apply, er, el, w1_bin]
  rfl

/-- The column mean at k. -/
theorem mean_eq (k : Fin 100) :
    val_main_v11 (F := Ideal) x0 x1 x2 (ix1 k) = Cert.Spec.meanR (Cert.Spec.H (cX x0) (cW1 x1) (cV x2)) k := by
  have e9 : ∀ r : Fin 32768, idx_main_v9 (ix1 k) r = ix2 r k := fun r =>
    funext fun a => Fin.ext (by match a with | ⟨0, _⟩ => rfl | ⟨1, _⟩ => rfl)
  rw [val_main_v11_apply, val_main_v9_apply, val_main_cst_2_apply, val_main_v10_apply, val_main_cst_3_apply]
  simp only [e9, h_eq]
  rw [Ideal.ofBits_def, Ideal.ofBits_zero_f32, zero_add]
  rfl

/-- The column variance at k: the mean of the squared deviations from the mean. -/
theorem var_eq (k : Fin 100) :
    val_main_v18 (F := Ideal) x0 x1 x2 (ix1 k) = Cert.Spec.varR (Cert.Spec.H (cX x0) (cW1 x1) (cV x2)) k := by
  have e16 : ∀ r : Fin 32768, idx_main_v16 (ix1 k) r = ix2 r k := fun r =>
    funext fun a => Fin.ext (by match a with | ⟨0, _⟩ => rfl | ⟨1, _⟩ => rfl)
  have e13 : ∀ r : Fin 32768, idx_main_v12 (idx_main_v13 (ix2 r k)) = ix1 k := fun r =>
    funext fun a => Fin.ext (by match a with | ⟨0, _⟩ => rfl)
  rw [val_main_v18_apply, val_main_v16_apply, val_main_cst_4_apply, val_main_v17_apply, val_main_cst_5_apply]
  simp only [val_main_v15_apply, val_main_v14_apply, val_main_v13_apply, val_main_v12_apply, e16, e13, h_eq, mean_eq]
  rw [Ideal.ofBits_def, Ideal.ofBits_zero_f32, zero_add]
  rfl

/-- The normalized, binarized activation at (r, k): the deviation from the mean, times the reciprocal square root of the guarded variance, times the scale, plus the shift, binarized. -/
theorem act_eq (r : Fin 32768) (k : Fin 100) :
    val_main_v37 (F := Ideal) x0 x1 x2 x3 x4 (ix2 r k)
      = Cert.Spec.actR (cV x3) (cV x4) (Cert.Spec.H (cX x0) (cW1 x1) (cV x2)) r k := by
  have e20 : idx_main_v19 (idx_main_v20 (ix2 r k)) = ix1 k :=
    funext fun a => Fin.ext (by match a with | ⟨0, _⟩ => rfl)
  have e26 : idx_main_v25 (idx_main_v26 (ix2 r k)) = ix1 k :=
    funext fun a => Fin.ext (by match a with | ⟨0, _⟩ => rfl)
  have e29 : idx_main_v28 (idx_main_v29 (ix2 r k)) = ix1 k :=
    funext fun a => Fin.ext (by match a with | ⟨0, _⟩ => rfl)
  have e32 : idx_main_v31 (idx_main_v32 (ix2 r k)) = ix1 k :=
    funext fun a => Fin.ext (by match a with | ⟨0, _⟩ => rfl)
  rw [val_main_v37_apply, val_main_v36_apply, val_main_v35_apply, val_main_v33_apply, val_main_v30_apply,
    val_main_v27_apply, val_main_v21_apply, val_main_v20_apply, val_main_v19_apply, e20,
    val_main_v26_apply, val_main_v25_apply, e26, val_main_v24_apply, val_main_v23_apply, val_main_v22_apply,
    val_main_cst_6_apply, val_main_v29_apply, val_main_v28_apply, e29, val_main_v32_apply, val_main_v31_apply, e32,
    val_main_v34_apply, val_main_cst_7_apply, val_main_call1_v0_apply, val_main_cst_8_apply,
    val_main_call1_v1_apply, val_main_cst_9_apply, h_eq, mean_eq, var_eq]
  exact select_bin _

/-- The second weights, binarized, at (j, k). -/
theorem w2_bin (j : Fin 1000) (k : Fin 100) :
    val_main_v41 (F := Ideal) x5 (ix2 j k) = Cert.Spec.bin (x5 (ix2 j k)) := by
  rw [val_main_v41_apply, val_main_v40_apply, val_main_v39_apply, val_main_v38_apply, val_main_cst_10_apply,
    val_main_call2_v0_apply, val_main_cst_11_apply, val_main_call2_v1_apply, val_main_cst_12_apply]
  exact select_bin _

/-- The logits at (r, j): the activation's row against the binarized row j of the second weights, plus the bias. -/
theorem logits_eq (r : Fin 32768) (j : Fin 1000) :
    val_main_v46 (F := Ideal) x0 x1 x2 x3 x4 x5 x6 (ix2 r j)
      = Cert.Spec.logits (cW2 x5) (cb2 x6) (Cert.Spec.actR (cV x3) (cV x4) (Cert.Spec.H (cX x0) (cW1 x1) (cV x2))) r j := by
  have el : ∀ k : Fin 100, lidx_main_v43 (ix2 r j) k = ix2 r k := fun k =>
    funext fun a => Fin.ext (by match a with | ⟨0, _⟩ => rfl | ⟨1, _⟩ => rfl)
  have er : ∀ k : Fin 100, idx_main_v42 (ridx_main_v43 (ix2 r j) k) = ix2 j k := fun k =>
    funext fun a => Fin.ext (by match a with | ⟨0, _⟩ => rfl | ⟨1, _⟩ => rfl)
  have eb : idx_main_v44 (idx_main_v45 (ix2 r j)) = ix1 j :=
    funext fun a => Fin.ext (by match a with | ⟨0, _⟩ => rfl)
  rw [val_main_v46_apply, val_main_v43_apply, val_main_v45_apply, val_main_v44_apply, eb]
  simp only [val_main_v42_apply, er, el, w2_bin, act_eq]
  rfl

/-- The row maximum at r: the fold of max from minus infinity over the row's 1000 logits. -/
theorem rowmax_eq (r : Fin 32768) :
    val_main_call3_v0 (F := Ideal) x0 x1 x2 x3 x4 x5 x6 (ix1 r)
      = Cert.Spec.rowMax (Cert.Spec.logits (cW2 x5) (cb2 x6) (Cert.Spec.actR (cV x3) (cV x4) (Cert.Spec.H (cX x0) (cW1 x1) (cV x2))) r) := by
  have hl : ∀ j : Fin 1000, val_main_v46 (F := Ideal) x0 x1 x2 x3 x4 x5 x6 (ix2 r j)
      = Cert.Spec.logits (cW2 x5) (cb2 x6) (Cert.Spec.actR (cV x3) (cV x4) (Cert.Spec.H (cX x0) (cW1 x1) (cV x2))) r j :=
    fun j => logits_eq x0 x1 x2 x3 x4 x5 x6 r j
  have h : S32768x1000.Reduces [1] S32768 := by decide
  unfold val_main_call3_v0
  generalize val_main_v46 (F := Ideal) x0 x1 x2 x3 x4 x5 x6 = y at hl ⊢
  refine (Host.reduce_eq_fold_single (FloatOps.maximumf (F := Ideal) (φ := .f32)) y _ reducesTo_S32768x1000_S32768_d1 h h_S_ (ix1 r)).trans ?_
  have hf : (y ∘ h.lift (ix1 r))
      = fun j : Fin 1000 => Cert.Spec.logits (cW2 x5) (cb2 x6) (Cert.Spec.actR (cV x3) (cV x4) (Cert.Spec.H (cX x0) (cW1 x1) (cV x2))) r j :=
    funext fun j => by
      show y (h.lift (ix1 r) j) = _
      rw [show h.lift (ix1 r) j = ix2 r j from
        funext fun a => Fin.ext (by match a with | ⟨0, _⟩ => rfl | ⟨1, _⟩ => rfl)]
      exact hl j
  rw [hf]
  rfl

/-- The log-softmax at (r, j) about the shift max (minus infinity) (row maximum). -/
theorem out_eq (r : Fin 32768) (j : Fin 1000) :
    val_main_v47 (F := Ideal) x0 x1 x2 x3 x4 x5 x6 (ix2 r j)
      = Cert.Spec.outR (cW2 x5) (cb2 x6) (Cert.Spec.actR (cV x3) (cV x4) (Cert.Spec.H (cX x0) (cW1 x1) (cV x2))) r j := by
  have e4 : ∀ j' : Fin 1000, idx_main_call3_v3 (idx_main_call3_v4 (ix2 r j')) = ix1 r := fun j' =>
    funext fun a => Fin.ext (by match a with | ⟨0, _⟩ => rfl)
  have e10 : idx_main_call3_v8 (idx_main_call3_v10 (ix2 r j)) = ix1 r :=
    funext fun a => Fin.ext (by match a with | ⟨0, _⟩ => rfl)
  have e7 : ∀ j' : Fin 1000, idx_main_call3_v7 (ix1 r) j' = ix2 r j' := fun j' =>
    funext fun a => Fin.ext (by match a with | ⟨0, _⟩ => rfl | ⟨1, _⟩ => rfl)
  -- the shifted logits at (r, j')
  have h5 : ∀ j' : Fin 1000, val_main_call3_v5 (F := Ideal) x0 x1 x2 x3 x4 x5 x6 (ix2 r j')
      = Cert.Spec.logits (cW2 x5) (cb2 x6) (Cert.Spec.actR (cV x3) (cV x4) (Cert.Spec.H (cX x0) (cW1 x1) (cV x2))) r j'
        - max Cert.Spec.cNegInf (Cert.Spec.rowMax (Cert.Spec.logits (cW2 x5) (cb2 x6) (Cert.Spec.actR (cV x3) (cV x4) (Cert.Spec.H (cX x0) (cW1 x1) (cV x2))) r)) := fun j' => by
    rw [val_main_call3_v5_apply, val_main_call3_v4_apply, val_main_call3_v3_apply, e4 j', val_main_call3_v2_apply,
      val_main_call3_v1_apply, val_main_call3_cst_0_apply, rowmax_eq, logits_eq]
    rfl
  rw [val_main_v47_apply, h5 j, val_main_call3_v10_apply, val_main_call3_v9_apply, val_main_call3_v8_apply, e10,
    val_main_call3_v7_apply, val_main_call3_cst_1_apply]
  simp only [val_main_call3_v6_apply, e7, h5]
  rw [Ideal.ofBits_def, Ideal.ofBits_zero_f32, zero_add]
  rfl

end

/-- The reference's result is the specification's, index by index. -/
theorem ref_eq (x0 : (⟨S32768x4096, .f32⟩ : BufTy).Contents (Elt Ideal)) (x1 : (⟨S100x4096, .f32⟩ : BufTy).Contents (Elt Ideal)) (x2 x3 x4 : (⟨S100, .f32⟩ : BufTy).Contents (Elt Ideal)) (x5 : (⟨S1000x100, .f32⟩ : BufTy).Contents (Elt Ideal)) (x6 : (⟨S1000, .f32⟩ : BufTy).Contents (Elt Ideal)) :
    Cert.ReferenceIdeal.ReadP.val_main_v47 (F := Ideal) x0 x1 x2 x3 x4 x5 x6 = fun i => Cert.Spec.referenceOut (fun r d => x0 (ValueIdx.ix2 r d)) (fun k d => x1 (ValueIdx.ix2 k d)) (fun k => x2 (ValueIdx.ix1 k)) (fun k => x3 (ValueIdx.ix1 k)) (fun k => x4 (ValueIdx.ix1 k)) (fun j k => x5 (ValueIdx.ix2 j k)) (fun j => x6 (ValueIdx.ix1 j)) (i 0) (i 1) := by
  funext i
  obtain ⟨r, j, rfl⟩ : ∃ (r : Fin 32768) (j : Fin 1000), i = ix2 r j := ⟨i 0, i 1, eq_ix2 i⟩
  exact out_eq x0 x1 x2 x3 x4 x5 x6 r j

end Cert.ReferenceIdeal.RefSpec

end
-- ==== Proof.lean ====
/-
  The certificate: a two-layer binarized network's training-mode forward pass — a linear layer with sign-binarized
  weights, batch normalization over the 32768 rows, a sign activation, a second binarized linear layer and a row-wise
  log-softmax — computed by two kernel passes (column sums of the first layer's output and of its square, carried in two
  scratch rows across 64 grid points; then the normalization folded into one scale row and one shift row on the host and
  applied in the second pass), against the plain reference.

  The frames. The kernel program runs as a one-operation host stretch, the statistics pass, an eighteen-operation host
  stretch and the output pass; the buffers' contents are followed through the four items, each pass's body obligation
  proved point by point (the statistics pass in three cases: the first point zeroes the two running sums, every point
  adds its 512 rows' column sums, the last point copies them out), and no item writes an argument. The same text,
  generic in the float instance, serves the word-level program and the idealized one. The reference is host operations
  only; its run is read back stretch by stretch.

  The value. On the extended reals the kernel's result is the specification's kernel formula of the arguments and the
  reference's is the reference formula; they differ in the normalization alone. On finite inputs the second moment minus
  the squared mean IS the mean squared deviation, a nonnegative real, so the guarded reciprocal square root is a real
  and h·(γρ) + (β − μ·γρ) = ((h − μ)·ρ)·γ + β by distributing; equal values binarize equally, and the reference's extra
  maximum with minus infinity is the identity.
-/
import proofs.«178065_j47201690583460_1_alg».proof.Defs
import proofs.«178065_j47201690583460_1_alg».proof.Proof.Gen.Kernel
import proofs.«178065_j47201690583460_1_alg».proof.Proof.Gen.KernelIdeal
import proofs.«178065_j47201690583460_1_alg».proof.Proof.Gen.ReferenceIdeal
import proofs.«178065_j47201690583460_1_alg».proof.Proof.Gen.Pre_finite_inputs
import proofs.«178065_j47201690583460_1_alg».proof.Proof.K.Launch
import proofs.«178065_j47201690583460_1_alg».proof.Proof.KI.Launch
import proofs.«178065_j47201690583460_1_alg».proof.Proof.Val.KVal
import proofs.«178065_j47201690583460_1_alg».proof.Proof.Val.Bridge
import proofs.«178065_j47201690583460_1_alg».proof.Proof.Val.Finite
import proofs.«178065_j47201690583460_1_alg».proof.Proof.Val.RefRun
import proofs.«178065_j47201690583460_1_alg».proof.Proof.Val.Ref

set_option maxRecDepth 16384

noncomputable section

namespace Cert.Proof

open Idealize.ShloMosaic Idealize.ShloMosaic.TcCoe Idealize.SL.Sem
open Idealize.ShloMosaic.ValueIdx

/-- The word-level program terminates and leaves its arguments as launched. -/
theorem frame_kernel : Cert.frame_Kernel := fun m ρ _ => Cert.Kernel.Hand.frame (F := Bits) m ρ

/-- So does the idealized program. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

open Cert.KernelIdeal.Val.Chain in
/-- From memories agreeing on the arguments both programs end at the reference formula of the arguments. -/
theorem algebraic : Cert.algebraic_KernelIdeal_ReferenceIdeal := by
  intro m ρ m' ρ' hpre hagree
  refine ⟨fun c => (fun i => Cert.Spec.referenceOut (Xm m c) (W1m m c) (b1m m c) (gm m c) (bem m c) (W2m m c) (b2m m c) (i 0) (i 1) : Cert.KernelIdeal.S32768x1000.Idx → EReal), ?_, ?_⟩
  · refine (θ_run Cert.KernelIdeal.defs _ _).mono (fun r h c => ?_) (Cert.KernelIdeal.Hand.run_all (F := Ideal) m ρ)
    obtain ⟨f0, -, f2, f3, f4, -, -⟩ := Cert.KernelIdeal.Val.Finite.finite_of_pre m hpre c
    refine ⟨?_,
      (h c _ (Cert.KernelIdeal.Hand.mem_ucRefs Cert.KernelIdeal.main_arg0 (by decide))).trans (Cert.KernelIdeal.Hand.B4_main_arg0 m c),
      (h c _ (Cert.KernelIdeal.Hand.mem_ucRefs Cert.KernelIdeal.main_arg1 (by decide))).trans (Cert.KernelIdeal.Hand.B4_main_arg1 m c),
      (h c _ (Cert.KernelIdeal.Hand.mem_ucRefs Cert.KernelIdeal.main_arg2 (by decide))).trans (Cert.KernelIdeal.Hand.B4_main_arg2 m c),
      (h c _ (Cert.KernelIdeal.Hand.mem_ucRefs Cert.KernelIdeal.main_arg3 (by decide))).trans (Cert.KernelIdeal.Hand.B4_main_arg3 m c),
      (h c _ (Cert.KernelIdeal.Hand.mem_ucRefs Cert.KernelIdeal.main_arg4 (by decide))).trans (Cert.KernelIdeal.Hand.B4_main_arg4 m c),
      (h c _ (Cert.KernelIdeal.Hand.mem_ucRefs Cert.KernelIdeal.main_arg5 (by decide))).trans (Cert.KernelIdeal.Hand.B4_main_arg5 m c),
      (h c _ (Cert.KernelIdeal.Hand.mem_ucRefs Cert.KernelIdeal.main_arg6 (by decide))).trans (Cert.KernelIdeal.Hand.B4_main_arg6 m c)⟩
    refine (h c _ (Cert.KernelIdeal.Hand.mem_ucRefs Cert.KernelIdeal.main_v17 (by decide))).trans ((kernel_value m c).trans ?_)
    rw [Cert.Spec.Bridge.bridge (Xm m c) (W1m m c) (b1m m c) (gm m c) (bem m c) (W2m m c) (b2m m c)
      (fun r d => f0 (ix2 r d)) (fun k => f2 (ix1 k)) (fun k => f3 (ix1 k)) (fun k => f4 (ix1 k))]
    rfl
  · refine (θ_run Cert.ReferenceIdeal.defs _ _).mono (fun r h c => ⟨(h c).1.trans ?_, (h c).2⟩)
      (Cert.ReferenceIdeal.RunH.run (F := Ideal) m' ρ')
    rw [(hagree c).1, (hagree c).2.1, (hagree c).2.2.1, (hagree c).2.2.2.1, (hagree c).2.2.2.2.1, (hagree c).2.2.2.2.2.1, (hagree c).2.2.2.2.2.2]
    exact Cert.ReferenceIdeal.RefSpec.ref_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
